-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S600000 : Shape := ⟨1, ![600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x5 .f32) (main_arg1 : IVec S600000 32) (main_arg2 : IVec S600000 32) (main_arg3 : IVec S100000 32) (main_arg4 : FVec F S5x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x128 .f32 := Host.absf main_arg4
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x5 : Shape := ⟨2, ![100000, 5]⟩
abbrev S600000 : Shape := ⟨1, ![600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S100000x1 : Shape := ⟨2, ![100000, 1]⟩
abbrev S600000x5 : Shape := ⟨2, ![600000, 5]⟩
abbrev S1x128 : Shape := ⟨2, ![1, 128]⟩
abbrev S100000x128 : Shape := ⟨2, ![100000, 128]⟩
abbrev S5000x5 : Shape := ⟨2, ![5000, 5]⟩
abbrev S5000x128 : Shape := ⟨2, ![5000, 128]⟩
abbrev S600000x128 : Shape := ⟨2, ![600000, 128]⟩
abbrev S8 : Shape := ⟨1, ![8]⟩
abbrev S1x8 : Shape := ⟨2, ![1, 8]⟩
abbrev S100000x8 : Shape := ⟨2, ![100000, 8]⟩
abbrev S8x128 : Shape := ⟨2, ![8, 128]⟩
abbrev S5000x8 : Shape := ⟨2, ![5000, 8]⟩
abbrev S8x1 : Shape := ⟨2, ![8, 1]⟩
abbrev S1x1 : Shape := ⟨2, ![1, 1]⟩

abbrev nBuf : Space → Nat
  | .hbm => 136
  | .vmem => 30
  | .smem => 0
  | _ => 0

abbrev hbmTy0_0 (i : Nat) : BufTy := match i % 128 with
  | 0 => ⟨S100000x5, .f32⟩
  | 1 => ⟨S600000, .i32⟩
  | 2 => ⟨S600000, .i32⟩
  | 3 => ⟨S100000, .i32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x5, .f32⟩
  | 34 => ⟨S100000x5, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x5, .f32⟩
  | 44 => ⟨S_, .f32⟩
  | 45 => ⟨S100000x5, .f32⟩
  | 46 => ⟨S600000x1, .i32⟩
  | 47 => ⟨S100000x5, .f32⟩
  | 48 => ⟨S100000x1, .f32⟩
  | 49 => ⟨S100000x5, .f32⟩
  | 50 => ⟨S100000x5, .f32⟩
  | 51 => ⟨S1x128, .f32⟩
  | 52 => ⟨S100000x128, .f32⟩
  | 53 => ⟨S100000x1, .f32⟩
  | 54 => ⟨S100000x128, .f32⟩
  | 55 => ⟨S100000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S100000x1, .f32⟩
  | 70 => ⟨S100000x128, .f32⟩
  | 71 => ⟨S100000x128, .f32⟩
  | 72 => ⟨S1x128, .f32⟩
  | 73 => ⟨S100000x128, .f32⟩
  | 74 => ⟨S100000x1, .f32⟩
  | 75 => ⟨S100000x128, .f32⟩
  | 76 => ⟨S100000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S100000x1, .f32⟩
  | 91 => ⟨S100000x128, .f32⟩
  | 92 => ⟨S100000x128, .f32⟩
  | 93 => ⟨S1x128, .f32⟩
  | 94 => ⟨S100000x128, .f32⟩
  | 95 => ⟨S100000x1, .f32⟩
  | 96 => ⟨S100000x128, .f32⟩
  | 97 => ⟨S100000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S100000x128, .f32⟩
  | 109 => ⟨S600000x1, .i32⟩
  | 110 => ⟨S100000x128, .f32⟩
  | 111 => ⟨S100000x1, .f32⟩
  | 112 => ⟨S100000x128, .f32⟩
  | 113 => ⟨S100000x128, .f32⟩
  | 114 => ⟨S1x128, .f32⟩
  | 115 => ⟨S100000x128, .f32⟩
  | 116 => ⟨S8, .i32⟩
  | 117 => ⟨S100000x1, .i32⟩
  | 118 => ⟨S1x8, .i32⟩
  | 119 => ⟨S100000x8, .i32⟩
  | 120 => ⟨S100000x8, .i32⟩
  | 121 => ⟨S100000x8, .i1⟩
  | 122 => ⟨S100000x8, .f32⟩
  | 123 => ⟨S_, .f32⟩
  | 124 => ⟨S8, .f32⟩
  | 125 => ⟨S8x128, .f32⟩
  | 126 => ⟨S_, .f32⟩
  | 127 => ⟨S8, .f32⟩
  | _ => ⟨S100000x5, .f32⟩

abbrev hbmTy0_1 (i : Nat) : BufTy := match i % 128 with
  | 0 => ⟨S8, .f32⟩
  | 1 => ⟨S8x1, .f32⟩
  | 2 => ⟨S8x128, .f32⟩
  | 3 => ⟨S8x128, .f32⟩
  | 4 => ⟨S8x1, .f32⟩
  | 5 => ⟨S1x1, .f32⟩
  | 6 => ⟨S8x1, .f32⟩
  | 7 => ⟨S8x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x8, .f32⟩
  | .local _ .vmem, ⟨25, _⟩ => ⟨S5000x8, .f32⟩
  | .local _ .vmem, ⟨26, _⟩ => ⟨S5000x128, .f32⟩
  | .local _ .vmem, ⟨27, _⟩ => ⟨S5000x128, .f32⟩
  | .local _ .vmem, ⟨28, _⟩ => ⟨S8x128, .f32⟩
  | .local _ .vmem, ⟨29, _⟩ => ⟨S8x128, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_15 : Ref sig .tc := ⟨.hbm, 123, rfl⟩
abbrev main_v92 : Ref sig .tc := ⟨.hbm, 124, rfl⟩
abbrev main_v93 : Ref sig .tc := ⟨.hbm, 125, rfl⟩
abbrev main_cst_16 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v15 : BitVec 1 := Scalar.cmpi .eq arg0 c19_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S_S100000x5 : S_.BroadcastsInDim S100000x5 (![] : Fin 0 → Fin S100000x5.rank)
  shapeCasts_S128_S1x128 : S128.ShapeCasts S1x128
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S8_S1x8_1 : S8.BroadcastsInDim S1x8 (![1] : Fin 1 → Fin S1x8.rank)
  bcast_S100000x1_S100000x8_0_1 : S100000x1.BroadcastsInDim S100000x8 (![0, 1] : Fin 2 → Fin S100000x8.rank)
  bcast_S1x8_S100000x8_0_1 : S1x8.BroadcastsInDim S100000x8 (![0, 1] : Fin 2 → Fin S100000x8.rank)
  reducesTo_S100000x8_S8_d0 : S100000x8.ReducesTo [0] S8
  h_S_ : 0 < S_.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S100000_S600000x1_S600000_n_0_0_1_wf : ScatterDims.WF S100000 S600000x1 S600000 [] [0] [0] 1
  gather_S100000x5_S600000x1_S600000x5_1_0_n_n_0_1_15_wf : GatherDims.WF S100000x5 S600000x1 S600000x5 [1] [0] [] [0] [] 1 ![1, 5]
  scatter_S100000x5_S600000x1_S600000x5_1_0_0_1_wf : ScatterDims.WF S100000x5 S600000x1 S600000x5 [1] [0] [0] 1
  dot_S5000x5_S5x128_S5000x128_1_0_0_1_n_n_wf : DotDims.WF S5000x5 S5x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x8_S5000x128_S8x128_0_0_1_1_n_n_wf : DotDims.WF S5000x8 S5000x128 S8x128 [0] [0] [1] [1] [] []
  dot_S8x128_S128x1_S8x1_1_0_0_1_n_n_wf : DotDims.WF S8x128 S128x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x8.size a ≤ S100000x8.size a
  hwx4_0 : ∀ i : grid4.Coords, EltTy.bits .f32 = 32 ∨ (Rect.block (s := S100000x8) S5000x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x128.size a ≤ S8x128.size a
  hwx4_2 : ∀ i : grid4.Coords, EltTy.bits .f32 = 32 ∨ (Rect.block (s := S8x128) S8x128.size (cc4_transform_2 i) (hinb4_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x5_S600000x1_S600000x5_1_0_n_n_0_1_15 : GatherDims S100000x5 S600000x1 S600000x5 where
  offsetDims := [1]
  collapsedSliceDims := [0]
  operandBatchingDims := []
  startIndicesBatchingDims := []
  startIndexMap := [0]
  indexVectorDim := 1
  sliceSizes := ![1, 5]
  wf := gather_S100000x5_S600000x1_S600000x5_1_0_n_n_0_1_15_wf
def scatter_S100000x5_S600000x1_S600000x5_1_0_0_1 : ScatterDims S100000x5 S600000x1 S600000x5 where
  updateWindowDims := [1]
  insertedWindowDims := [0]
  scatterDimsToOperandDims := [0]
  indexVectorDim := 1
  wf := scatter_S100000x5_S600000x1_S600000x5_1_0_0_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x8_S5000x128_S8x128_0_0_1_1_n_n : DotDims S5000x8 S5000x128 S8x128 where
  lhsContracting := [0]
  rhsContracting := [0]
  lhsNonContracting := [1]
  rhsNonContracting := [1]
  lhsBatch := []
  rhsBatch := []
  wf := dot_S5000x8_S5000x128_S8x128_0_0_1_1_n_n_wf
def dot_S8x128_S128x1_S8x1_1_0_0_1_n_n : DotDims S8x128 S128x1 S8x1 where
  lhsContracting := [1]
  rhsContracting := [0]
  lhsNonContracting := [0]
  rhsNonContracting := [1]
  lhsBatch := []
  rhsBatch := []
  wf := dot_S8x128_S128x1_S8x1_1_0_0_1_n_n_wf

abbrev win0_0 : Pipeline.Window sig grid0 :=
  Pipeline.Window.ofSpec (Memref.whole main_v28) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S5000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S8x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x5 : Shape := ⟨2, ![100000, 5]⟩
abbrev S600000 : Shape := ⟨1, ![600000]⟩
abbrev S100000 : Shape := ⟨1, ![100000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S600000x1 : Shape := ⟨2, ![600000, 1]⟩
abbrev S100000x1 : Shape := ⟨2, ![100000, 1]⟩
abbrev S600000x5 : Shape := ⟨2, ![600000, 5]⟩
abbrev S100000x128 : Shape := ⟨2, ![100000, 128]⟩
abbrev S1x128 : Shape := ⟨2, ![1, 128]⟩
abbrev S600000x128 : Shape := ⟨2, ![600000, 128]⟩
abbrev S8x128 : Shape := ⟨2, ![8, 128]⟩
abbrev S8 : Shape := ⟨1, ![8]⟩
abbrev S8x1 : Shape := ⟨2, ![8, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x5, .f32⟩
  | 1 => ⟨S600000, .i32⟩
  | 2 => ⟨S600000, .i32⟩
  | 3 => ⟨S100000, .i32⟩
  | 4 => ⟨S5x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S100000, .f32⟩
  | 22 => ⟨S600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x5, .f32⟩
  | 34 => ⟨S100000x5, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x5, .f32⟩
  | 44 => ⟨S_, .f32⟩
  | 45 => ⟨S100000x5, .f32⟩
  | 46 => ⟨S600000x1, .i32⟩
  | 47 => ⟨S100000x5, .f32⟩
  | 48 => ⟨S100000x1, .f32⟩
  | 49 => ⟨S100000x5, .f32⟩
  | 50 => ⟨S100000x5, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x1, .f32⟩
  | 59 => ⟨S100000x128, .f32⟩
  | 60 => ⟨S100000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x1, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S100000x1, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x1, .f32⟩
  | 111 => ⟨S100000x128, .f32⟩
  | 112 => ⟨S100000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S_, .f32⟩
  | 123 => ⟨S100000x128, .f32⟩
  | 124 => ⟨S600000x1, .i32⟩
  | 125 => ⟨S100000x128, .f32⟩
  | 126 => ⟨S100000x1, .f32⟩
  | 127 => ⟨S100000x128, .f32⟩
  | _ => ⟨S100000x5, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S8x128, .f32⟩
  | 10 => ⟨S100000x1, .i32⟩
  | 11 => ⟨S8x128, .f32⟩
  | 12 => ⟨S_, .f32⟩
  | 13 => ⟨S100000, .f32⟩
  | 14 => ⟨S_, .f32⟩
  | 15 => ⟨S8, .f32⟩
  | 16 => ⟨S100000x1, .i32⟩
  | 17 => ⟨S8, .f32⟩
  | 18 => ⟨S_, .f32⟩
  | 19 => ⟨S8, .f32⟩
  | 20 => ⟨S8, .f32⟩
  | 21 => ⟨S8x1, .f32⟩
  | 22 => ⟨S8x128, .f32⟩
  | 23 => ⟨S8x128, .f32⟩
  | 24 => ⟨S8x1, .f32⟩
  | 25 => ⟨S1x1, .f32⟩
  | 26 => ⟨S8x1, .f32⟩
  | 27 => ⟨S8x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_12 : Ref sig .tc := ⟨.hbm, 113, rfl⟩
abbrev main_v79 : Ref sig .tc := ⟨.hbm, 114, rfl⟩
abbrev main_v80 : Ref sig .tc := ⟨.hbm, 115, rfl⟩
abbrev main_c_13 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_14 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call3_cst : Ref sig .tc := ⟨.hbm, 133, rfl⟩
abbrev main_call3_v0 : Ref sig .tc := ⟨.hbm, 134, rfl⟩
abbrev main_v96 : Ref sig .tc := ⟨.hbm, 135, rfl⟩
abbrev main_cst_15 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_16 : Ref sig .tc := ⟨.hbm, 140, rfl⟩
abbrev main_v100 : Ref sig .tc := ⟨.hbm, 141, rfl⟩
abbrev main_cst_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_18 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S_S100000x5 : S_.BroadcastsInDim S100000x5 (![] : Fin 0 → Fin S100000x5.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S8x128 : S_.BroadcastsInDim S8x128 (![] : Fin 0 → Fin S8x128.rank)
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S100000_S600000x1_S600000_n_0_0_1_wf : ScatterDims.WF S100000 S600000x1 S600000 [] [0] [0] 1
  gather_S100000x5_S600000x1_S600000x5_1_0_n_n_0_1_15_wf : GatherDims.WF S100000x5 S600000x1 S600000x5 [1] [0] [] [0] [] 1 ![1, 5]
  scatter_S100000x5_S600000x1_S600000x5_1_0_0_1_wf : ScatterDims.WF S100000x5 S600000x1 S600000x5 [1] [0] [0] 1
  dot_S100000x5_S5x128_S100000x128_1_0_0_1_n_n_wf : DotDims.WF S100000x5 S5x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S8x128_S100000x1_S100000x128_1_0_0_1_wf : ScatterDims.WF S8x128 S100000x1 S100000x128 [1] [0] [0] 1
  scatter_S8_S100000x1_S100000_n_0_0_1_wf : ScatterDims.WF S8 S100000x1 S100000 [] [0] [0] 1
  dot_S8x128_S128x1_S8x1_1_0_0_1_n_n_wf : DotDims.WF S8x128 S128x1 S8x1 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x5_S600000x1_S600000x5_1_0_n_n_0_1_15 : GatherDims S100000x5 S600000x1 S600000x5 where
  offsetDims := [1]
  collapsedSliceDims := [0]
  operandBatchingDims := []
  startIndicesBatchingDims := []
  startIndexMap := [0]
  indexVectorDim := 1
  sliceSizes := ![1, 5]
  wf := gather_S100000x5_S600000x1_S600000x5_1_0_n_n_0_1_15_wf
def scatter_S100000x5_S600000x1_S600000x5_1_0_0_1 : ScatterDims S100000x5 S600000x1 S600000x5 where
  updateWindowDims := [1]
  insertedWindowDims := [0]
  scatterDimsToOperandDims := [0]
  indexVectorDim := 1
  wf := scatter_S100000x5_S600000x1_S600000x5_1_0_0_1_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S8x128_S100000x1_S100000x128_1_0_0_1 : ScatterDims S8x128 S100000x1 S100000x128 where
  updateWindowDims := [1]
  insertedWindowDims := [0]
  scatterDimsToOperandDims := [0]
  indexVectorDim := 1
  wf := scatter_S8x128_S100000x1_S100000x128_1_0_0_1_wf
def scatter_S8_S100000x1_S100000_n_0_0_1 : ScatterDims S8 S100000x1 S100000 where
  updateWindowDims := []
  insertedWindowDims := [0]
  scatterDimsToOperandDims := [0]
  indexVectorDim := 1
  wf := scatter_S8_S100000x1_S100000_n_0_0_1_wf
def dot_S8x128_S128x1_S8x1_1_0_0_1_n_n : DotDims S8x128 S128x1 S8x1 where
  lhsContracting := [1]
  rhsContracting := [0]
  lhsNonContracting := [0]
  rhsNonContracting := [1]
  lhsBatch := []
  rhsBatch := []
  wf := dot_S8x128_S128x1_S8x1_1_0_0_1_n_n_wf

class Facts : Prop extends Facts₀ where

variable [Facts]
-- ==== Proof.K.D0Defs.lean ====
/- The first dense layer (pallas_call 0): what it leaves in its buffers at each grid point, as definitions. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 0: one row tile (5000 rows) of the layer's input against the whole weight
    matrix and the bias row, per grid point -/

/-- Window `w`'s block at point `t`, read off its array as the region finds it (`V`). -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole rectangles the body loads and stores through. -/
abbrev r0_x : Rect S5000x5 := Rect.unit (s := S5000x5) ![0, 0] S5000x5.size inb_S5000x5_S5000x5_0_0
abbrev r0_w : Rect S5x128 := Rect.unit (s := S5x128) ![0, 0] S5x128.size inb_S5x128_S5x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- What the body leaves in the output tile's buffer, from the three input blocks: its one store (the
    rectified affine map of the row tile) as a piece. -/
def out0_3 (x0 : Vec F S5000x5 .f32) (x1 : Vec F S5x128 .f32) (x2 : Vec F S1x128 .f32) : Vec F S5000x128 .f32 :=
  View.canon [⟨r0_o, k0_pay1 (View.ld x0 r0_x) (View.ld x1 r0_w) (View.ld x2 r0_b)⟩]

/-- The proof data of pipeline 0 on core `c` at the entry contents `V`: after the body each input buffer holds its
    block and the output buffer the tile `out0_3` of them; the invariant is the scoped rest and the generator register. -/
def dat0 (V : (c : Dev nD) → (b : Ref sig .tc) → Buf (Elt F) ((c : Thread nD τ).loc b)) (c : Dev nD) :
    Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (V : (c : Dev nD) → (b : Ref sig .tc) → Buf (Elt F) ((c : Thread nD τ).loc b)) (c : Dev nD) (w : Fin cfg0.W) :
    (dat0 V c).A w = V c (Pipeline.arrRef spec0 w) := by
  dsimp only [dat0]
theorem after0_0 (V : (c : Dev nD) → (b : Ref sig .tc) → Buf (Elt F) ((c : Thread nD τ).loc b)) (c : Dev nD) (t : Fin cfg0.N) :
    (dat0 V c).after 0 t = iblk0 V c 0 t := by dsimp only [dat0]
theorem after0_1 (V : (c : Dev nD) → (b : Ref sig .tc) → Buf (Elt F) ((c : Thread nD τ).loc b)) (c : Dev nD) (t : Fin cfg0.N) :
    (dat0 V c).after 1 t = iblk0 V c 1 t := by dsimp only [dat0]
theorem after0_2 (V : (c : Dev nD) → (b : Ref sig .tc) → Buf (Elt F) ((c : Thread nD τ).loc b)) (c : Dev nD) (t : Fin cfg0.N) :
    (dat0 V c).after 2 t = iblk0 V c 2 t := by dsimp only [dat0]
theorem after0_3 (V : (c : Dev nD) → (b : Ref sig .tc) → Buf (Elt F) ((c : Thread nD τ).loc b)) (c : Dev nD) (t : Fin cfg0.N) :
    (dat0 V c).after 3 t = out0_3 (iblk0 V c 0 t) (iblk0 V c 1 t) (iblk0 V c 2 t) := by dsimp only [dat0]

end Cert.Kernel.Hand

end
-- ==== Proof.K.D1Defs.lean ====
/- The dense layer number 1 (counting from 0) (pallas_call 1): what it leaves in its buffers at each grid point, as definitions. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 1: one row tile (5000 rows) of the layer's input against the whole weight
    matrix and the bias row, per grid point -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole rectangles the body loads and stores through. -/
abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- What the body leaves in the output tile's buffer, from the three input blocks: its one store (the
    rectified affine map of the row tile) as a piece. -/
def out1_3 (x0 : Vec F S5000x128 .f32) (x1 : Vec F S128x128 .f32) (x2 : Vec F S1x128 .f32) : Vec F S5000x128 .f32 :=
  View.canon [⟨r1_o, k1_pay1 (View.ld x0 r1_x) (View.ld x1 r1_w) (View.ld x2 r1_b)⟩]

/-- The proof data of pipeline 1 on core `c` at the entry contents `V`: after the body each input buffer holds its
    block and the output buffer the tile `out1_3` of them; the invariant is the scoped rest and the generator register. -/
def dat1 (V : (c : Dev nD) → (b : Ref sig .tc) → Buf (Elt F) ((c : Thread nD τ).loc b)) (c : Dev nD) :
    Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (V : (c : Dev nD) → (b : Ref sig .tc) → Buf (Elt F) ((c : Thread nD τ).loc b)) (c : Dev nD) (w : Fin cfg1.W) :
    (dat1 V c).A w = V c (Pipeline.arrRef spec1 w) := by
  dsimp only [dat1]
theorem after1_0 (V : (c : Dev nD) → (b : Ref sig .tc) → Buf (Elt F) ((c : Thread nD τ).loc b)) (c : Dev nD) (t : Fin cfg1.N) :
    (dat1 V c).after 0 t = iblk1 V c 0 t := by dsimp only [dat1]
theorem after1_1 (V : (c : Dev nD) → (b : Ref sig .tc) → Buf (Elt F) ((c : Thread nD τ).loc b)) (c : Dev nD) (t : Fin cfg1.N) :
    (dat1 V c).after 1 t = iblk1 V c 1 t := by dsimp only [dat1]
theorem after1_2 (V : (c : Dev nD) → (b : Ref sig .tc) → Buf (Elt F) ((c : Thread nD τ).loc b)) (c : Dev nD) (t : Fin cfg1.N) :
    (dat1 V c).after 2 t = iblk1 V c 2 t := by dsimp only [dat1]
theorem after1_3 (V : (c : Dev nD) → (b : Ref sig .tc) → Buf (Elt F) ((c : Thread nD τ).loc b)) (c : Dev nD) (t : Fin cfg1.N) :
    (dat1 V c).after 3 t = out1_3 (iblk1 V c 0 t) (iblk1 V c 1 t) (iblk1 V c 2 t) := by dsimp only [dat1]

end Cert.Kernel.Hand

end
-- ==== Proof.K.D2Defs.lean ====
/- The dense layer number 2 (counting from 0) (pallas_call 2): what it leaves in its buffers at each grid point, as definitions. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 2: one row tile (5000 rows) of the layer's input against the whole weight
    matrix and the bias row, per grid point -/

/-- Window `w`'s block at point `t`, read off its array as the region finds it (`V`). -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole rectangles the body loads and stores through. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S5000x128 := Rect.unit (s := S5000x128) ![0, 0] S5000x128.size inb_S5000x128_S5000x128_0_0

/-- What the body leaves in the output tile's buffer, from the three input blocks: its one store (the
    rectified affine map of the row tile) as a piece. -/
def out2_3 (x0 : Vec F S5000x128 .f32) (x1 : Vec F S128x128 .f32) (x2 : Vec F S1x128 .f32) : Vec F S5000x128 .f32 :=
  View.canon [⟨r2_o, k2_pay1 (View.ld x0 r2_x) (View.ld x1 r2_w) (View.ld x2 r2_b)⟩]

/-- The proof data of pipeline 2 on core `c` at the entry contents `V`: after the body each input buffer holds its
    block and the output buffer the tile `out2_3` of them; the invariant is the scoped rest and the generator register. -/
def dat2 (V : (c : Dev nD) → (b : Ref sig .tc) → Buf (Elt F) ((c : Thread nD τ).loc b)) (c : Dev nD) :
    Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (V : (c : Dev nD) → (b : Ref sig .tc) → Buf (Elt F) ((c : Thread nD τ).loc b)) (c : Dev nD) (w : Fin cfg2.W) :
    (dat2 V c).A w = V c (Pipeline.arrRef spec2 w) := by
  dsimp only [dat2]
theorem after2_0 (V : (c : Dev nD) → (b : Ref sig .tc) → Buf (Elt F) ((c : Thread nD τ).loc b)) (c : Dev nD) (t : Fin cfg2.N) :
    (dat2 V c).after 0 t = iblk2 V c 0 t := by dsimp only [dat2]
theorem after2_1 (V : (c : Dev nD) → (b : Ref sig .tc) → Buf (Elt F) ((c : Thread nD τ).loc b)) (c : Dev nD) (t : Fin cfg2.N) :
    (dat2 V c).after 1 t = iblk2 V c 1 t := by dsimp only [dat2]
theorem after2_2 (V : (c : Dev nD) → (b : Ref sig .tc) → Buf (Elt F) ((c : Thread nD τ).loc b)) (c : Dev nD) (t : Fin cfg2.N) :
    (dat2 V c).after 2 t = iblk2 V c 2 t := by dsimp only [dat2]
theorem after2_3 (V : (c : Dev nD) → (b : Ref sig .tc) → Buf (Elt F) ((c : Thread nD τ).loc b)) (c : Dev nD) (t : Fin cfg2.N) :
    (dat2 V c).after 3 t = out2_3 (iblk2 V c 0 t) (iblk2 V c 1 t) (iblk2 V c 2 t) := by dsimp only [dat2]

end Cert.Kernel.Hand

end
-- ==== Proof.K.D3Defs.lean ====
/- The dense layer number 3 (counting from 0) (pallas_call 3): what it leaves in its buffers at each grid point, as definitions. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 3: one row tile (5000 rows) of the layer's input against the whole weight
    matrix and the bias row, per grid point -/

/-- Window `w`'s block at point `t`, read off its array as the region finds it (`V`). -/
def iblk3 (V : (c : Dev nD) → (b : Ref sig .tc) → Buf (Elt F) ((c : Thread nD τ).loc b)) (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The whole rectangles the body loads and stores through. -/
abbrev r3_x : Rect S5000x128 := Rect.unit (s := S5000x128) ![0, 0] S5000x128.size inb_S5000x128_S5000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_o : Rect S5000x128 := Rect.unit (s := S5000x128) ![0, 0] S5000x128.size inb_S5000x128_S5000x128_0_0

/-- What the body leaves in the output tile's buffer, from the three input blocks: its one store (the
    rectified affine map of the row tile) as a piece. -/
def out3_3 (x0 : Vec F S5000x128 .f32) (x1 : Vec F S128x128 .f32) (x2 : Vec F S1x128 .f32) : Vec F S5000x128 .f32 :=
  View.canon [⟨r3_o, k3_pay1 (View.ld x0 r3_x) (View.ld x1 r3_w) (View.ld x2 r3_b)⟩]

/-- The proof data of pipeline 3 on core `c` at the entry contents `V`: after the body each input buffer holds its
    block and the output buffer the tile `out3_3` of them; the invariant is the scoped rest and the generator register. -/
def dat3 (V : (c : Dev nD) → (b : Ref sig .tc) → Buf (Elt F) ((c : Thread nD τ).loc b)) (c : Dev nD) :
    Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (V : (c : Dev nD) → (b : Ref sig .tc) → Buf (Elt F) ((c : Thread nD τ).loc b)) (c : Dev nD) (w : Fin cfg3.W) :
    (dat3 V c).A w = V c (Pipeline.arrRef spec3 w) := by
  dsimp only [dat3]
theorem after3_0 (V : (c : Dev nD) → (b : Ref sig .tc) → Buf (Elt F) ((c : Thread nD τ).loc b)) (c : Dev nD) (t : Fin cfg3.N) :
    (dat3 V c).after 0 t = iblk3 V c 0 t := by dsimp only [dat3]
theorem after3_1 (V : (c : Dev nD) → (b : Ref sig .tc) → Buf (Elt F) ((c : Thread nD τ).loc b)) (c : Dev nD) (t : Fin cfg3.N) :
    (dat3 V c).after 1 t = iblk3 V c 1 t := by dsimp only [dat3]
theorem after3_2 (V : (c : Dev nD) → (b : Ref sig .tc) → Buf (Elt F) ((c : Thread nD τ).loc b)) (c : Dev nD) (t : Fin cfg3.N) :
    (dat3 V c).after 2 t = iblk3 V c 2 t := by dsimp only [dat3]
theorem after3_3 (V : (c : Dev nD) → (b : Ref sig .tc) → Buf (Elt F) ((c : Thread nD τ).loc b)) (c : Dev nD) (t : Fin cfg3.N) :
    (dat3 V c).after 3 t = out3_3 (iblk3 V c 0 t) (iblk3 V c 1 t) (iblk3 V c 2 t) := by dsimp only [dat3]

end Cert.Kernel.Hand

end
-- ==== Proof.K.P4Defs.lean ====
/- The mean-pool pallas_call (number 4): the per-graph partial sums carried in its scratch buffer from grid point to
   grid point, and what it leaves in its buffers, as definitions. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## pallas_call 4: a one-hot matmul accumulated over the 20 row tiles

At grid point `t` the body adds, for each graph `g` and each feature column `j`, the sum over the tile's 5000 rows of
`onehot[row, g] * h[row, j]` to a scratch accumulator (reset to zero at the first point), and at the last point copies
the accumulator to the output tile. -/

/-- Window `w`'s block at point `t`, read off its array as the region finds it (`V`). -/
def iblk4 (V : (c : Dev nD) → (b : Ref sig .tc) → Buf (Elt F) ((c : Thread nD τ).loc b)) (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The scratch accumulator, a whole scoped buffer of the kernel's own. -/
abbrev scM4 : Memref sig .tc .vmem S8x128 .f32 := Memref.whole cc4_scratch0

/-- THE ACCUMULATION. The scratch after the body at position `n`: the first point's tile product added to the zero
    tile, then each later point's tile product added to what the point before left. -/
def acc4 (V : (c : Dev nD) → (b : Ref sig .tc) → Buf (Elt F) ((c : Thread nD τ).loc b)) (c : Dev nD) :
    (n : ℕ) → n < cfg4.N → Vec F S8x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (acc4 V c n (Nat.lt_of_succ_lt hn))

theorem acc4_zero (V : (c : Dev nD) → (b : Ref sig .tc) → Buf (Elt F) ((c : Thread nD τ).loc b)) (c : Dev nD) (hn : 0 < cfg4.N) :
    acc4 V c 0 hn = k4_pay2 (iblk4 V c 0 ⟨0, hn⟩) (iblk4 V c 1 ⟨0, hn⟩) (k4_pay1 (F := F)) := rfl
theorem acc4_succ (V : (c : Dev nD) → (b : Ref sig .tc) → Buf (Elt F) ((c : Thread nD τ).loc b)) (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- The region invariant before position `n`: before the first point every scoped buffer that is no staging buffer at
    anything and the generator register at some state; afterwards the scratch at what the point before left in it,
    the other such buffers at anything, and the generator register at some state. -/
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := Pipeline.UD sig nD τ) (Lvl := ℕ) (Val := Elt F) spec4 c [cc4_scratch0]) ∗ (∃ r, prngReg c r))

/-- The proof data of pipeline 4 on core `c` at the entry contents `V`: after the body each input buffer holds its
    block; the output tile's buffer holds the accumulator at the point that stores it (the last; at the other points
    the body leaves the buffer as it found it and this value is not consulted); nothing owed; full shares. -/
def dat4 (V : (c : Dev nD) → (b : Ref sig .tc) → Buf (Elt F) ((c : Thread nD τ).loc b)) (c : Dev nD) :
    Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (V : (c : Dev nD) → (b : Ref sig .tc) → Buf (Elt F) ((c : Thread nD τ).loc b)) (c : Dev nD) (w : Fin cfg4.W) :
    (dat4 V c).A w = V c (Pipeline.arrRef spec4 w) := by
  dsimp only [dat4]
theorem after4_0 (V : (c : Dev nD) → (b : Ref sig .tc) → Buf (Elt F) ((c : Thread nD τ).loc b)) (c : Dev nD) (t : Fin cfg4.N) :
    (dat4 V c).after 0 t = iblk4 V c 0 t := by dsimp only [dat4]
theorem after4_1 (V : (c : Dev nD) → (b : Ref sig .tc) → Buf (Elt F) ((c : Thread nD τ).loc b)) (c : Dev nD) (t : Fin cfg4.N) :
    (dat4 V c).after 1 t = iblk4 V c 1 t := by dsimp only [dat4]
theorem after4_2 (V : (c : Dev nD) → (b : Ref sig .tc) → Buf (Elt F) ((c : Thread nD τ).loc b)) (c : Dev nD) (t : Fin cfg4.N) :
    (dat4 V c).after 2 t = acc4 V c t.val t.isLt := by dsimp only [dat4]

end Cert.Kernel.Hand

end
-- ==== Proof.K.RunDefs.lean ====
/- The contents of core c's buffers at each boundary between @main's items: after a host stretch the stretch's
   operations applied; after a pallas_call its arrays at what its write-backs leave, every other buffer as entered. -/
import proofs.«420149_j66425964200347_1_alg».proof.Proof.K.D0Defs
import proofs.«420149_j66425964200347_1_alg».proof.Proof.K.D1Defs
import proofs.«420149_j66425964200347_1_alg».proof.Proof.K.D2Defs
import proofs.«420149_j66425964200347_1_alg».proof.Proof.K.D3Defs
import proofs.«420149_j66425964200347_1_alg».proof.Proof.K.P4Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After host stretch 0 (pallas_call 0's entry). -/
abbrev W1 : Dev nD → Valuation τ sig (Elt F) := fun c => StableHlo.after hostOps0 (W0 m ρ c)
/-- The same read at the TensorCore's references (what pallas_call 0's proof data take). -/
abbrev V1 : (c : Dev nD) → (b : Ref sig .tc) → Buf (Elt F) ((c : Thread nD τ).loc b) := fun c b => W1 m ρ c b
/-- At pallas_call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (pallas_call 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (pallas_call 1's entry). -/
abbrev W3 : Dev nD → Valuation τ sig (Elt F) := fun c => StableHlo.after hostOps1 (W2 m ρ c)
/-- The same read at the TensorCore's references (what pallas_call 1's proof data take). -/
abbrev V3 : (c : Dev nD) → (b : Ref sig .tc) → Buf (Elt F) ((c : Thread nD τ).loc b) := fun c b => W3 m ρ c b
/-- At pallas_call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (pallas_call 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (pallas_call 2's entry). -/
abbrev W5 : Dev nD → Valuation τ sig (Elt F) := fun c => StableHlo.after hostOps2 (W4 m ρ c)
/-- The same read at the TensorCore's references (what pallas_call 2's proof data take). -/
abbrev V5 : (c : Dev nD) → (b : Ref sig .tc) → Buf (Elt F) ((c : Thread nD τ).loc b) := fun c b => W5 m ρ c b
/-- At pallas_call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (pallas_call 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (pallas_call 3's entry). -/
abbrev W7 : Dev nD → Valuation τ sig (Elt F) := fun c => StableHlo.after hostOps3 (W6 m ρ c)
/-- The same read at the TensorCore's references (what pallas_call 3's proof data take). -/
abbrev V7 : (c : Dev nD) → (b : Ref sig .tc) → Buf (Elt F) ((c : Thread nD τ).loc b) := fun c b => W7 m ρ c b
/-- At pallas_call 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (pallas_call 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (pallas_call 4's entry). -/
abbrev W9 : Dev nD → Valuation τ sig (Elt F) := fun c => StableHlo.after hostOps4 (W8 m ρ c)
/-- The same read at the TensorCore's references (what pallas_call 4's proof data take). -/
abbrev V9 : (c : Dev nD) → (b : Ref sig .tc) → Buf (Elt F) ((c : Thread nD τ).loc b) := fun c b => W9 m ρ c b
/-- At pallas_call 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (pallas_call 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents @main returns with. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

end Cert.Kernel.Hand

end
-- ==== Proof.K.D0Body.lean ====
/- The first dense layer (pallas_call 0): its body meets the pipeline's obligation at every grid point. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import proofs.«420149_j66425964200347_1_alg».proof.Proof.K.D0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before0_0_of (V : (c : Dev nD) → (b : Ref sig .tc) → Buf (Elt F) ((c : Thread nD τ).loc b)) {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved,
    the window is uncut and never idle. -/
theorem before0_1_of (V : (c : Dev nD) → (b : Ref sig .tc) → Buf (Elt F) ((c : Thread nD τ).loc b)) {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved,
    the window is uncut and never idle. -/
theorem before0_2_of (V : (c : Dev nD) → (b : Ref sig .tc) → Buf (Elt F) ((c : Thread nD τ).loc b)) {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output tile -/

/-- The whole-tile store covers the output buffer: its rectangle is the buffer's full extent. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out0_3` of them:
    three whole loads, a load of the output tile whose value is not used, and one whole store of the payload. -/
theorem sound_kernel0 (c : Dev nD) (E : Set ℕ) (i : grid0.Coords)
    (arg1 : Memref sig .tc .vmem S5000x5 .f32) (harg1 : arg1.IsWhole) (arg2 : Memref sig .tc .vmem S5x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x5 .f32) (x1 : Vec F S5x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the proof data of this layer -/

theorem before0_0 (V : (c : Dev nD) → (b : Ref sig .tc) → Buf (Elt F) ((c : Thread nD τ).loc b)) (c : Dev nD) (t : Fin cfg0.N) (d) : (dat0 V c).before 0 t d = iblk0 V c 0 t :=
  before0_0_of V (dat0 V c) (A_eq0 V c 0) (after0_0 V c) t d
theorem before0_1 (V : (c : Dev nD) → (b : Ref sig .tc) → Buf (Elt F) ((c : Thread nD τ).loc b)) (c : Dev nD) (t : Fin cfg0.N) (d) : (dat0 V c).before 1 t d = iblk0 V c 1 t :=
  before0_1_of V (dat0 V c) (A_eq0 V c 1) (after0_1 V c) t d
theorem before0_2 (V : (c : Dev nD) → (b : Ref sig .tc) → Buf (Elt F) ((c : Thread nD τ).loc b)) (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current staging
    buffer at what the pipeline left in it. -/
def bodyPre0 (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    what is owed pass through unread. -/
theorem sound_body0 (V : (c : Dev nD) → (b : Ref sig .tc) → Buf (Elt F) ((c : Thread nD τ).loc b)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

end Cert.Kernel.Hand

end
-- ==== Proof.K.D1Body.lean ====
/- The dense layer number 1 (counting from 0) (pallas_call 1): its body meets the pipeline's obligation at every grid point. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import proofs.«420149_j66425964200347_1_alg».proof.Proof.K.D1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before1_0_of (V : (c : Dev nD) → (b : Ref sig .tc) → Buf (Elt F) ((c : Thread nD τ).loc b)) {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved,
    the window is uncut and never idle. -/
theorem before1_1_of (V : (c : Dev nD) → (b : Ref sig .tc) → Buf (Elt F) ((c : Thread nD τ).loc b)) {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved,
    the window is uncut and never idle. -/
theorem before1_2_of (V : (c : Dev nD) → (b : Ref sig .tc) → Buf (Elt F) ((c : Thread nD τ).loc b)) {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output tile -/

/-- The whole-tile store covers the output buffer: its rectangle is the buffer's full extent. -/
theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out1_3` of them:
    three whole loads, a load of the output tile whose value is not used, and one whole store of the payload. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers under the proof data of this layer -/

theorem before1_0 (V : (c : Dev nD) → (b : Ref sig .tc) → Buf (Elt F) ((c : Thread nD τ).loc b)) (c : Dev nD) (t : Fin cfg1.N) (d) : (dat1 V c).before 0 t d = iblk1 V c 0 t :=
  before1_0_of V (dat1 V c) (A_eq1 V c 0) (after1_0 V c) t d
theorem before1_1 (V : (c : Dev nD) → (b : Ref sig .tc) → Buf (Elt F) ((c : Thread nD τ).loc b)) (c : Dev nD) (t : Fin cfg1.N) (d) : (dat1 V c).before 1 t d = iblk1 V c 1 t :=
  before1_1_of V (dat1 V c) (A_eq1 V c 1) (after1_1 V c) t d
theorem before1_2 (V : (c : Dev nD) → (b : Ref sig .tc) → Buf (Elt F) ((c : Thread nD τ).loc b)) (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current staging
    buffer at what the pipeline left in it. -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what is owed pass through unread. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.Kernel.Hand

end
-- ==== Proof.K.D2Body.lean ====
/- The dense layer number 2 (counting from 0) (pallas_call 2): its body meets the pipeline's obligation at every grid point. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import proofs.«420149_j66425964200347_1_alg».proof.Proof.K.D2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before2_0_of (V : (c : Dev nD) → (b : Ref sig .tc) → Buf (Elt F) ((c : Thread nD τ).loc b)) {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved,
    the window is uncut and never idle. -/
theorem before2_1_of (V : (c : Dev nD) → (b : Ref sig .tc) → Buf (Elt F) ((c : Thread nD τ).loc b)) {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved,
    the window is uncut and never idle. -/
theorem before2_2_of (V : (c : Dev nD) → (b : Ref sig .tc) → Buf (Elt F) ((c : Thread nD τ).loc b)) {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output tile -/

/-- The whole-tile store covers the output buffer: its rectangle is the buffer's full extent. -/
theorem cover2_3 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out2_3` of them:
    three whole loads, a load of the output tile whose value is not used, and one whole store of the payload. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers under the proof data of this layer -/

theorem before2_0 (V : (c : Dev nD) → (b : Ref sig .tc) → Buf (Elt F) ((c : Thread nD τ).loc b)) (c : Dev nD) (t : Fin cfg2.N) (d) : (dat2 V c).before 0 t d = iblk2 V c 0 t :=
  before2_0_of V (dat2 V c) (A_eq2 V c 0) (after2_0 V c) t d
theorem before2_1 (V : (c : Dev nD) → (b : Ref sig .tc) → Buf (Elt F) ((c : Thread nD τ).loc b)) (c : Dev nD) (t : Fin cfg2.N) (d) : (dat2 V c).before 1 t d = iblk2 V c 1 t :=
  before2_1_of V (dat2 V c) (A_eq2 V c 1) (after2_1 V c) t d
theorem before2_2 (V : (c : Dev nD) → (b : Ref sig .tc) → Buf (Elt F) ((c : Thread nD τ).loc b)) (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what is owed, and each window's current staging
    buffer at what the pipeline left in it. -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    what is owed pass through unread. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (V : (c : Dev nD) → (b : Ref sig .tc) → Buf (Elt F) ((c : Thread nD τ).loc b)) (c : Dev nD) :
    BodyObligation (dat2 (F := F) V c) (defs₀ (F := F)) Variants.none () Set.univ := fun t => by
  rw [bigSep_W2, bigSep_W2]
  exact sound_body2 V c t

end Cert.Kernel.Hand

end
-- ==== Proof.K.D3Body.lean ====
/- The dense layer number 3 (counting from 0) (pallas_call 3): its body meets the pipeline's obligation at every grid point. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import proofs.«420149_j66425964200347_1_alg».proof.Proof.K.D3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before3_0_of (V : (c : Dev nD) → (b : Ref sig .tc) → Buf (Elt F) ((c : Thread nD τ).loc b)) {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved,
    the window is uncut and never idle. -/
theorem before3_1_of (V : (c : Dev nD) → (b : Ref sig .tc) → Buf (Elt F) ((c : Thread nD τ).loc b)) {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved,
    the window is uncut and never idle. -/
theorem before3_2_of (V : (c : Dev nD) → (b : Ref sig .tc) → Buf (Elt F) ((c : Thread nD τ).loc b)) {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output tile -/

/-- The whole-tile store covers the output buffer: its rectangle is the buffer's full extent. -/
theorem cover3_3 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out3_3` of them:
    three whole loads, a load of the output tile whose value is not used, and one whole store of the payload. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The inputs' buffers under the proof data of this layer -/

theorem before3_0 (V : (c : Dev nD) → (b : Ref sig .tc) → Buf (Elt F) ((c : Thread nD τ).loc b)) (c : Dev nD) (t : Fin cfg3.N) (d) : (dat3 V c).before 0 t d = iblk3 V c 0 t :=
  before3_0_of V (dat3 V c) (A_eq3 V c 0) (after3_0 V c) t d
theorem before3_1 (V : (c : Dev nD) → (b : Ref sig .tc) → Buf (Elt F) ((c : Thread nD τ).loc b)) (c : Dev nD) (t : Fin cfg3.N) (d) : (dat3 V c).before 1 t d = iblk3 V c 1 t :=
  before3_1_of V (dat3 V c) (A_eq3 V c 1) (after3_1 V c) t d
theorem before3_2 (V : (c : Dev nD) → (b : Ref sig .tc) → Buf (Elt F) ((c : Thread nD τ).loc b)) (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, what is owed, and each window's current staging
    buffer at what the pipeline left in it. -/
def bodyPre3 (V : (c : Dev nD) → (b : Ref sig .tc) → Buf (Elt F) ((c : Thread nD τ).loc b)) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (V : (c : Dev nD) → (b : Ref sig .tc) → Buf (Elt F) ((c : Thread nD τ).loc b)) (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and
    what is owed pass through unread. -/
theorem sound_body3 (V : (c : Dev nD) → (b : Ref sig .tc) → Buf (Elt F) ((c : Thread nD τ).loc b)) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (V : (c : Dev nD) → (b : Ref sig .tc) → Buf (Elt F) ((c : Thread nD τ).loc b)) (c : Dev nD) :
    BodyObligation (dat3 (F := F) V c) (defs₀ (F := F)) Variants.none () Set.univ := fun t => by
  rw [bigSep_W3, bigSep_W3]
  exact sound_body3 V c t

end Cert.Kernel.Hand

end
-- ==== Proof.K.P4Body.lean ====
/- The mean-pool pallas_call (number 4): its body meets the pipeline's obligation at every grid point, and the
   invariant's two ends. -/
import proofs.«420149_j66425964200347_1_alg».proof.Proof.Gen.Kernel.Launch
import proofs.«420149_j66425964200347_1_alg».proof.Proof.Gen.Kernel.Skeleton
import proofs.«420149_j66425964200347_1_alg».proof.Proof.Gen.Kernel.Points
import proofs.«420149_j66425964200347_1_alg».proof.Proof.K.P4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions, in closed form -/

/-- The first conditional's test: the grid coordinate is zero. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The second conditional's test: the grid coordinate is nineteen. -/
abbrev cond4_1 (i : grid4.Coords) : Prop := k4_cond2 i = 1#1
/-- It holds at the last point only. -/
theorem hcond4_1 : ∀ t : Fin cfg4.N, cond4_1 (grid4.coords t) ↔ t.val = 19 :=
  (by decide +kernel : ∀ t : Fin grid4.N, cond4_1 (grid4.coords t) ↔ t.val = 19)

/-- The offsets of the whole-buffer rectangle are zero on both axes. -/
theorem hz4 : (![0, 0] : Fin 2 → Nat) = fun _ => 0 := funext fun a => by fin_cases a <;> rfl

/-! ## The body on any whole memrefs, case by case

The inputs' memrefs hold `x0` and `x1`; each load reads the whole buffer and each store covers it, so what a
buffer holds afterwards is the payload of the last store into it. -/

set_option maxHeartbeats 1000000 in
/-- At the first point (not the last): the scratch, found at anything, is reset to the zero tile and then holds the
    tile product added to the zero tile; the output's buffer is handed back as found. -/
theorem run4_A (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : cond4_0 i) (hc1 : ¬cond4_1 i)
    (x0 : Vec F S5000x8 .f32) (x1 : Vec F S5000x128 .f32) (xi2 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
      ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 (k4_pay1 (F := F)))) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  rw [View.read_writes_eq_canon _ _ _ (fun y => ⟨_, List.mem_cons.mpr (Or.inl rfl), View.mem_set_unit_zero (S := S8x128) hz4 inb_S8x128_S8x128_0_0 y⟩)]
  sl_unfold_words
  rw [View.canon_cons_unit_zero (S := S8x128) hz4, View.readCov_unit_zero (S := S8x128) _ hz4]
  simp only [View.readAt_eq_ld, harg1.read_unread, harg2.read_unread, View.ld_unit_zero (S := S5000x8) hz4, View.ld_unit_zero (S := S5000x128) hz4]

set_option maxHeartbeats 1000000 in
/-- At a middle point: the scratch, found at `xs`, then holds the tile product added to `xs`; the output's buffer
    is handed back as found. -/
theorem run4_B (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : ¬cond4_0 i) (hc1 : ¬cond4_1 i)
    (x0 : Vec F S5000x8 .f32) (x1 : Vec F S5000x128 .f32) (xi2 : Vec F S8x128 .f32) (xs : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
      ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 xs)) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  rw [View.read_writes_eq_canon _ _ _ (fun y => ⟨_, List.mem_cons.mpr (Or.inl rfl), View.mem_set_unit_zero (S := S8x128) hz4 inb_S8x128_S8x128_0_0 y⟩)]
  sl_unfold_words
  rw [View.canon_cons_unit_zero (S := S8x128) hz4]
  simp only [View.readAt_eq_ld, harg1.read_unread, harg2.read_unread, harg4.read_unread, View.ld_unit_zero (S := S5000x8) hz4, View.ld_unit_zero (S := S5000x128) hz4, View.ld_unit_zero (S := S8x128) hz4]

set_option maxHeartbeats 1000000 in
/-- At the last point (not the first): the scratch, found at `xs`, then holds the tile product added to `xs`, and
    the output's buffer, found at anything, holds the same. -/
theorem run4_C (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : ¬cond4_0 i) (hc1 : cond4_1 i)
    (x0 : Vec F S5000x8 .f32) (x1 : Vec F S5000x128 .f32) (xs : Vec F S8x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
      ∗ (iprop(owns (c : Thread nD τ) arg1 fullShare x0 ∗ owns (c : Thread nD τ) arg2 fullShare x1 ∗ owns (c : Thread nD τ) arg3 fullShare (k4_pay2 x0 x1 xs) ∗ owns (c : Thread nD τ) arg4 fullShare (k4_pay2 x0 x1 xs)) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => ⟨_, List.mem_cons.mpr (Or.inl rfl), View.mem_set_unit_zero (S := S8x128) hz4 inb_S8x128_S8x128_0_0 y⟩)]
    sl_unfold_words
    rw [View.canon_cons_unit_zero (S := S8x128) hz4, View.readCov_unit_zero (S := S8x128) _ hz4]
    simp only [View.readAt_eq_ld, harg1.read_unread, harg2.read_unread, harg4.read_unread, View.ld_unit_zero (S := S5000x8) hz4, View.ld_unit_zero (S := S5000x128) hz4, View.ld_unit_zero (S := S8x128) hz4]
  iexists _; isplitr
  swap; · iexact HS0
  ipureintro
  sl_unfold_words
  rw [View.read_writes_eq_canon _ _ _ (fun y => ⟨_, List.mem_cons.mpr (Or.inl rfl), View.mem_set_unit_zero (S := S8x128) hz4 inb_S8x128_S8x128_0_0 y⟩)]
  rw [View.canon_cons_unit_zero (S := S8x128) hz4]
  simp only [View.readAt_eq_ld, harg1.read_unread, harg2.read_unread, harg4.read_unread, View.ld_unit_zero (S := S5000x8) hz4, View.ld_unit_zero (S := S5000x128) hz4, View.ld_unit_zero (S := S8x128) hz4]

/-! ## Where the windows are idle -/

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- The output window is idle, and not written back, at every point but the last; live at the last. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The staging memrefs at a point -/

/-- Each window's current staging memref at point `t`, and its wholeness. -/
abbrev ms4_0 (t : Fin cfg4.N) : Memref sig .tc .vmem S5000x8 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x128 .f32 := win4_2.stage (cfg4.slots t 2)
abbrev hs4_2 (t : Fin cfg4.N) : (ms4_2 t).IsWhole := hstage4_2 ((cfg4.slots t 2).cast nbuf4_2)

/-! ## The invariant's forms -/

/-- The class's invariant with the scratch split off the scoped rest and owned, as a memref, at some contents. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- Before the first point the invariant is the class's. -/
theorem PhiS4_zero (V : (c : Dev nD) → (b : Ref sig .tc) → Buf (Elt F) ((c : Thread nD τ).loc b)) (c : Dev nD) (n : ℕ) (h : n ≤ cfg4.N) (hz : n = 0) : PhiS4 V c n h = Pipeline.ΦA spec4 c := by
  subst hz; rfl

/-- After point `n`: the scratch at that point's accumulator. -/
theorem PhiS4_succ (V : (c : Dev nD) → (b : Ref sig .tc) → Buf (Elt F) ((c : Thread nD τ).loc b)) (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r)) := rfl

/-- Before a point that is not the first: the scratch at the accumulator of the point before. -/
theorem PhiS4_pos (V : (c : Dev nD) → (b : Ref sig .tc) → Buf (Elt F) ((c : Thread nD τ).loc b)) (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := Pipeline.UD sig nD τ) (Lvl := ℕ) (Val := Elt F) spec4 c [cc4_scratch0]) ∗ (∃ r, prngReg c r)) := by
  cases n with
  | zero => exact absurd rfl hz
  | succ n => rfl

/-- The invariant at a point's start, restated at the point's position. -/
theorem PhiS4_castSucc (V : (c : Dev nD) → (b : Ref sig .tc) → Buf (Elt F) ((c : Thread nD τ).loc b)) (c : Dev nD) (t : Fin cfg4.N) :
    (dat4 V c).Φ t.castSucc = PhiS4 V c t.val (Nat.le_of_lt t.isLt) := by
  dsimp only [dat4]; simp only [Fin.coe_castSucc]

/-- The accumulator at a point that is not the first, from the point before. -/
theorem acc4_pos (V : (c : Dev nD) → (b : Ref sig .tc) → Buf (Elt F) ((c : Thread nD τ).loc b)) (c : Dev nD) (t : Fin cfg4.N) (hz : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl hz
  | succ n => rfl

/-- The accumulator at the first point: the tile product added to the zero tile. -/
theorem acc4_first (V : (c : Dev nD) → (b : Ref sig .tc) → Buf (Elt F) ((c : Thread nD τ).loc b)) (c : Dev nD) (t : Fin cfg4.N) (hz : t.val = 0) :
    acc4 V c t.val t.isLt = k4_pay2 (iblk4 V c 0 t) (iblk4 V c 1 t) (k4_pay1 (F := F)) := by
  obtain ⟨n, hn⟩ := t
  cases n with
  | zero => rfl
  | succ n => exact absurd hz (Nat.succ_ne_zero n)

/-! ## The inputs' buffers hold their blocks -/

/-- Each input's current staging buffer holds its block at every point, fetched there or not: the body leaves the
    block in place and an unfetched window's block index has not moved. -/
theorem before4_0 (V : (c : Dev nD) → (b : Ref sig .tc) → Buf (Elt F) ((c : Thread nD τ).loc b)) (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (V : (c : Dev nD) → (b : Ref sig .tc) → Buf (Elt F) ((c : Thread nD τ).loc b)) (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (V : (c : Dev nD) → (b : Ref sig .tc) → Buf (Elt F) ((c : Thread nD τ).loc b)) (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (V : (c : Dev nD) → (b : Ref sig .tc) → Buf (Elt F) ((c : Thread nD τ).loc b)) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the closed forms say which of the three cases the
    point is in. At the first point the invariant hands the body the scratch at anything and takes it back at the
    first accumulator; at a later point it hands the scratch at the accumulator of the point before and takes it back
    at this point's, by the accumulator's recursion. The output window is idle and not written back at every point but
    the last, where its buffer is left at the accumulator. The rest of the scoped buffers, the generator register and
    what the core owes pass through untouched. -/
theorem sound_body4 (V : (c : Dev nD) → (b : Ref sig .tc) → Buf (Elt F) ((c : Thread nD τ).loc b)) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 20 := lt_of_lt_of_eq t.isLt (show cfg4.N = 20 from N_4)
  by_cases h0 : t.val = 0
  · have h1 : ¬t.val = 19 := by omega
    rw [Dat.leavesExact_idle (dat4 V c) 2 t (idleAt4_2 t (fun h => h1 ((hcond4_1 t).mp h))) (noFlush4_2 t (fun h => h1 ((hcond4_1 t).mp h)))]
    rw [acc4_first V c t h0]
    rw [PhiS4_castSucc V c t, PhiS4_zero V c _ _ h0, PhiA4_eq]
    iintro ⟨⟨⟨HS0, HR⟩, Hg⟩, Ho, ⟨%d0, H0⟩, ⟨%d1, H1⟩, ⟨%d2, H2⟩⟩
    iapply (run4_A c (grid4.coords t) _ _ _ _ _ _ _ _ ((hcond4_0 t).mpr h0) (fun h => h1 ((hcond4_1 t).mp h)) (iblk4 V c 0 t) (iblk4 V c 1 t) _ Set.univ _)
    isplitl [H0]; · iexact H0
    isplitl [H1]; · iexact H1
    isplitl [H2]; · iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexists _; iexact H2
  · by_cases h1 : t.val = 19
    · rw [show (dat4 V c).leavesExact 2 t = owns (c : Thread nD τ) (ms4_2 t) fullShare ((dat4 V c).after 2 t) from by
        unfold Dat.leavesExact; rw [liveAt4_2 t ((hcond4_1 t).mpr h1)], after4_2]
      rw [acc4_pos V c t h0]
      rw [PhiS4_castSucc V c t, PhiS4_pos V c _ _ h0]
      iintro ⟨⟨⟨HS0, HR⟩, Hg⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [acc4_pos V c t h0]
      rw [PhiS4_castSucc V c t, PhiS4_pos V c _ _ h0]
      iintro ⟨⟨⟨HS0, HR⟩, Hg⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The body's obligation to the pipeline, at every point. -/
theorem body_obligation4 (V : (c : Dev nD) → (b : Ref sig .tc) → Buf (Elt F) ((c : Thread nD τ).loc b)) (c : Dev nD) :
    BodyObligation (dat4 (F := F) V c) (defs₀ (F := F)) Variants.none () Set.univ := fun t => by
  rw [bigSep_W4, bigSep_W4]
  exact sound_body4 V c t

/-- What the launch hands region 4 is its invariant before the first point. -/
theorem hin4 (V : (c : Dev nD) → (b : Ref sig .tc) → Buf (Elt F) ((c : Thread nD τ).loc b)) (c : Dev nD) :
    (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch's named contents are forgotten. -/
theorem hout4 (V : (c : Dev nD) → (b : Ref sig .tc) → Buf (Elt F) ((c : Thread nD τ).loc b)) (c : Dev nD) :
    (dat4 V c).Φ (Fin.last cfg4.N) ⊢ (Pipeline.ΦA spec4 c : sProp 𝕄) := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨HS0, HR⟩, Hg⟩
  isplitl [HS0 HR]
  · isplitl [HS0]
    · iexists _; iexact HS0
    iexact HR
  iexact Hg

end Cert.Kernel.Hand

end
-- ==== Proof.K.Run.lean ====
/- The whole run of @main: six host stretches and five pallas_calls composed; every unscoped buffer ends at the last
   boundary's contents. -/
import proofs.«420149_j66425964200347_1_alg».proof.Proof.K.RunDefs
import proofs.«420149_j66425964200347_1_alg».proof.Proof.K.D0Body
import proofs.«420149_j66425964200347_1_alg».proof.Proof.K.D1Body
import proofs.«420149_j66425964200347_1_alg».proof.Proof.K.D2Body
import proofs.«420149_j66425964200347_1_alg».proof.Proof.K.D3Body
import proofs.«420149_j66425964200347_1_alg».proof.Proof.K.P4Body
import proofs.«420149_j66425964200347_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pallas_call has a table. -/
abbrev adm : (p : Fin 5) → (pcfgs (F := F) p).Adm := fun p => (cfgs p).toPCfg_adm
/-- Every pallas_call's proof data, each at its entry contents. -/
def pdats : (p : Fin 5) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents `W11`, the generator
    register at some state. -/
abbrev Tₙ (c : Dev nD) : sProp 𝕄 := iprop(StableHlo.held (c : Thread nD τ) (Pipeline.ucRefs τ sig) (W11 m ρ c) ∗ ∃ r, prngReg c r)

/-- What the last host stretch leaves is the last thread state beside the core owing nothing. -/
theorem last_state (c : Dev nD) :
    (iprop(StableHlo.held (c : Thread nD τ) (Pipeline.ucRefs τ sig) (W11 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The pallas_calls as segments -/

set_option backward.isDefEq.respectTransparency.types false in
/-- Pallas_call 0 over the thread state: entered from every unscoped buffer at `W1`, left at `W2`. Its arrays are
    split out of the unscoped buffers and put back at the exit contents; the generator register goes into the constant
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at the exit contents; the generator register goes into the constant
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the constant
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3 over the thread state: entered from every unscoped buffer at `W7`, left at `W8`. Its arrays are
    split out of the unscoped buffers and put back at the exit contents; the generator register goes into the constant
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 4 over the thread state: entered from every unscoped buffer at `W9`, left at `W10`. As the others,
    except that its invariant follows the scratch accumulator: the constant invariant enters it before the first point
    (`hin4`) and is given back after the last (`hout4`). -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine BIBase.Entails.trans ?_ (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- The items' programs are @main's chain, item by item. -/
theorem segs_prog : (segs m ρ).map Pipeline.Seg.prog = ([
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5 ] : List (Prog (TpuEff nD τ sig (Elt F) (Pipeline.Sig Λ₀ (Fin 5) fun p => (pcfgs (F := F) p).Adm) .tc) PUnit)) := rfl

/-- @main is the run of the segments. -/
theorem main_run (c : Dev nD) : main (F := F) c = Pipeline.Seg.run (segs m ρ) := by
  rw [main_chain c, Pipeline.Seg.run_eq_chain, segs_prog]

set_option backward.isDefEq.respectTransparency.types false in
/-- From any memory with zero counters every weakly fair execution of @main terminates, nothing faulting, and every
    final state has every unscoped buffer of every core at the last boundary's contents `W11`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand

end
-- ==== Proof.K.Args.lean ====
/- No item of @main writes an argument: each argument's buffer holds at the end what it held at launch. -/
import proofs.«420149_j66425964200347_1_alg».proof.Proof.K.RunDefs
import proofs.«420149_j66425964200347_1_alg».proof.Proof.Gen.Kernel.Regions
import Idealize.ShloMosaic.Lib.StableHlo.Run
import Idealize.ShloMosaic.Lib.Pipeline.Value
import Idealize.ShloMosaic.Lib.Pipeline.Cells
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

/-! ## One step back through each boundary

A host stretch leaves every reference outside its write list as it found it; a pallas_call leaves every
reference that is none of its windows' arrays as it found it, and an input window's array too (an input
window is never written back). -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- pallas_call 0 leaves its input windows' arrays as entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- pallas_call 1 leaves its input windows' arrays as entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- pallas_call 2 leaves its input windows' arrays as entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- pallas_call 3 leaves its input windows' arrays as entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- pallas_call 4 leaves its input windows' arrays as entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-! ## The arguments end as launched -/

theorem W11_main_arg0 (c : Dev nD) : W11 m ρ c (Proc.devRef .tc main_arg0) = m ((c : Thread nD τ).loc main_arg0) :=
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W11_main_arg1 (c : Dev nD) : W11 m ρ c (Proc.devRef .tc main_arg1) = m ((c : Thread nD τ).loc main_arg1) :=
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W11_main_arg2 (c : Dev nD) : W11 m ρ c (Proc.devRef .tc main_arg2) = m ((c : Thread nD τ).loc main_arg2) :=
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W11_main_arg3 (c : Dev nD) : W11 m ρ c (Proc.devRef .tc main_arg3) = m ((c : Thread nD τ).loc main_arg3) :=
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W11_main_arg4 (c : Dev nD) : W11 m ρ c (Proc.devRef .tc main_arg4) = m ((c : Thread nD τ).loc main_arg4) :=
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 1 rfl).trans <|
  (W1_of m ρ c main_arg4 (by decide)).trans rfl
theorem W11_main_arg5 (c : Dev nD) : W11 m ρ c (Proc.devRef .tc main_arg5) = m ((c : Thread nD τ).loc main_arg5) :=
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W11_main_arg6 (c : Dev nD) : W11 m ρ c (Proc.devRef .tc main_arg6) = m ((c : Thread nD τ).loc main_arg6) :=
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_in m ρ c 1 rfl).trans <|
  (W3_of m ρ c main_arg6 (by decide)).trans <|
  (W2_of_ne m ρ c main_arg6 (by decide)).trans <|
  (W1_of m ρ c main_arg6 (by decide)).trans rfl
theorem W11_main_arg7 (c : Dev nD) : W11 m ρ c (Proc.devRef .tc main_arg7) = m ((c : Thread nD τ).loc main_arg7) :=
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W11_main_arg8 (c : Dev nD) : W11 m ρ c (Proc.devRef .tc main_arg8) = m ((c : Thread nD τ).loc main_arg8) :=
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_in m ρ c 1 rfl).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W11_main_arg9 (c : Dev nD) : W11 m ρ c (Proc.devRef .tc main_arg9) = m ((c : Thread nD τ).loc main_arg9) :=
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W11_main_arg10 (c : Dev nD) : W11 m ρ c (Proc.devRef .tc main_arg10) = m ((c : Thread nD τ).loc main_arg10) :=
  (W11_of m ρ c main_arg10 (by decide)).trans <|
  (W10_of_ne m ρ c main_arg10 (by decide)).trans <|
  (W9_of m ρ c main_arg10 (by decide)).trans <|
  (W8_in m ρ c 1 rfl).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W11_main_arg11 (c : Dev nD) : W11 m ρ c (Proc.devRef .tc main_arg11) = m ((c : Thread nD τ).loc main_arg11) :=
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W11_main_arg12 (c : Dev nD) : W11 m ρ c (Proc.devRef .tc main_arg12) = m ((c : Thread nD τ).loc main_arg12) :=
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W11_main_arg13 (c : Dev nD) : W11 m ρ c (Proc.devRef .tc main_arg13) = m ((c : Thread nD τ).loc main_arg13) :=
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

end Cert.Kernel.Hand

end
-- ==== Proof.K.Frame.lean ====
/- The frame of @main: from any memory with zero counters every weakly fair execution terminates, nothing faulting,
   and every argument's buffer ends holding what it held at launch. -/
import proofs.«420149_j66425964200347_1_alg».proof.Proof.K.Run
import proofs.«420149_j66425964200347_1_alg».proof.Proof.K.Args

set_option maxRecDepth 16384

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The run's last boundary read at the fourteen arguments: no item of @main writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all m ρ)

end Cert.Kernel.Hand

end
-- ==== Proof.KI.D0Defs.lean ====
/- The first dense layer (pallas_call 0): what it leaves in its buffers at each grid point, as definitions. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 0: one row tile (5000 rows) of the layer's input against the whole weight
    matrix and the bias row, per grid point -/

/-- Window `w`'s block at point `t`, read off its array as the region finds it (`V`). -/
def iblk0 (V : (c : Dev nD) → (b : Ref sig .tc) → Buf (Elt F) ((c : Thread nD τ).loc b)) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole rectangles the body loads and stores through. -/
abbrev r0_x : Rect S5000x5 := Rect.unit (s := S5000x5) ![0, 0] S5000x5.size inb_S5000x5_S5000x5_0_0
abbrev r0_w : Rect S5x128 := Rect.unit (s := S5x128) ![0, 0] S5x128.size inb_S5x128_S5x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-- What the body leaves in the output tile's buffer, from the three input blocks: its one store (the
    rectified affine map of the row tile) as a piece. -/
def out0_3 (x0 : Vec F S5000x5 .f32) (x1 : Vec F S5x128 .f32) (x2 : Vec F S1x128 .f32) : Vec F S5000x128 .f32 :=
  View.canon [⟨r0_o, k0_pay1 (View.ld x0 r0_x) (View.ld x1 r0_w) (View.ld x2 r0_b)⟩]

/-- The proof data of pipeline 0 on core `c` at the entry contents `V`: after the body each input buffer holds its
    block and the output buffer the tile `out0_3` of them; the invariant is the scoped rest and the generator register. -/
def dat0 (V : (c : Dev nD) → (b : Ref sig .tc) → Buf (Elt F) ((c : Thread nD τ).loc b)) (c : Dev nD) :
    Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (V : (c : Dev nD) → (b : Ref sig .tc) → Buf (Elt F) ((c : Thread nD τ).loc b)) (c : Dev nD) (w : Fin cfg0.W) :
    (dat0 V c).A w = V c (Pipeline.arrRef spec0 w) := by
  dsimp only [dat0]
theorem after0_0 (V : (c : Dev nD) → (b : Ref sig .tc) → Buf (Elt F) ((c : Thread nD τ).loc b)) (c : Dev nD) (t : Fin cfg0.N) :
    (dat0 V c).after 0 t = iblk0 V c 0 t := by dsimp only [dat0]
theorem after0_1 (V : (c : Dev nD) → (b : Ref sig .tc) → Buf (Elt F) ((c : Thread nD τ).loc b)) (c : Dev nD) (t : Fin cfg0.N) :
    (dat0 V c).after 1 t = iblk0 V c 1 t := by dsimp only [dat0]
theorem after0_2 (V : (c : Dev nD) → (b : Ref sig .tc) → Buf (Elt F) ((c : Thread nD τ).loc b)) (c : Dev nD) (t : Fin cfg0.N) :
    (dat0 V c).after 2 t = iblk0 V c 2 t := by dsimp only [dat0]
theorem after0_3 (V : (c : Dev nD) → (b : Ref sig .tc) → Buf (Elt F) ((c : Thread nD τ).loc b)) (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.D1Defs.lean ====
/- The dense layer number 1 (counting from 0) (pallas_call 1): what it leaves in its buffers at each grid point, as definitions. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 1: one row tile (5000 rows) of the layer's input against the whole weight
    matrix and the bias row, per grid point -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole rectangles the body loads and stores through. -/
abbrev r1_x : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-- What the body leaves in the output tile's buffer, from the three input blocks: its one store (the
    rectified affine map of the row tile) as a piece. -/
def out1_3 (x0 : Vec F S5000x128 .f32) (x1 : Vec F S128x128 .f32) (x2 : Vec F S1x128 .f32) : Vec F S5000x128 .f32 :=
  View.canon [⟨r1_o, k1_pay1 (View.ld x0 r1_x) (View.ld x1 r1_w) (View.ld x2 r1_b)⟩]

/-- The proof data of pipeline 1 on core `c` at the entry contents `V`: after the body each input buffer holds its
    block and the output buffer the tile `out1_3` of them; the invariant is the scoped rest and the generator register. -/
def dat1 (V : (c : Dev nD) → (b : Ref sig .tc) → Buf (Elt F) ((c : Thread nD τ).loc b)) (c : Dev nD) :
    Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (V : (c : Dev nD) → (b : Ref sig .tc) → Buf (Elt F) ((c : Thread nD τ).loc b)) (c : Dev nD) (w : Fin cfg1.W) :
    (dat1 V c).A w = V c (Pipeline.arrRef spec1 w) := by
  dsimp only [dat1]
theorem after1_0 (V : (c : Dev nD) → (b : Ref sig .tc) → Buf (Elt F) ((c : Thread nD τ).loc b)) (c : Dev nD) (t : Fin cfg1.N) :
    (dat1 V c).after 0 t = iblk1 V c 0 t := by dsimp only [dat1]
theorem after1_1 (V : (c : Dev nD) → (b : Ref sig .tc) → Buf (Elt F) ((c : Thread nD τ).loc b)) (c : Dev nD) (t : Fin cfg1.N) :
    (dat1 V c).after 1 t = iblk1 V c 1 t := by dsimp only [dat1]
theorem after1_2 (V : (c : Dev nD) → (b : Ref sig .tc) → Buf (Elt F) ((c : Thread nD τ).loc b)) (c : Dev nD) (t : Fin cfg1.N) :
    (dat1 V c).after 2 t = iblk1 V c 2 t := by dsimp only [dat1]
theorem after1_3 (V : (c : Dev nD) → (b : Ref sig .tc) → Buf (Elt F) ((c : Thread nD τ).loc b)) (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.D2Defs.lean ====
/- The dense layer number 2 (counting from 0) (pallas_call 2): what it leaves in its buffers at each grid point, as definitions. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 2: one row tile (5000 rows) of the layer's input against the whole weight
    matrix and the bias row, per grid point -/

/-- Window `w`'s block at point `t`, read off its array as the region finds it (`V`). -/
def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole rectangles the body loads and stores through. -/
abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0
abbrev r2_o : Rect S5000x128 := Rect.unit (s := S5000x128) ![0, 0] S5000x128.size inb_S5000x128_S5000x128_0_0

/-- What the body leaves in the output tile's buffer, from the three input blocks: its one store (the
    rectified affine map of the row tile) as a piece. -/
def out2_3 (x0 : Vec F S5000x128 .f32) (x1 : Vec F S128x128 .f32) (x2 : Vec F S1x128 .f32) : Vec F S5000x128 .f32 :=
  View.canon [⟨r2_o, k2_pay1 (View.ld x0 r2_x) (View.ld x1 r2_w) (View.ld x2 r2_b)⟩]

/-- The proof data of pipeline 2 on core `c` at the entry contents `V`: after the body each input buffer holds its
    block and the output buffer the tile `out2_3` of them; the invariant is the scoped rest and the generator register. -/
def dat2 (V : (c : Dev nD) → (b : Ref sig .tc) → Buf (Elt F) ((c : Thread nD τ).loc b)) (c : Dev nD) :
    Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (V : (c : Dev nD) → (b : Ref sig .tc) → Buf (Elt F) ((c : Thread nD τ).loc b)) (c : Dev nD) (w : Fin cfg2.W) :
    (dat2 V c).A w = V c (Pipeline.arrRef spec2 w) := by
  dsimp only [dat2]
theorem after2_0 (V : (c : Dev nD) → (b : Ref sig .tc) → Buf (Elt F) ((c : Thread nD τ).loc b)) (c : Dev nD) (t : Fin cfg2.N) :
    (dat2 V c).after 0 t = iblk2 V c 0 t := by dsimp only [dat2]
theorem after2_1 (V : (c : Dev nD) → (b : Ref sig .tc) → Buf (Elt F) ((c : Thread nD τ).loc b)) (c : Dev nD) (t : Fin cfg2.N) :
    (dat2 V c).after 1 t = iblk2 V c 1 t := by dsimp only [dat2]
theorem after2_2 (V : (c : Dev nD) → (b : Ref sig .tc) → Buf (Elt F) ((c : Thread nD τ).loc b)) (c : Dev nD) (t : Fin cfg2.N) :
    (dat2 V c).after 2 t = iblk2 V c 2 t := by dsimp only [dat2]
theorem after2_3 (V : (c : Dev nD) → (b : Ref sig .tc) → Buf (Elt F) ((c : Thread nD τ).loc b)) (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.D3Defs.lean ====
/- The dense layer number 3 (counting from 0) (pallas_call 3): what it leaves in its buffers at each grid point, as definitions. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The dense layer of pallas_call 3: one row tile (5000 rows) of the layer's input against the whole weight
    matrix and the bias row, per grid point -/

/-- Window `w`'s block at point `t`, read off its array as the region finds it (`V`). -/
def iblk3 (V : (c : Dev nD) → (b : Ref sig .tc) → Buf (Elt F) ((c : Thread nD τ).loc b)) (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The whole rectangles the body loads and stores through. -/
abbrev r3_x : Rect S5000x128 := Rect.unit (s := S5000x128) ![0, 0] S5000x128.size inb_S5000x128_S5000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0
abbrev r3_o : Rect S5000x128 := Rect.unit (s := S5000x128) ![0, 0] S5000x128.size inb_S5000x128_S5000x128_0_0

/-- What the body leaves in the output tile's buffer, from the three input blocks: its one store (the
    rectified affine map of the row tile) as a piece. -/
def out3_3 (x0 : Vec F S5000x128 .f32) (x1 : Vec F S128x128 .f32) (x2 : Vec F S1x128 .f32) : Vec F S5000x128 .f32 :=
  View.canon [⟨r3_o, k3_pay1 (View.ld x0 r3_x) (View.ld x1 r3_w) (View.ld x2 r3_b)⟩]

/-- The proof data of pipeline 3 on core `c` at the entry contents `V`: after the body each input buffer holds its
    block and the output buffer the tile `out3_3` of them; the invariant is the scoped rest and the generator register. -/
def dat3 (V : (c : Dev nD) → (b : Ref sig .tc) → Buf (Elt F) ((c : Thread nD τ).loc b)) (c : Dev nD) :
    Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (V : (c : Dev nD) → (b : Ref sig .tc) → Buf (Elt F) ((c : Thread nD τ).loc b)) (c : Dev nD) (w : Fin cfg3.W) :
    (dat3 V c).A w = V c (Pipeline.arrRef spec3 w) := by
  dsimp only [dat3]
theorem after3_0 (V : (c : Dev nD) → (b : Ref sig .tc) → Buf (Elt F) ((c : Thread nD τ).loc b)) (c : Dev nD) (t : Fin cfg3.N) :
    (dat3 V c).after 0 t = iblk3 V c 0 t := by dsimp only [dat3]
theorem after3_1 (V : (c : Dev nD) → (b : Ref sig .tc) → Buf (Elt F) ((c : Thread nD τ).loc b)) (c : Dev nD) (t : Fin cfg3.N) :
    (dat3 V c).after 1 t = iblk3 V c 1 t := by dsimp only [dat3]
theorem after3_2 (V : (c : Dev nD) → (b : Ref sig .tc) → Buf (Elt F) ((c : Thread nD τ).loc b)) (c : Dev nD) (t : Fin cfg3.N) :
    (dat3 V c).after 2 t = iblk3 V c 2 t := by dsimp only [dat3]
theorem after3_3 (V : (c : Dev nD) → (b : Ref sig .tc) → Buf (Elt F) ((c : Thread nD τ).loc b)) (c : Dev nD) (t : Fin cfg3.N) :
    (dat3 V c).after 3 t = out3_3 (iblk3 V c 0 t) (iblk3 V c 1 t) (iblk3 V c 2 t) := by dsimp only [dat3]

end Cert.KernelIdeal.Hand

end
-- ==== Proof.KI.P4Defs.lean ====
/- The mean-pool pallas_call (number 4): the per-graph partial sums carried in its scratch buffer from grid point to
   grid point, and what it leaves in its buffers, as definitions. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## pallas_call 4: a one-hot matmul accumulated over the 20 row tiles

At grid point `t` the body adds, for each graph `g` and each feature column `j`, the sum over the tile's 5000 rows of
`onehot[row, g] * h[row, j]` to a scratch accumulator (reset to zero at the first point), and at the last point copies
the accumulator to the output tile. -/

/-- Window `w`'s block at point `t`, read off its array as the region finds it (`V`). -/
def iblk4 (V : (c : Dev nD) → (b : Ref sig .tc) → Buf (Elt F) ((c : Thread nD τ).loc b)) (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The scratch accumulator, a whole scoped buffer of the kernel's own. -/
abbrev scM4 : Memref sig .tc .vmem S8x128 .f32 := Memref.whole cc4_scratch0

/-- THE ACCUMULATION. The scratch after the body at position `n`: the first point's tile product added to the zero
    tile, then each later point's tile product added to what the point before left. -/
def acc4 (V : (c : Dev nD) → (b : Ref sig .tc) → Buf (Elt F) ((c : Thread nD τ).loc b)) (c : Dev nD) :
    (n : ℕ) → n < cfg4.N → Vec F S8x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (acc4 V c n (Nat.lt_of_succ_lt hn))

theorem acc4_zero (V : (c : Dev nD) → (b : Ref sig .tc) → Buf (Elt F) ((c : Thread nD τ).loc b)) (c : Dev nD) (hn : 0 < cfg4.N) :
    acc4 V c 0 hn = k4_pay2 (iblk4 V c 0 ⟨0, hn⟩) (iblk4 V c 1 ⟨0, hn⟩) (k4_pay1 (F := F)) := rfl
theorem acc4_succ (V : (c : Dev nD) → (b : Ref sig .tc) → Buf (Elt F) ((c : Thread nD τ).loc b)) (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- The region invariant before position `n`: before the first point every scoped buffer that is no staging buffer at
    anything and the generator register at some state; afterwards the scratch at what the point before left in it,
    the other such buffers at anything, and the generator register at some state. -/
def PhiS4 (V : (c : Dev nD) → (b : Ref sig .tc) → Buf (Elt F) ((c : Thread nD τ).loc b)) (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := Pipeline.UD sig nD τ) (Lvl := ℕ) (Val := Elt F) spec4 c [cc4_scratch0]) ∗ (∃ r, prngReg c r))

/-- The proof data of pipeline 4 on core `c` at the entry contents `V`: after the body each input buffer holds its
    block; the output tile's buffer holds the accumulator at the point that stores it (the last; at the other points
    the body leaves the buffer as it found it and this value is not consulted); nothing owed; full shares. -/
def dat4 (V : (c : Dev nD) → (b : Ref sig .tc) → Buf (Elt F) ((c : Thread nD τ).loc b)) (c : Dev nD) :
    Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (V : (c : Dev nD) → (b : Ref sig .tc) → Buf (Elt F) ((c : Thread nD τ).loc b)) (c : Dev nD) (w : Fin cfg4.W) :
    (dat4 V c).A w = V c (Pipeline.arrRef spec4 w) := by
  dsimp only [dat4]
theorem after4_0 (V : (c : Dev nD) → (b : Ref sig .tc) → Buf (Elt F) ((c : Thread nD τ).loc b)) (c : Dev nD) (t : Fin cfg4.N) :
    (dat4 V c).after 0 t = iblk4 V c 0 t := by dsimp only [dat4]
theorem after4_1 (V : (c : Dev nD) → (b : Ref sig .tc) → Buf (Elt F) ((c : Thread nD τ).loc b)) (c : Dev nD) (t : Fin cfg4.N) :
    (dat4 V c).after 1 t = iblk4 V c 1 t := by dsimp only [dat4]
theorem after4_2 (V : (c : Dev nD) → (b : Ref sig .tc) → Buf (Elt F) ((c : Thread nD τ).loc b)) (c : Dev nD) (t : Fin cfg4.N) :
    (dat4 V c).after 2 t = acc4 V c t.val t.isLt := by dsimp only [dat4]

end Cert.KernelIdeal.Hand

end
-- ==== Proof.KI.RunDefs.lean ====
/- The contents of core c's buffers at each boundary between @main's items: after a host stretch the stretch's
   operations applied; after a pallas_call its arrays at what its write-backs leave, every other buffer as entered. -/
import proofs.«420149_j66425964200347_1_alg».proof.Proof.KI.D0Defs
import proofs.«420149_j66425964200347_1_alg».proof.Proof.KI.D1Defs
import proofs.«420149_j66425964200347_1_alg».proof.Proof.KI.D2Defs
import proofs.«420149_j66425964200347_1_alg».proof.Proof.KI.D3Defs
import proofs.«420149_j66425964200347_1_alg».proof.Proof.KI.P4Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After host stretch 0 (pallas_call 0's entry). -/
abbrev W1 : Dev nD → Valuation τ sig (Elt F) := fun c => StableHlo.after hostOps0 (W0 m ρ c)
/-- The same read at the TensorCore's references (what pallas_call 0's proof data take). -/
abbrev V1 : (c : Dev nD) → (b : Ref sig .tc) → Buf (Elt F) ((c : Thread nD τ).loc b) := fun c b => W1 m ρ c b
/-- At pallas_call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (pallas_call 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (pallas_call 1's entry). -/
abbrev W3 : Dev nD → Valuation τ sig (Elt F) := fun c => StableHlo.after hostOps1 (W2 m ρ c)
/-- The same read at the TensorCore's references (what pallas_call 1's proof data take). -/
abbrev V3 : (c : Dev nD) → (b : Ref sig .tc) → Buf (Elt F) ((c : Thread nD τ).loc b) := fun c b => W3 m ρ c b
/-- At pallas_call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (pallas_call 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (pallas_call 2's entry). -/
abbrev W5 : Dev nD → Valuation τ sig (Elt F) := fun c => StableHlo.after hostOps2 (W4 m ρ c)
/-- The same read at the TensorCore's references (what pallas_call 2's proof data take). -/
abbrev V5 : (c : Dev nD) → (b : Ref sig .tc) → Buf (Elt F) ((c : Thread nD τ).loc b) := fun c b => W5 m ρ c b
/-- At pallas_call 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (pallas_call 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (pallas_call 3's entry). -/
abbrev W7 : Dev nD → Valuation τ sig (Elt F) := fun c => StableHlo.after hostOps3 (W6 m ρ c)
/-- The same read at the TensorCore's references (what pallas_call 3's proof data take). -/
abbrev V7 : (c : Dev nD) → (b : Ref sig .tc) → Buf (Elt F) ((c : Thread nD τ).loc b) := fun c b => W7 m ρ c b
/-- At pallas_call 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (pallas_call 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (pallas_call 4's entry). -/
abbrev W9 : Dev nD → Valuation τ sig (Elt F) := fun c => StableHlo.after hostOps4 (W8 m ρ c)
/-- The same read at the TensorCore's references (what pallas_call 4's proof data take). -/
abbrev V9 : (c : Dev nD) → (b : Ref sig .tc) → Buf (Elt F) ((c : Thread nD τ).loc b) := fun c b => W9 m ρ c b
/-- At pallas_call 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (pallas_call 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: the contents @main returns with. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

end Cert.KernelIdeal.Hand

end
-- ==== Proof.KI.D0Body.lean ====
/- The first dense layer (pallas_call 0): its body meets the pipeline's obligation at every grid point. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import proofs.«420149_j66425964200347_1_alg».proof.Proof.KI.D0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before0_0_of (V : (c : Dev nD) → (b : Ref sig .tc) → Buf (Elt F) ((c : Thread nD τ).loc b)) {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved,
    the window is uncut and never idle. -/
theorem before0_1_of (V : (c : Dev nD) → (b : Ref sig .tc) → Buf (Elt F) ((c : Thread nD τ).loc b)) {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved,
    the window is uncut and never idle. -/
theorem before0_2_of (V : (c : Dev nD) → (b : Ref sig .tc) → Buf (Elt F) ((c : Thread nD τ).loc b)) {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output tile -/

/-- The whole-tile store covers the output buffer: its rectangle is the buffer's full extent. -/
theorem cover0_3 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out0_3` of them:
    three whole loads, a load of the output tile whose value is not used, and one whole store of the payload. -/
theorem sound_kernel0 (c : Dev nD) (E : Set ℕ) (i : grid0.Coords)
    (arg1 : Memref sig .tc .vmem S5000x5 .f32) (harg1 : arg1.IsWhole) (arg2 : Memref sig .tc .vmem S5x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x5 .f32) (x1 : Vec F S5x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the proof data of this layer -/

theorem before0_0 (V : (c : Dev nD) → (b : Ref sig .tc) → Buf (Elt F) ((c : Thread nD τ).loc b)) (c : Dev nD) (t : Fin cfg0.N) (d) : (dat0 V c).before 0 t d = iblk0 V c 0 t :=
  before0_0_of V (dat0 V c) (A_eq0 V c 0) (after0_0 V c) t d
theorem before0_1 (V : (c : Dev nD) → (b : Ref sig .tc) → Buf (Elt F) ((c : Thread nD τ).loc b)) (c : Dev nD) (t : Fin cfg0.N) (d) : (dat0 V c).before 1 t d = iblk0 V c 1 t :=
  before0_1_of V (dat0 V c) (A_eq0 V c 1) (after0_1 V c) t d
theorem before0_2 (V : (c : Dev nD) → (b : Ref sig .tc) → Buf (Elt F) ((c : Thread nD τ).loc b)) (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what is owed, and each window's current staging
    buffer at what the pipeline left in it. -/
def bodyPre0 (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    what is owed pass through unread. -/
theorem sound_body0 (V : (c : Dev nD) → (b : Ref sig .tc) → Buf (Elt F) ((c : Thread nD τ).loc b)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.D1Body.lean ====
/- The dense layer number 1 (counting from 0) (pallas_call 1): its body meets the pipeline's obligation at every grid point. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import proofs.«420149_j66425964200347_1_alg».proof.Proof.KI.D1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before1_0_of (V : (c : Dev nD) → (b : Ref sig .tc) → Buf (Elt F) ((c : Thread nD τ).loc b)) {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved,
    the window is uncut and never idle. -/
theorem before1_1_of (V : (c : Dev nD) → (b : Ref sig .tc) → Buf (Elt F) ((c : Thread nD τ).loc b)) {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved,
    the window is uncut and never idle. -/
theorem before1_2_of (V : (c : Dev nD) → (b : Ref sig .tc) → Buf (Elt F) ((c : Thread nD τ).loc b)) {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output tile -/

/-- The whole-tile store covers the output buffer: its rectangle is the buffer's full extent. -/
theorem cover1_3 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out1_3` of them:
    three whole loads, a load of the output tile whose value is not used, and one whole store of the payload. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers under the proof data of this layer -/

theorem before1_0 (V : (c : Dev nD) → (b : Ref sig .tc) → Buf (Elt F) ((c : Thread nD τ).loc b)) (c : Dev nD) (t : Fin cfg1.N) (d) : (dat1 V c).before 0 t d = iblk1 V c 0 t :=
  before1_0_of V (dat1 V c) (A_eq1 V c 0) (after1_0 V c) t d
theorem before1_1 (V : (c : Dev nD) → (b : Ref sig .tc) → Buf (Elt F) ((c : Thread nD τ).loc b)) (c : Dev nD) (t : Fin cfg1.N) (d) : (dat1 V c).before 1 t d = iblk1 V c 1 t :=
  before1_1_of V (dat1 V c) (A_eq1 V c 1) (after1_1 V c) t d
theorem before1_2 (V : (c : Dev nD) → (b : Ref sig .tc) → Buf (Elt F) ((c : Thread nD τ).loc b)) (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current staging
    buffer at what the pipeline left in it. -/
def bodyPre1 (V : (c : Dev nD) → (b : Ref sig .tc) → Buf (Elt F) ((c : Thread nD τ).loc b)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (V : (c : Dev nD) → (b : Ref sig .tc) → Buf (Elt F) ((c : Thread nD τ).loc b)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what is owed pass through unread. -/
theorem sound_body1 (V : (c : Dev nD) → (b : Ref sig .tc) → Buf (Elt F) ((c : Thread nD τ).loc b)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.D2Body.lean ====
/- The dense layer number 2 (counting from 0) (pallas_call 2): its body meets the pipeline's obligation at every grid point. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import proofs.«420149_j66425964200347_1_alg».proof.Proof.KI.D2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before2_0_of (V : (c : Dev nD) → (b : Ref sig .tc) → Buf (Elt F) ((c : Thread nD τ).loc b)) {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved,
    the window is uncut and never idle. -/
theorem before2_1_of (V : (c : Dev nD) → (b : Ref sig .tc) → Buf (Elt F) ((c : Thread nD τ).loc b)) {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved,
    the window is uncut and never idle. -/
theorem before2_2_of (V : (c : Dev nD) → (b : Ref sig .tc) → Buf (Elt F) ((c : Thread nD τ).loc b)) {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output tile -/

/-- The whole-tile store covers the output buffer: its rectangle is the buffer's full extent. -/
theorem cover2_3 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out2_3` of them:
    three whole loads, a load of the output tile whose value is not used, and one whole store of the payload. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers under the proof data of this layer -/

theorem before2_0 (V : (c : Dev nD) → (b : Ref sig .tc) → Buf (Elt F) ((c : Thread nD τ).loc b)) (c : Dev nD) (t : Fin cfg2.N) (d) : (dat2 V c).before 0 t d = iblk2 V c 0 t :=
  before2_0_of V (dat2 V c) (A_eq2 V c 0) (after2_0 V c) t d
theorem before2_1 (V : (c : Dev nD) → (b : Ref sig .tc) → Buf (Elt F) ((c : Thread nD τ).loc b)) (c : Dev nD) (t : Fin cfg2.N) (d) : (dat2 V c).before 1 t d = iblk2 V c 1 t :=
  before2_1_of V (dat2 V c) (A_eq2 V c 1) (after2_1 V c) t d
theorem before2_2 (V : (c : Dev nD) → (b : Ref sig .tc) → Buf (Elt F) ((c : Thread nD τ).loc b)) (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, what is owed, and each window's current staging
    buffer at what the pipeline left in it. -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    what is owed pass through unread. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (V : (c : Dev nD) → (b : Ref sig .tc) → Buf (Elt F) ((c : Thread nD τ).loc b)) (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.D3Body.lean ====
/- The dense layer number 3 (counting from 0) (pallas_call 3): its body meets the pipeline's obligation at every grid point. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import proofs.«420149_j66425964200347_1_alg».proof.Proof.KI.D3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body finds in each input window's buffer -/

/-- Input window 0's current staging buffer holds its block at every point, fetched there or not, for any proof
    data whose array is `V`'s and whose body leaves the block in place: unfetched, the block index has not moved,
    the window is uncut and never idle. -/
theorem before3_0_of (V : (c : Dev nD) → (b : Ref sig .tc) → Buf (Elt F) ((c : Thread nD τ).loc b)) {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved,
    the window is uncut and never idle. -/
theorem before3_1_of (V : (c : Dev nD) → (b : Ref sig .tc) → Buf (Elt F) ((c : Thread nD τ).loc b)) {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved,
    the window is uncut and never idle. -/
theorem before3_2_of (V : (c : Dev nD) → (b : Ref sig .tc) → Buf (Elt F) ((c : Thread nD τ).loc b)) {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output tile -/

/-- The whole-tile store covers the output buffer: its rectangle is the buffer's full extent. -/
theorem cover3_3 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

/-! ## The body's triple -/

set_option maxHeartbeats 1000000 in
/-- The kernel body on whole staging memrefs, the three inputs' at read contents `x0 x1 x2` and the output's at
    anything, runs to the continuation holding the inputs' as they were and the output's at `out3_3` of them:
    three whole loads, a load of the output tile whose value is not used, and one whole store of the payload. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The inputs' buffers under the proof data of this layer -/

theorem before3_0 (V : (c : Dev nD) → (b : Ref sig .tc) → Buf (Elt F) ((c : Thread nD τ).loc b)) (c : Dev nD) (t : Fin cfg3.N) (d) : (dat3 V c).before 0 t d = iblk3 V c 0 t :=
  before3_0_of V (dat3 V c) (A_eq3 V c 0) (after3_0 V c) t d
theorem before3_1 (V : (c : Dev nD) → (b : Ref sig .tc) → Buf (Elt F) ((c : Thread nD τ).loc b)) (c : Dev nD) (t : Fin cfg3.N) (d) : (dat3 V c).before 1 t d = iblk3 V c 1 t :=
  before3_1_of V (dat3 V c) (A_eq3 V c 1) (after3_1 V c) t d
theorem before3_2 (V : (c : Dev nD) → (b : Ref sig .tc) → Buf (Elt F) ((c : Thread nD τ).loc b)) (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, what is owed, and each window's current staging
    buffer at what the pipeline left in it. -/
def bodyPre3 (V : (c : Dev nD) → (b : Ref sig .tc) → Buf (Elt F) ((c : Thread nD τ).loc b)) (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (V : (c : Dev nD) → (b : Ref sig .tc) → Buf (Elt F) ((c : Thread nD τ).loc b)) (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and
    what is owed pass through unread. -/
theorem sound_body3 (V : (c : Dev nD) → (b : Ref sig .tc) → Buf (Elt F) ((c : Thread nD τ).loc b)) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (V : (c : Dev nD) → (b : Ref sig .tc) → Buf (Elt F) ((c : Thread nD τ).loc b)) (c : Dev nD) :
    BodyObligation (dat3 (F := F) V c) (defs₀ (F := F)) Variants.none () Set.univ := fun t => by
  rw [bigSep_W3, bigSep_W3]
  exact sound_body3 V c t

end Cert.KernelIdeal.Hand

end
-- ==== Proof.KI.P4Body.lean ====
/- The mean-pool pallas_call (number 4): its body meets the pipeline's obligation at every grid point, and the
   invariant's two ends. -/
import proofs.«420149_j66425964200347_1_alg».proof.Proof.Gen.KernelIdeal.Launch
import proofs.«420149_j66425964200347_1_alg».proof.Proof.Gen.KernelIdeal.Skeleton
import proofs.«420149_j66425964200347_1_alg».proof.Proof.Gen.KernelIdeal.Points
import proofs.«420149_j66425964200347_1_alg».proof.Proof.KI.P4Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions, in closed form -/

/-- The first conditional's test: the grid coordinate is zero. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The second conditional's test: the grid coordinate is nineteen. -/
abbrev cond4_1 (i : grid4.Coords) : Prop := k4_cond2 i = 1#1
/-- It holds at the last point only. -/
theorem hcond4_1 : ∀ t : Fin cfg4.N, cond4_1 (grid4.coords t) ↔ t.val = 19 :=
  (by decide +kernel : ∀ t : Fin grid4.N, cond4_1 (grid4.coords t) ↔ t.val = 19)

/-- The offsets of the whole-buffer rectangle are zero on both axes. -/
theorem hz4 : (![0, 0] : Fin 2 → Nat) = fun _ => 0 := funext fun a => by fin_cases a <;> rfl

/-! ## The body on any whole memrefs, case by case

The inputs' memrefs hold `x0` and `x1`; each load reads the whole buffer and each store covers it, so what a
buffer holds afterwards is the payload of the last store into it. -/

set_option maxHeartbeats 1000000 in
/-- At the first point (not the last): the scratch, found at anything, is reset to the zero tile and then holds the
    tile product added to the zero tile; the output's buffer is handed back as found. -/
theorem run4_A (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : cond4_0 i) (hc1 : ¬cond4_1 i)
    (x0 : Vec F S5000x8 .f32) (x1 : Vec F S5000x128 .f32) (xi2 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
      ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 (k4_pay1 (F := F)))) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  rw [View.read_writes_eq_canon _ _ _ (fun y => ⟨_, List.mem_cons.mpr (Or.inl rfl), View.mem_set_unit_zero (S := S8x128) hz4 inb_S8x128_S8x128_0_0 y⟩)]
  sl_unfold_words
  rw [View.canon_cons_unit_zero (S := S8x128) hz4, View.readCov_unit_zero (S := S8x128) _ hz4]
  simp only [View.readAt_eq_ld, harg1.read_unread, harg2.read_unread, View.ld_unit_zero (S := S5000x8) hz4, View.ld_unit_zero (S := S5000x128) hz4]

set_option maxHeartbeats 1000000 in
/-- At a middle point: the scratch, found at `xs`, then holds the tile product added to `xs`; the output's buffer
    is handed back as found. -/
theorem run4_B (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : ¬cond4_0 i) (hc1 : ¬cond4_1 i)
    (x0 : Vec F S5000x8 .f32) (x1 : Vec F S5000x128 .f32) (xi2 : Vec F S8x128 .f32) (xs : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
      ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 xs)) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  rw [View.read_writes_eq_canon _ _ _ (fun y => ⟨_, List.mem_cons.mpr (Or.inl rfl), View.mem_set_unit_zero (S := S8x128) hz4 inb_S8x128_S8x128_0_0 y⟩)]
  sl_unfold_words
  rw [View.canon_cons_unit_zero (S := S8x128) hz4]
  simp only [View.readAt_eq_ld, harg1.read_unread, harg2.read_unread, harg4.read_unread, View.ld_unit_zero (S := S5000x8) hz4, View.ld_unit_zero (S := S5000x128) hz4, View.ld_unit_zero (S := S8x128) hz4]

set_option maxHeartbeats 1000000 in
/-- At the last point (not the first): the scratch, found at `xs`, then holds the tile product added to `xs`, and
    the output's buffer, found at anything, holds the same. -/
theorem run4_C (c : Dev nD) (i : grid4.Coords) (arg1 : Memref sig .tc .vmem S5000x8 .f32) (harg1 : arg1.IsWhole) (arg2 : Memref sig .tc .vmem S5000x128 .f32) (harg2 : arg2.IsWhole) (arg3 : Memref sig .tc .vmem S8x128 .f32) (harg3 : arg3.IsWhole) (arg4 : Memref sig .tc .vmem S8x128 .f32) (harg4 : arg4.IsWhole) (hc0 : ¬cond4_0 i) (hc1 : cond4_1 i)
    (x0 : Vec F S5000x8 .f32) (x1 : Vec F S5000x128 .f32) (xs : Vec F S8x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
      ∗ (iprop(owns (c : Thread nD τ) arg1 fullShare x0 ∗ owns (c : Thread nD τ) arg2 fullShare x1 ∗ owns (c : Thread nD τ) arg3 fullShare (k4_pay2 x0 x1 xs) ∗ owns (c : Thread nD τ) arg4 fullShare (k4_pay2 x0 x1 xs)) -∗ K ⟨⟩))
    ⊢ wp frame (wpE (defs₀ (F := F)) Variants.none c none) E (cc4__meanpool_kernel i arg1 harg1 arg2 harg2 arg3 harg3 arg4 harg4) K := by
  simp only [cc4__meanpool_kernel_eq_skeleton]; unfold cc4__meanpool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => ⟨_, List.mem_cons.mpr (Or.inl rfl), View.mem_set_unit_zero (S := S8x128) hz4 inb_S8x128_S8x128_0_0 y⟩)]
    sl_unfold_words
    rw [View.canon_cons_unit_zero (S := S8x128) hz4, View.readCov_unit_zero (S := S8x128) _ hz4]
    simp only [View.readAt_eq_ld, harg1.read_unread, harg2.read_unread, harg4.read_unread, View.ld_unit_zero (S := S5000x8) hz4, View.ld_unit_zero (S := S5000x128) hz4, View.ld_unit_zero (S := S8x128) hz4]
  iexists _; isplitr
  swap; · iexact HS0
  ipureintro
  sl_unfold_words
  rw [View.read_writes_eq_canon _ _ _ (fun y => ⟨_, List.mem_cons.mpr (Or.inl rfl), View.mem_set_unit_zero (S := S8x128) hz4 inb_S8x128_S8x128_0_0 y⟩)]
  rw [View.canon_cons_unit_zero (S := S8x128) hz4]
  simp only [View.readAt_eq_ld, harg1.read_unread, harg2.read_unread, harg4.read_unread, View.ld_unit_zero (S := S5000x8) hz4, View.ld_unit_zero (S := S5000x128) hz4, View.ld_unit_zero (S := S8x128) hz4]

/-! ## Where the windows are idle -/

/-- The input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- The output window is idle, and not written back, at every point but the last; live at the last. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The staging memrefs at a point -/

/-- Each window's current staging memref at point `t`, and its wholeness. -/
abbrev ms4_0 (t : Fin cfg4.N) : Memref sig .tc .vmem S5000x8 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S8x128 .f32 := win4_2.stage (cfg4.slots t 2)
abbrev hs4_2 (t : Fin cfg4.N) : (ms4_2 t).IsWhole := hstage4_2 ((cfg4.slots t 2).cast nbuf4_2)

/-! ## The invariant's forms -/

/-- The class's invariant with the scratch split off the scoped rest and owned, as a memref, at some contents. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4, owns_whole]; try rfl

/-- Before the first point the invariant is the class's. -/
theorem PhiS4_zero (V : (c : Dev nD) → (b : Ref sig .tc) → Buf (Elt F) ((c : Thread nD τ).loc b)) (c : Dev nD) (n : ℕ) (h : n ≤ cfg4.N) (hz : n = 0) : PhiS4 V c n h = Pipeline.ΦA spec4 c := by
  subst hz; rfl

/-- After point `n`: the scratch at that point's accumulator. -/
theorem PhiS4_succ (V : (c : Dev nD) → (b : Ref sig .tc) → Buf (Elt F) ((c : Thread nD τ).loc b)) (c : Dev nD) (n : ℕ) (hn : n < cfg4.N) :
    PhiS4 V c (n + 1) hn = iprop(iprop(owns (c : Thread nD τ) scM4 fullShare (acc4 V c n hn) ∗ Pipeline.scopedRestBut (Ix := Unit) (Name := ℕ) (U := Pipeline.UD sig nD τ) (Lvl := ℕ) (Val := Elt F) spec4 c [cc4_scratch0]) ∗ (∃ r, prngReg c r)) := rfl

/-- Before a point that is not the first: the scratch at the accumulator of the point before. -/
theorem PhiS4_pos (V : (c : Dev nD) → (b : Ref sig .tc) → Buf (Elt F) ((c : Thread nD τ).loc b)) (c : Dev nD) (n : ℕ) (h : n ≤ cfg4.N) (hz : n ≠ 0) :
    PhiS4 V c n h = iprop(iprop(owns (c : Thread nD τ) scM4 fullShare (acc4 V c (n - 1) (by omega)) ∗ Pipeline.scopedRestBut (Ix := Unit) (Name := ℕ) (U := Pipeline.UD sig nD τ) (Lvl := ℕ) (Val := Elt F) spec4 c [cc4_scratch0]) ∗ (∃ r, prngReg c r)) := by
  cases n with
  | zero => exact absurd rfl hz
  | succ n => rfl

/-- The invariant at a point's start, restated at the point's position. -/
theorem PhiS4_castSucc (V : (c : Dev nD) → (b : Ref sig .tc) → Buf (Elt F) ((c : Thread nD τ).loc b)) (c : Dev nD) (t : Fin cfg4.N) :
    (dat4 V c).Φ t.castSucc = PhiS4 V c t.val (Nat.le_of_lt t.isLt) := by
  dsimp only [dat4]; simp only [Fin.coe_castSucc]

/-- The accumulator at a point that is not the first, from the point before. -/
theorem acc4_pos (V : (c : Dev nD) → (b : Ref sig .tc) → Buf (Elt F) ((c : Thread nD τ).loc b)) (c : Dev nD) (t : Fin cfg4.N) (hz : t.val ≠ 0) :
    acc4 V c t.val t.isLt = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl hz
  | succ n => rfl

/-- The accumulator at the first point: the tile product added to the zero tile. -/
theorem acc4_first (V : (c : Dev nD) → (b : Ref sig .tc) → Buf (Elt F) ((c : Thread nD τ).loc b)) (c : Dev nD) (t : Fin cfg4.N) (hz : t.val = 0) :
    acc4 V c t.val t.isLt = k4_pay2 (iblk4 V c 0 t) (iblk4 V c 1 t) (k4_pay1 (F := F)) := by
  obtain ⟨n, hn⟩ := t
  cases n with
  | zero => rfl
  | succ n => exact absurd hz (Nat.succ_ne_zero n)

/-! ## The inputs' buffers hold their blocks -/

/-- Each input's current staging buffer holds its block at every point, fetched there or not: the body leaves the
    block in place and an unfetched window's block index has not moved. -/
theorem before4_0 (V : (c : Dev nD) → (b : Ref sig .tc) → Buf (Elt F) ((c : Thread nD τ).loc b)) (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (V : (c : Dev nD) → (b : Ref sig .tc) → Buf (Elt F) ((c : Thread nD τ).loc b)) (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (V : (c : Dev nD) → (b : Ref sig .tc) → Buf (Elt F) ((c : Thread nD τ).loc b)) (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (V : (c : Dev nD) → (b : Ref sig .tc) → Buf (Elt F) ((c : Thread nD τ).loc b)) (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the closed forms say which of the three cases the
    point is in. At the first point the invariant hands the body the scratch at anything and takes it back at the
    first accumulator; at a later point it hands the scratch at the accumulator of the point before and takes it back
    at this point's, by the accumulator's recursion. The output window is idle and not written back at every point but
    the last, where its buffer is left at the accumulator. The rest of the scoped buffers, the generator register and
    what the core owes pass through untouched. -/
theorem sound_body4 (V : (c : Dev nD) → (b : Ref sig .tc) → Buf (Elt F) ((c : Thread nD τ).loc b)) (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 20 := lt_of_lt_of_eq t.isLt (show cfg4.N = 20 from N_4)
  by_cases h0 : t.val = 0
  · have h1 : ¬t.val = 19 := by omega
    rw [Dat.leavesExact_idle (dat4 V c) 2 t (idleAt4_2 t (fun h => h1 ((hcond4_1 t).mp h))) (noFlush4_2 t (fun h => h1 ((hcond4_1 t).mp h)))]
    rw [acc4_first V c t h0]
    rw [PhiS4_castSucc V c t, PhiS4_zero V c _ _ h0, PhiA4_eq]
    iintro ⟨⟨⟨HS0, HR⟩, Hg⟩, Ho, ⟨%d0, H0⟩, ⟨%d1, H1⟩, ⟨%d2, H2⟩⟩
    iapply (run4_A c (grid4.coords t) _ _ _ _ _ _ _ _ ((hcond4_0 t).mpr h0) (fun h => h1 ((hcond4_1 t).mp h)) (iblk4 V c 0 t) (iblk4 V c 1 t) _ Set.univ _)
    isplitl [H0]; · iexact H0
    isplitl [H1]; · iexact H1
    isplitl [H2]; · iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexists _; iexact H2
  · by_cases h1 : t.val = 19
    · rw [show (dat4 V c).leavesExact 2 t = owns (c : Thread nD τ) (ms4_2 t) fullShare ((dat4 V c).after 2 t) from by
        unfold Dat.leavesExact; rw [liveAt4_2 t ((hcond4_1 t).mpr h1)], after4_2]
      rw [acc4_pos V c t h0]
      rw [PhiS4_castSucc V c t, PhiS4_pos V c _ _ h0]
      iintro ⟨⟨⟨HS0, HR⟩, Hg⟩, Ho, ⟨%d0, H0⟩, ⟨%d1, H1⟩, ⟨%d2, H2⟩⟩
      iapply (run4_C c (grid4.coords t) _ _ _ _ _ _ _ _ (fun h => h0 ((hcond4_0 t).mp h)) ((hcond4_1 t).mpr h1) (iblk4 V c 0 t) (iblk4 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [acc4_pos V c t h0]
      rw [PhiS4_castSucc V c t, PhiS4_pos V c _ _ h0]
      iintro ⟨⟨⟨HS0, HR⟩, Hg⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h)) (iblk4 V c 0 t) (iblk4 V c 1 t) _ _ Set.univ _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The body's obligation to the pipeline, at every point. -/
theorem body_obligation4 (V : (c : Dev nD) → (b : Ref sig .tc) → Buf (Elt F) ((c : Thread nD τ).loc b)) (c : Dev nD) :
    BodyObligation (dat4 (F := F) V c) (defs₀ (F := F)) Variants.none () Set.univ := fun t => by
  rw [bigSep_W4, bigSep_W4]
  exact sound_body4 V c t

/-- What the launch hands region 4 is its invariant before the first point. -/
theorem hin4 (V : (c : Dev nD) → (b : Ref sig .tc) → Buf (Elt F) ((c : Thread nD τ).loc b)) (c : Dev nD) :
    (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch's named contents are forgotten. -/
theorem hout4 (V : (c : Dev nD) → (b : Ref sig .tc) → Buf (Elt F) ((c : Thread nD τ).loc b)) (c : Dev nD) :
    (dat4 V c).Φ (Fin.last cfg4.N) ⊢ (Pipeline.ΦA spec4 c : sProp 𝕄) := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨HS0, HR⟩, Hg⟩
  isplitl [HS0 HR]
  · isplitl [HS0]
    · iexists _; iexact HS0
    iexact HR
  iexact Hg

end Cert.KernelIdeal.Hand

end
-- ==== Proof.KI.Run.lean ====
/- The whole run of @main: six host stretches and five pallas_calls composed; every unscoped buffer ends at the last
   boundary's contents. -/
import proofs.«420149_j66425964200347_1_alg».proof.Proof.KI.RunDefs
import proofs.«420149_j66425964200347_1_alg».proof.Proof.KI.D0Body
import proofs.«420149_j66425964200347_1_alg».proof.Proof.KI.D1Body
import proofs.«420149_j66425964200347_1_alg».proof.Proof.KI.D2Body
import proofs.«420149_j66425964200347_1_alg».proof.Proof.KI.D3Body
import proofs.«420149_j66425964200347_1_alg».proof.Proof.KI.P4Body
import proofs.«420149_j66425964200347_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pallas_call has a table. -/
abbrev adm : (p : Fin 5) → (pcfgs (F := F) p).Adm := fun p => (cfgs p).toPCfg_adm
/-- Every pallas_call's proof data, each at its entry contents. -/
def pdats : (p : Fin 5) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last boundary's contents `W11`, the generator
    register at some state. -/
abbrev Tₙ (c : Dev nD) : sProp 𝕄 := iprop(StableHlo.held (c : Thread nD τ) (Pipeline.ucRefs τ sig) (W11 m ρ c) ∗ ∃ r, prngReg c r)

/-- What the last host stretch leaves is the last thread state beside the core owing nothing. -/
theorem last_state (c : Dev nD) :
    (iprop(StableHlo.held (c : Thread nD τ) (Pipeline.ucRefs τ sig) (W11 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The pallas_calls as segments -/

set_option backward.isDefEq.respectTransparency.types false in
/-- Pallas_call 0 over the thread state: entered from every unscoped buffer at `W1`, left at `W2`. Its arrays are
    split out of the unscoped buffers and put back at the exit contents; the generator register goes into the constant
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at the exit contents; the generator register goes into the constant
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the constant
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3 over the thread state: entered from every unscoped buffer at `W7`, left at `W8`. Its arrays are
    split out of the unscoped buffers and put back at the exit contents; the generator register goes into the constant
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 4 over the thread state: entered from every unscoped buffer at `W9`, left at `W10`. As the others,
    except that its invariant follows the scratch accumulator: the constant invariant enters it before the first point
    (`hin4`) and is given back after the last (`hout4`). -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine BIBase.Entails.trans ?_ (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- The items' programs are @main's chain, item by item. -/
theorem segs_prog : (segs m ρ).map Pipeline.Seg.prog = ([
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5 ] : List (Prog (TpuEff nD τ sig (Elt F) (Pipeline.Sig Λ₀ (Fin 5) fun p => (pcfgs (F := F) p).Adm) .tc) PUnit)) := rfl

/-- @main is the run of the segments. -/
theorem main_run (c : Dev nD) : main (F := F) c = Pipeline.Seg.run (segs m ρ) := by
  rw [main_chain c, Pipeline.Seg.run_eq_chain, segs_prog]

set_option backward.isDefEq.respectTransparency.types false in
/-- From any memory with zero counters every weakly fair execution of @main terminates, nothing faulting, and every
    final state has every unscoped buffer of every core at the last boundary's contents `W11`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.KI.Args.lean ====
/- No item of @main writes an argument: each argument's buffer holds at the end what it held at launch. -/
import proofs.«420149_j66425964200347_1_alg».proof.Proof.KI.RunDefs
import proofs.«420149_j66425964200347_1_alg».proof.Proof.Gen.KernelIdeal.Regions
import Idealize.ShloMosaic.Lib.StableHlo.Run
import Idealize.ShloMosaic.Lib.Pipeline.Value
import Idealize.ShloMosaic.Lib.Pipeline.Cells
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

/-! ## One step back through each boundary

A host stretch leaves every reference outside its write list as it found it; a pallas_call leaves every
reference that is none of its windows' arrays as it found it, and an input window's array too (an input
window is never written back). -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- pallas_call 0 leaves its input windows' arrays as entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- pallas_call 1 leaves its input windows' arrays as entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- pallas_call 2 leaves its input windows' arrays as entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- pallas_call 3 leaves its input windows' arrays as entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- pallas_call 4 leaves its input windows' arrays as entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-! ## The arguments end as launched -/

theorem W11_main_arg0 (c : Dev nD) : W11 m ρ c (Proc.devRef .tc main_arg0) = m ((c : Thread nD τ).loc main_arg0) :=
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W11_main_arg1 (c : Dev nD) : W11 m ρ c (Proc.devRef .tc main_arg1) = m ((c : Thread nD τ).loc main_arg1) :=
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W11_main_arg2 (c : Dev nD) : W11 m ρ c (Proc.devRef .tc main_arg2) = m ((c : Thread nD τ).loc main_arg2) :=
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W11_main_arg3 (c : Dev nD) : W11 m ρ c (Proc.devRef .tc main_arg3) = m ((c : Thread nD τ).loc main_arg3) :=
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W11_main_arg4 (c : Dev nD) : W11 m ρ c (Proc.devRef .tc main_arg4) = m ((c : Thread nD τ).loc main_arg4) :=
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 1 rfl).trans <|
  (W1_of m ρ c main_arg4 (by decide)).trans rfl
theorem W11_main_arg5 (c : Dev nD) : W11 m ρ c (Proc.devRef .tc main_arg5) = m ((c : Thread nD τ).loc main_arg5) :=
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W11_main_arg6 (c : Dev nD) : W11 m ρ c (Proc.devRef .tc main_arg6) = m ((c : Thread nD τ).loc main_arg6) :=
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_in m ρ c 1 rfl).trans <|
  (W3_of m ρ c main_arg6 (by decide)).trans <|
  (W2_of_ne m ρ c main_arg6 (by decide)).trans <|
  (W1_of m ρ c main_arg6 (by decide)).trans rfl
theorem W11_main_arg7 (c : Dev nD) : W11 m ρ c (Proc.devRef .tc main_arg7) = m ((c : Thread nD τ).loc main_arg7) :=
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W11_main_arg8 (c : Dev nD) : W11 m ρ c (Proc.devRef .tc main_arg8) = m ((c : Thread nD τ).loc main_arg8) :=
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_in m ρ c 1 rfl).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W11_main_arg9 (c : Dev nD) : W11 m ρ c (Proc.devRef .tc main_arg9) = m ((c : Thread nD τ).loc main_arg9) :=
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W11_main_arg10 (c : Dev nD) : W11 m ρ c (Proc.devRef .tc main_arg10) = m ((c : Thread nD τ).loc main_arg10) :=
  (W11_of m ρ c main_arg10 (by decide)).trans <|
  (W10_of_ne m ρ c main_arg10 (by decide)).trans <|
  (W9_of m ρ c main_arg10 (by decide)).trans <|
  (W8_in m ρ c 1 rfl).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W11_main_arg11 (c : Dev nD) : W11 m ρ c (Proc.devRef .tc main_arg11) = m ((c : Thread nD τ).loc main_arg11) :=
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W11_main_arg12 (c : Dev nD) : W11 m ρ c (Proc.devRef .tc main_arg12) = m ((c : Thread nD τ).loc main_arg12) :=
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W11_main_arg13 (c : Dev nD) : W11 m ρ c (Proc.devRef .tc main_arg13) = m ((c : Thread nD τ).loc main_arg13) :=
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

end Cert.KernelIdeal.Hand

end
-- ==== Proof.KI.Frame.lean ====
/- The frame of @main: from any memory with zero counters every weakly fair execution terminates, nothing faulting,
   and every argument's buffer ends holding what it held at launch. -/
import proofs.«420149_j66425964200347_1_alg».proof.Proof.KI.Run
import proofs.«420149_j66425964200347_1_alg».proof.Proof.KI.Args

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The run's last boundary read at the fourteen arguments: no item of @main writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all m ρ)

end Cert.KernelIdeal.Hand

end
-- ==== Proof.KI.Spec.lean ====
/- The host computations the two programs share, each as ONE function of its operands: the inverse square roots of the
   clipped degrees, one graph-convolution's gather / scatter-add / scaling, the one-hot table of the graph ids, the
   node counts, and the head (mean, projection, bias). -/
import proofs.«420149_j66425964200347_1_alg».proof.Proof.Gen.KernelIdeal

noncomputable section

namespace Cert.KernelIdeal.Hand

open Cert.KernelIdeal Cert.KernelIdeal.Gen
open Idealize.ShloMosaic Idealize.ShloMosaic.TcCoe

variable {F : FTy → Type} [FloatOps F]

/-- `rsqrt (max (degree, 1))` per node, the degree being the number of edges whose endpoint list `idx` names the node
    (a scatter-add of ones into zeros; an endpoint outside `[0, 100000)` counts for no node). -/
def isqrtDeg (idx : (⟨S600000, .i32⟩ : BufTy).Contents (Elt F)) : (⟨S100000, .f32⟩ : BufTy).Contents (Elt F) :=
  Host.rsqrt (maximumf
    (Host.scatterAdd scatter_S100000_S600000x1_S600000_n_0_0_1
      (broadcastInDim S100000 ![] bcast_S_S100000 (constant S_ .f32 0x00000000#32))
      (broadcastInDim S600000x1 ![0] bcast_S600000_S600000x1_0 idx)
      (broadcastInDim S600000 ![] bcast_S_S600000 (constant S_ .f32 0x3F800000#32)))
    (broadcastInDim S100000 ![] bcast_S_S100000 (constant S_ .f32 0x3F800000#32)))

/-- The source list with negative entries wrapped once (`src + 100000` where `src < 0`), as a column of gather indices. -/
def srcIdx (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- One graph convolution's sparse part on 5 feature columns: scale the rows by `oi`, gather the rows the edges'
    sources name, scatter-add them at the edges' destinations, scale the rows by `ii`. -/
def aggr5 (x : (⟨S100000x5, .f32⟩ : BufTy).Contents (Elt F)) (src dst : (⟨S600000, .i32⟩ : BufTy).Contents (Elt F)) (oi ii : (⟨S100000, .f32⟩ : BufTy).Contents (Elt F)) : (⟨S100000x5, .f32⟩ : BufTy).Contents (Elt F) :=
  mulf
    (Host.scatterAdd scatter_S100000x5_S600000x1_S600000x5_1_0_0_1
      (broadcastInDim S100000x5 ![] bcast_S_S100000x5 (constant S_ .f32 0x00000000#32))
      (broadcastInDim S600000x1 ![0] bcast_S600000_S600000x1_0 dst)
      (Host.gather gather_S100000x5_S600000x1_S600000x5_1_0_n_n_0_1_15
        (mulf x (broadcastInDim S100000x5 ![0, 1] bcast_S100000x1_S100000x5_0_1 (broadcastInDim S100000x1 ![0] bcast_S100000_S100000x1_0 oi)))
        (srcIdx src)))
    (broadcastInDim S100000x5 ![0, 1] bcast_S100000x1_S100000x5_0_1 (broadcastInDim S100000x1 ![0] bcast_S100000_S100000x1_0 ii))

/-- The same on 128 feature columns. -/
def aggr128 (x : (⟨S100000x128, .f32⟩ : BufTy).Contents (Elt F)) (src dst : (⟨S600000, .i32⟩ : BufTy).Contents (Elt F)) (oi ii : (⟨S100000, .f32⟩ : BufTy).Contents (Elt F)) : (⟨S100000x128, .f32⟩ : BufTy).Contents (Elt F) :=
  mulf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128
        (mulf x (broadcastInDim S100000x128 ![0, 1] bcast_S100000x1_S100000x128_0_1 (broadcastInDim S100000x1 ![0] bcast_S100000_S100000x1_0 oi)))
        (srcIdx src)))
    (broadcastInDim S100000x128 ![0, 1] bcast_S100000x1_S100000x128_0_1 (broadcastInDim S100000x1 ![0] bcast_S100000_S100000x1_0 ii))

/-- The one-hot table of the graph ids: entry `(n, g)` is 1 where `gid n = g` (for `g` in `0 … 7`), else 0. -/
def onehot (gid : (⟨S100000, .i32⟩ : BufTy).Contents (Elt F)) : (⟨S100000x8, .f32⟩ : BufTy).Contents (Elt F) :=
  uitofp .f32 (cmpi .eq
    (broadcastInDim S100000x8 ![0, 1] bcast_S100000x1_S100000x8_0_1 (broadcastInDim S100000x1 ![0] bcast_S100000_S100000x1_0 gid))
    (broadcastInDim S100000x8 ![0, 1] bcast_S1x8_S100000x8_0_1 (broadcastInDim S1x8 ![1] bcast_S8_S1x8_1 (iotaInDim S8 32 0))))

/-- The number of nodes of each graph, as the column sums of the one-hot table. -/
def countsOf (oh : (⟨S100000x8, .f32⟩ : BufTy).Contents (Elt F)) : (⟨S8, .f32⟩ : BufTy).Contents (Elt F) :=
  Host.reduceAdd oh (constant S_ .f32 0x00000000#32) reducesTo_S100000x8_S8_d0 h_S_

/-- The head: per-graph means (sums over `max (count, 1)`), projected by `Wp`, plus the bias. -/
def headOf (sums : (⟨S8x128, .f32⟩ : BufTy).Contents (Elt F)) (cnt : (⟨S8, .f32⟩ : BufTy).Contents (Elt F)) (Wp : (⟨S128x1, .f32⟩ : BufTy).Contents (Elt F)) (bp : (⟨S1, .f32⟩ : BufTy).Contents (Elt F)) : (⟨S8x1, .f32⟩ : BufTy).Contents (Elt F) :=
  addf
    (Host.dotGeneral dot_S8x128_S128x1_S8x1_1_0_0_1_n_n none
      (Host.divf sums
        (broadcastInDim S8x128 ![0, 1] bcast_S8x1_S8x128_0_1 (broadcastInDim S8x1 ![0] bcast_S8_S8x1_0
          (maximumf cnt (broadcastInDim S8 ![] bcast_S_S8 (constant S_ .f32 0x3F800000#32))))))
      Wp)
    (broadcastInDim S8x1 ![0, 1] bcast_S1x1_S8x1_0_1 (broadcastInDim S1x1 ![1] bcast_S1_S1x1_1 bp))

end Cert.KernelIdeal.Hand

end
-- ==== Proof.KI.RefSpec.lean ====
/- The reference's own pieces that the kernel replaces by pallas_calls, each as ONE function of its operands: a dense
   layer (matrix product, bias row, rectifier) and the per-graph sums and node counts as scatter-adds. -/
import proofs.«420149_j66425964200347_1_alg».proof.Proof.Gen.ReferenceIdeal

noncomputable section

namespace Cert.ReferenceIdeal.Hand

open Cert.ReferenceIdeal Cert.ReferenceIdeal.Gen
open Idealize.ShloMosaic Idealize.ShloMosaic.TcCoe

variable {F : FTy → Type} [FloatOps F]

/-- `max (x · w + b, 0)` on 5 input columns, the bias given as a [1, 128] row. -/
def refLayer5 (x : (⟨S100000x5, .f32⟩ : BufTy).Contents (Elt F)) (w : (⟨S5x128, .f32⟩ : BufTy).Contents (Elt F)) (b2 : (⟨S1x128, .f32⟩ : BufTy).Contents (Elt F)) : (⟨S100000x128, .f32⟩ : BufTy).Contents (Elt F) :=
  maximumf
    (addf (Host.dotGeneral dot_S100000x5_S5x128_S100000x128_1_0_0_1_n_n none x w)
      (broadcastInDim S100000x128 ![0, 1] bcast_S1x128_S100000x128_0_1 b2))
    (broadcastInDim S100000x128 ![] bcast_S_S100000x128 (constant S_ .f32 0x00000000#32))

/-- The same on 128 input columns. -/
def refLayer128 (x : (⟨S100000x128, .f32⟩ : BufTy).Contents (Elt F)) (w : (⟨S128x128, .f32⟩ : BufTy).Contents (Elt F)) (b2 : (⟨S1x128, .f32⟩ : BufTy).Contents (Elt F)) : (⟨S100000x128, .f32⟩ : BufTy).Contents (Elt F) :=
  maximumf
    (addf (Host.dotGeneral dot_S100000x128_S128x128_S100000x128_1_0_0_1_n_n none x w)
      (broadcastInDim S100000x128 ![0, 1] bcast_S1x128_S100000x128_0_1 b2))
    (broadcastInDim S100000x128 ![] bcast_S_S100000x128 (constant S_ .f32 0x00000000#32))

/-- A bias vector as a [1, 128] row. -/
def biasRow (b : (⟨S128, .f32⟩ : BufTy).Contents (Elt F)) : (⟨S1x128, .f32⟩ : BufTy).Contents (Elt F) :=
  broadcastInDim S1x128 ![1] bcast_S128_S1x128_1 b

/-- The per-graph sums of the node rows: a scatter-add of the rows into zeros at the nodes' graph ids (a node whose id
    is outside `[0, 8)` adds to no graph). -/
def refSums (gid : (⟨S100000, .i32⟩ : BufTy).Contents (Elt F)) (h : (⟨S100000x128, .f32⟩ : BufTy).Contents (Elt F)) : (⟨S8x128, .f32⟩ : BufTy).Contents (Elt F) :=
  Host.scatterAdd scatter_S8x128_S100000x1_S100000x128_1_0_0_1
    (broadcastInDim S8x128 ![] bcast_S_S8x128 (constant S_ .f32 0x00000000#32))
    (broadcastInDim S100000x1 ![0] bcast_S100000_S100000x1_0 gid) h

/-- The per-graph node counts: a scatter-add of ones into zeros at the nodes' graph ids. -/
def refCounts (gid : (⟨S100000, .i32⟩ : BufTy).Contents (Elt F)) : (⟨S8, .f32⟩ : BufTy).Contents (Elt F) :=
  Host.scatterAdd scatter_S8_S100000x1_S100000_n_0_0_1
    (broadcastInDim S8 ![] bcast_S_S8 (constant S_ .f32 0x00000000#32))
    (broadcastInDim S100000x1 ![0] bcast_S100000_S100000x1_0 gid)
    (broadcastInDim S100000 ![] bcast_S_S100000 (constant S_ .f32 0x3F800000#32))

end Cert.ReferenceIdeal.Hand

end
-- ==== Proof.KI.Reads1.lean ====
/- What the four dense-layer pallas_calls find in their window arrays, as functions of @main's arguments and of what the
   pallas_call before left. -/
import proofs.«420149_j66425964200347_1_alg».proof.Proof.KI.RunDefs
import proofs.«420149_j66425964200347_1_alg».proof.Proof.KI.Spec
import proofs.«420149_j66425964200347_1_alg».proof.Proof.KI.RefSpec
import proofs.«420149_j66425964200347_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F]

/-! ## The bias row -/

/-- A vector of 128 entries reshaped row-major to one row is that vector broadcast along the row: entry (0, k) of either
    is entry k of the vector. -/
theorem reshape_row_eq (b : (⟨S128, .f32⟩ : BufTy).Contents (Elt F)) :
    (shapeCast S1x128 b shapeCasts_S128_S1x128 : (⟨S1x128, .f32⟩ : BufTy).Contents (Elt F)) = Cert.ReferenceIdeal.Hand.biasRow b := by
  funext j
  unfold Cert.ReferenceIdeal.Hand.biasRow
  refine (shapeCast_addUnit_apply ![128] b shapeCasts_S128_S1x128 j).trans ?_
  symm
  refine broadcastInDim_apply _ _ b j (fun a => j a.succ) (fun a => ?_)
  have ha : a = 0 := Subsingleton.elim _ _
  subst ha
  rfl

/-- The graph convolution's sparse part on 128 columns respects equality of its five operands. -/
theorem aggr128_congr {x x' : (⟨S100000x128, .f32⟩ : BufTy).Contents (Elt F)} {s s' d d' : (⟨S600000, .i32⟩ : BufTy).Contents (Elt F)}
    {o o' i i' : (⟨S100000, .f32⟩ : BufTy).Contents (Elt F)} (hx : x = x') (hs : s = s') (hd : d = d') (ho : o = o') (hi : i = i') :
    aggr128 x s d o i = aggr128 x' s' d' o' i' := by
  subst hx hs hd ho hi; rfl

/-! ## Each host stretch from ANY contents X of the buffers: what it leaves in the references the pallas_calls read -/

/-- Stretch 0 leaves in main_v9 the inverse square roots of the clipped degrees counted over argument 1. -/
theorem h0_v9 (X : Valuation τ sig (Elt F)) :
    StableHlo.after hostOps0 X (Proc.devRef .tc main_v9) = isqrtDeg (X (Proc.devRef .tc main_arg1)) := by
  after_results_simp
  rfl

/-- Stretch 0 leaves in main_v12 the inverse square roots of the clipped degrees counted over argument 2. -/
theorem h0_v12 (X : Valuation τ sig (Elt F)) :
    StableHlo.after hostOps0 X (Proc.devRef .tc main_v12) = isqrtDeg (X (Proc.devRef .tc main_arg2)) := by
  after_results_simp
  rfl

/-- Stretch 0 leaves in main_v28 the sparse part of the graph convolution of argument 0. -/
theorem h0_v28 (X : Valuation τ sig (Elt F)) :
    StableHlo.after hostOps0 X (Proc.devRef .tc main_v28)
      = aggr5 (X (Proc.devRef .tc main_arg0)) (X (Proc.devRef .tc main_arg1)) (X (Proc.devRef .tc main_arg2))
          (isqrtDeg (X (Proc.devRef .tc main_arg1))) (isqrtDeg (X (Proc.devRef .tc main_arg2))) := by
  after_results_simp
  rfl

/-- Stretch 0 leaves in main_v29 the bias row of argument 5. -/
theorem h0_v29 (X : Valuation τ sig (Elt F)) :
    StableHlo.after hostOps0 X (Proc.devRef .tc main_v29) = Cert.ReferenceIdeal.Hand.biasRow (X (Proc.devRef .tc main_arg5)) := by
  after_results_simp
  exact reshape_row_eq _

/-- Stretch 1 leaves in main_v46 the sparse part of the graph convolution of what main_v30 holds, scaled by what main_v9 and
    main_v12 hold. -/
theorem h1_x (X : Valuation τ sig (Elt F)) :
    StableHlo.after hostOps1 X (Proc.devRef .tc main_v46)
      = aggr128 (X (Proc.devRef .tc main_v30)) (X (Proc.devRef .tc main_arg1)) (X (Proc.devRef .tc main_arg2))
          (X (Proc.devRef .tc main_v9)) (X (Proc.devRef .tc main_v12)) := by
  after_results_simp
  rfl

/-- Stretch 1 leaves in main_v47 the bias row of main_arg7. -/
theorem h1_b (X : Valuation τ sig (Elt F)) :
    StableHlo.after hostOps1 X (Proc.devRef .tc main_v47) = Cert.ReferenceIdeal.Hand.biasRow (X (Proc.devRef .tc main_arg7)) := by
  after_results_simp
  exact reshape_row_eq _

/-- Stretch 2 leaves in main_v64 the sparse part of the graph convolution of what main_v48 holds, scaled by what main_v9 and
    main_v12 hold. -/
theorem h2_x (X : Valuation τ sig (Elt F)) :
    StableHlo.after hostOps2 X (Proc.devRef .tc main_v64)
      = aggr128 (X (Proc.devRef .tc main_v48)) (X (Proc.devRef .tc main_arg1)) (X (Proc.devRef .tc main_arg2))
          (X (Proc.devRef .tc main_v9)) (X (Proc.devRef .tc main_v12)) := by
  after_results_simp
  rfl

/-- Stretch 2 leaves in main_v65 the bias row of main_arg9. -/
theorem h2_b (X : Valuation τ sig (Elt F)) :
    StableHlo.after hostOps2 X (Proc.devRef .tc main_v65) = Cert.ReferenceIdeal.Hand.biasRow (X (Proc.devRef .tc main_arg9)) := by
  after_results_simp
  exact reshape_row_eq _

/-- Stretch 3 leaves in main_v82 the sparse part of the graph convolution of what main_v66 holds, scaled by what main_v9 and
    main_v12 hold. -/
theorem h3_x (X : Valuation τ sig (Elt F)) :
    StableHlo.after hostOps3 X (Proc.devRef .tc main_v82)
      = aggr128 (X (Proc.devRef .tc main_v66)) (X (Proc.devRef .tc main_arg1)) (X (Proc.devRef .tc main_arg2))
          (X (Proc.devRef .tc main_v9)) (X (Proc.devRef .tc main_v12)) := by
  after_results_simp
  rfl

/-- Stretch 3 leaves in main_v83 the bias row of main_arg11. -/
theorem h3_b (X : Valuation τ sig (Elt F)) :
    StableHlo.after hostOps3 X (Proc.devRef .tc main_v83) = Cert.ReferenceIdeal.Hand.biasRow (X (Proc.devRef .tc main_arg11)) := by
  after_results_simp
  exact reshape_row_eq _

variable (m : (ℓ : Loc nD τ sig) → Buf (Elt F) ℓ) (ρ : Dev nD → PrngReg)

/-! ## A reference no item so far has written holds what @main was launched with -/

/-- At launch a TensorCore reference holds the launch contents of its location. -/
theorem W0_at (c : Dev nD) (r : Ref sig .tc) : W0 m ρ c (Proc.devRef .tc r) = m ((c : Thread nD τ).loc r) := rfl

/-- Stretch 0 keeps every reference it does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Stretch 1 keeps every reference it does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Stretch 2 keeps every reference it does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Stretch 3 keeps every reference it does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- Stretch 0 and pallas_call 0 keep a reference neither writes. -/
theorem W2_keep (c : Dev nD) (r : Ref sig .tc) (h0 : r ∉ hostOps0_W) (a0 : ∀ w, Pipeline.arrRef spec0 w ≠ r) :
    W2 m ρ c (Proc.devRef .tc r) = W0 m ρ c (Proc.devRef .tc r) :=
  (W2_of_ne m ρ c r a0).trans (W1_keep m ρ c r h0)
/-- Stretch 1 and pallas_call 1 keep a reference neither writes. -/
theorem W4_keep (c : Dev nD) (r : Ref sig .tc) (h1 : r ∉ hostOps1_W) (a1 : ∀ w, Pipeline.arrRef spec1 w ≠ r) :
    W4 m ρ c (Proc.devRef .tc r) = W2 m ρ c (Proc.devRef .tc r) :=
  (W4_of_ne m ρ c r a1).trans (W3_keep m ρ c r h1)
/-- Stretch 2 and pallas_call 2 keep a reference neither writes. -/
theorem W6_keep (c : Dev nD) (r : Ref sig .tc) (h2 : r ∉ hostOps2_W) (a2 : ∀ w, Pipeline.arrRef spec2 w ≠ r) :
    W6 m ρ c (Proc.devRef .tc r) = W4 m ρ c (Proc.devRef .tc r) :=
  (W6_of_ne m ρ c r a2).trans (W5_keep m ρ c r h2)

/-! ## The edge lists and the degree scalings at each pallas_call's exit -/

theorem W2_arg1 (c : Dev nD) : W2 m ρ c (Proc.devRef .tc main_arg1) = m ((c : Thread nD τ).loc main_arg1) :=
  W2_keep m ρ c main_arg1 (by decide) (by decide)
theorem W2_arg2 (c : Dev nD) : W2 m ρ c (Proc.devRef .tc main_arg2) = m ((c : Thread nD τ).loc main_arg2) :=
  W2_keep m ρ c main_arg2 (by decide) (by decide)
/-- main_v9 is written by stretch 0 and by nothing after it. -/
theorem W2_v9 (c : Dev nD) : W2 m ρ c (Proc.devRef .tc main_v9) = isqrtDeg (m ((c : Thread nD τ).loc main_arg1)) :=
  (W2_of_ne m ρ c main_v9 (by decide)).trans (h0_v9 (W0 m ρ c))
/-- main_v12 is written by stretch 0 and by nothing after it. -/
theorem W2_v12 (c : Dev nD) : W2 m ρ c (Proc.devRef .tc main_v12) = isqrtDeg (m ((c : Thread nD τ).loc main_arg2)) :=
  (W2_of_ne m ρ c main_v12 (by decide)).trans (h0_v12 (W0 m ρ c))

theorem W4_arg1 (c : Dev nD) : W4 m ρ c (Proc.devRef .tc main_arg1) = m ((c : Thread nD τ).loc main_arg1) :=
  (W4_keep m ρ c main_arg1 (by decide) (by decide)).trans (W2_arg1 m ρ c)
theorem W4_arg2 (c : Dev nD) : W4 m ρ c (Proc.devRef .tc main_arg2) = m ((c : Thread nD τ).loc main_arg2) :=
  (W4_keep m ρ c main_arg2 (by decide) (by decide)).trans (W2_arg2 m ρ c)
theorem W4_v9 (c : Dev nD) : W4 m ρ c (Proc.devRef .tc main_v9) = isqrtDeg (m ((c : Thread nD τ).loc main_arg1)) :=
  (W4_keep m ρ c main_v9 (by decide) (by decide)).trans (W2_v9 m ρ c)
theorem W4_v12 (c : Dev nD) : W4 m ρ c (Proc.devRef .tc main_v12) = isqrtDeg (m ((c : Thread nD τ).loc main_arg2)) :=
  (W4_keep m ρ c main_v12 (by decide) (by decide)).trans (W2_v12 m ρ c)

theorem W6_arg1 (c : Dev nD) : W6 m ρ c (Proc.devRef .tc main_arg1) = m ((c : Thread nD τ).loc main_arg1) :=
  (W6_keep m ρ c main_arg1 (by decide) (by decide)).trans (W4_arg1 m ρ c)
theorem W6_arg2 (c : Dev nD) : W6 m ρ c (Proc.devRef .tc main_arg2) = m ((c : Thread nD τ).loc main_arg2) :=
  (W6_keep m ρ c main_arg2 (by decide) (by decide)).trans (W4_arg2 m ρ c)
theorem W6_v9 (c : Dev nD) : W6 m ρ c (Proc.devRef .tc main_v9) = isqrtDeg (m ((c : Thread nD τ).loc main_arg1)) :=
  (W6_keep m ρ c main_v9 (by decide) (by decide)).trans (W4_v9 m ρ c)
theorem W6_v12 (c : Dev nD) : W6 m ρ c (Proc.devRef .tc main_v12) = isqrtDeg (m ((c : Thread nD τ).loc main_arg2)) :=
  (W6_keep m ρ c main_v12 (by decide) (by decide)).trans (W4_v12 m ρ c)

/-- At pallas_call 0's exit its output array holds what its write-backs leave. -/
theorem W2_v30 (c : Dev nD) : W2 m ρ c (Proc.devRef .tc main_v30) = (dat0 (V1 m ρ) c).arrAt 3 cfg0.N := W2_arr m ρ c 3
/-- At pallas_call 1's exit its output array holds what its write-backs leave. -/
theorem W4_v48 (c : Dev nD) : W4 m ρ c (Proc.devRef .tc main_v48) = (dat1 (V3 m ρ) c).arrAt 3 cfg1.N := W4_arr m ρ c 3
/-- At pallas_call 2's exit its output array holds what its write-backs leave. -/
theorem W6_v66 (c : Dev nD) : W6 m ρ c (Proc.devRef .tc main_v66) = (dat2 (V5 m ρ) c).arrAt 3 cfg2.N := W6_arr m ρ c 3

/-! ## The window arrays at each pallas_call's entry -/

/-- pallas_call 0's input array: the graph convolution's sparse part of the node features. -/
theorem read1_x (c : Dev nD) :
    V1 m ρ c (Pipeline.arrRef spec0 0)
      = aggr5 (m ((c : Thread nD τ).loc main_arg0)) (m ((c : Thread nD τ).loc main_arg1)) (m ((c : Thread nD τ).loc main_arg2)) (isqrtDeg (m ((c : Thread nD τ).loc main_arg1))) (isqrtDeg (m ((c : Thread nD τ).loc main_arg2))) :=
  h0_v28 (W0 m ρ c)
/-- pallas_call 0's weight array is the argument as launched. -/
theorem read1_w (c : Dev nD) : V1 m ρ c (Pipeline.arrRef spec0 1) = (m ((c : Thread nD τ).loc main_arg4)) :=
  W1_keep m ρ c main_arg4 (by decide)
/-- pallas_call 0's bias array: the bias vector reshaped to a [1, 128] row, which is that vector broadcast to a row. -/
theorem read1_b (c : Dev nD) : V1 m ρ c (Pipeline.arrRef spec0 2) = Cert.ReferenceIdeal.Hand.biasRow (m ((c : Thread nD τ).loc main_arg5)) :=
  h0_v29 (W0 m ρ c)

/-- pallas_call 1's input array: the graph convolution's sparse part of what pallas_call 0 left. -/
theorem read3_x (c : Dev nD) :
    V3 m ρ c (Pipeline.arrRef spec1 0)
      = aggr128 ((dat0 (V1 m ρ) c).arrAt 3 cfg0.N) (m ((c : Thread nD τ).loc main_arg1)) (m ((c : Thread nD τ).loc main_arg2)) (isqrtDeg (m ((c : Thread nD τ).loc main_arg1))) (isqrtDeg (m ((c : Thread nD τ).loc main_arg2))) :=
  (h1_x (W2 m ρ c)).trans (aggr128_congr (W2_v30 m ρ c) (W2_arg1 m ρ c) (W2_arg2 m ρ c) (W2_v9 m ρ c) (W2_v12 m ρ c))
/-- pallas_call 1's weight array is the argument as launched. -/
theorem read3_w (c : Dev nD) : V3 m ρ c (Pipeline.arrRef spec1 1) = (m ((c : Thread nD τ).loc main_arg6)) :=
  (W3_keep m ρ c main_arg6 (by decide)).trans (W2_keep m ρ c main_arg6 (by decide) (by decide))
/-- pallas_call 1's bias array: the bias vector reshaped to a [1, 128] row, which is that vector broadcast to a row. -/
theorem read3_b (c : Dev nD) : V3 m ρ c (Pipeline.arrRef spec1 2) = Cert.ReferenceIdeal.Hand.biasRow (m ((c : Thread nD τ).loc main_arg7)) :=
  (h1_b (W2 m ρ c)).trans (congrArg Cert.ReferenceIdeal.Hand.biasRow (W2_keep m ρ c main_arg7 (by decide) (by decide)))

/-- pallas_call 2's input array: the graph convolution's sparse part of what pallas_call 1 left. -/
theorem read5_x (c : Dev nD) :
    V5 m ρ c (Pipeline.arrRef spec2 0)
      = aggr128 ((dat1 (V3 m ρ) c).arrAt 3 cfg1.N) (m ((c : Thread nD τ).loc main_arg1)) (m ((c : Thread nD τ).loc main_arg2)) (isqrtDeg (m ((c : Thread nD τ).loc main_arg1))) (isqrtDeg (m ((c : Thread nD τ).loc main_arg2))) :=
  (h2_x (W4 m ρ c)).trans (aggr128_congr (W4_v48 m ρ c) (W4_arg1 m ρ c) (W4_arg2 m ρ c) (W4_v9 m ρ c) (W4_v12 m ρ c))
/-- pallas_call 2's weight array is the argument as launched. -/
theorem read5_w (c : Dev nD) : V5 m ρ c (Pipeline.arrRef spec2 1) = (m ((c : Thread nD τ).loc main_arg8)) :=
  (W5_keep m ρ c main_arg8 (by decide)).trans
    ((W4_keep m ρ c main_arg8 (by decide) (by decide)).trans (W2_keep m ρ c main_arg8 (by decide) (by decide)))
/-- pallas_call 2's bias array: the bias vector reshaped to a [1, 128] row, which is that vector broadcast to a row. -/
theorem read5_b (c : Dev nD) : V5 m ρ c (Pipeline.arrRef spec2 2) = Cert.ReferenceIdeal.Hand.biasRow (m ((c : Thread nD τ).loc main_arg9)) :=
  (h2_b (W4 m ρ c)).trans (congrArg Cert.ReferenceIdeal.Hand.biasRow
    ((W4_keep m ρ c main_arg9 (by decide) (by decide)).trans (W2_keep m ρ c main_arg9 (by decide) (by decide))))

/-- pallas_call 3's input array: the graph convolution's sparse part of what pallas_call 2 left. -/
theorem read7_x (c : Dev nD) :
    V7 m ρ c (Pipeline.arrRef spec3 0)
      = aggr128 ((dat2 (V5 m ρ) c).arrAt 3 cfg2.N) (m ((c : Thread nD τ).loc main_arg1)) (m ((c : Thread nD τ).loc main_arg2)) (isqrtDeg (m ((c : Thread nD τ).loc main_arg1))) (isqrtDeg (m ((c : Thread nD τ).loc main_arg2))) :=
  (h3_x (W6 m ρ c)).trans (aggr128_congr (W6_v66 m ρ c) (W6_arg1 m ρ c) (W6_arg2 m ρ c) (W6_v9 m ρ c) (W6_v12 m ρ c))
/-- pallas_call 3's weight array is the argument as launched. -/
theorem read7_w (c : Dev nD) : V7 m ρ c (Pipeline.arrRef spec3 1) = (m ((c : Thread nD τ).loc main_arg10)) :=
  (W7_keep m ρ c main_arg10 (by decide)).trans
    ((W6_keep m ρ c main_arg10 (by decide) (by decide)).trans
      ((W4_keep m ρ c main_arg10 (by decide) (by decide)).trans (W2_keep m ρ c main_arg10 (by decide) (by decide))))
/-- pallas_call 3's bias array: the bias vector reshaped to a [1, 128] row, which is that vector broadcast to a row. -/
theorem read7_b (c : Dev nD) : V7 m ρ c (Pipeline.arrRef spec3 2) = Cert.ReferenceIdeal.Hand.biasRow (m ((c : Thread nD τ).loc main_arg11)) :=
  (h3_b (W6 m ρ c)).trans (congrArg Cert.ReferenceIdeal.Hand.biasRow
    ((W6_keep m ρ c main_arg11 (by decide) (by decide)).trans
      ((W4_keep m ρ c main_arg11 (by decide) (by decide)).trans (W2_keep m ρ c main_arg11 (by decide) (by decide)))))

end Cert.KernelIdeal.Hand

end
-- ==== Proof.KI.Reads2.lean ====
/- What the mean-pool pallas_call finds in its window arrays, and @main's result, as functions of @main's arguments and
   of what the pallas_calls left. -/
import proofs.«420149_j66425964200347_1_alg».proof.Proof.KI.RunDefs
import proofs.«420149_j66425964200347_1_alg».proof.Proof.KI.Spec
import proofs.«420149_j66425964200347_1_alg».proof.Proof.KI.Args
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F]

/-! ## The two last host stretches over any entry contents

Each result is the stretch's operations composed, applied to the entry contents of the few references the
stretch reads. -/

/-- Host stretch 4 leaves in `main_v91` the one-hot table of what `main_arg3` held on entry. -/
theorem hostOps4_v91 (X : Valuation τ sig (Elt F)) :
    StableHlo.after hostOps4 X (Proc.devRef .tc main_v91) = onehot (X (Proc.devRef .tc main_arg3)) := by
  after_results; rfl
/-- Host stretch 4 leaves in `main_v92` the column sums of that one-hot table. -/
theorem hostOps4_v92 (X : Valuation τ sig (Elt F)) :
    StableHlo.after hostOps4 X (Proc.devRef .tc main_v92) = countsOf (onehot (X (Proc.devRef .tc main_arg3))) := by
  after_results; rfl
/-- Host stretch 5 leaves in `main_v102` the head of the sums, the counts, the projection and the bias it found. -/
theorem hostOps5_v102 (X : Valuation τ sig (Elt F)) :
    StableHlo.after hostOps5 X (Proc.devRef .tc main_v102)
      = headOf (X (Proc.devRef .tc main_v93)) (X (Proc.devRef .tc main_v92)) (X (Proc.devRef .tc main_arg12)) (X (Proc.devRef .tc main_arg13)) := by
  after_results; rfl

variable (m : (ℓ : Loc nD τ sig) → Buf (Elt F) ℓ) (ρ : Dev nD → PrngReg)

/-! ## The arguments read at the two last boundaries -/

theorem W8_main_arg3 (c : Dev nD) : W8 m ρ c (Proc.devRef .tc main_arg3) = m ((c : Thread nD τ).loc main_arg3) :=
  (W9_of m ρ c main_arg3 (by decide)).symm.trans <| (W10_of_ne m ρ c main_arg3 (by decide)).symm.trans <|
  (W11_of m ρ c main_arg3 (by decide)).symm.trans (W11_main_arg3 m ρ c)
theorem W10_main_arg12 (c : Dev nD) : W10 m ρ c (Proc.devRef .tc main_arg12) = m ((c : Thread nD τ).loc main_arg12) :=
  (W11_of m ρ c main_arg12 (by decide)).symm.trans (W11_main_arg12 m ρ c)
theorem W10_main_arg13 (c : Dev nD) : W10 m ρ c (Proc.devRef .tc main_arg13) = m ((c : Thread nD τ).loc main_arg13) :=
  (W11_of m ρ c main_arg13 (by decide)).symm.trans (W11_main_arg13 m ρ c)

/-- The counts pallas_call 4 leaves untouched: the column sums of the one-hot table of the graph ids. -/
theorem W10_main_v92 (c : Dev nD) :
    W10 m ρ c (Proc.devRef .tc main_v92) = countsOf (onehot (m ((c : Thread nD τ).loc main_arg3))) :=
  (W10_of_ne m ρ c main_v92 (by decide)).trans <|
  (hostOps4_v92 (W8 m ρ c)).trans (congrArg (fun g => countsOf (onehot g)) (W8_main_arg3 m ρ c))

/-- pallas_call 4's first window array is the one-hot table of the graph ids. -/
theorem read9_oh (c : Dev nD) : V9 m ρ c (Pipeline.arrRef spec4 0) = onehot (m ((c : Thread nD τ).loc main_arg3)) :=
  (hostOps4_v91 (W8 m ρ c)).trans (congrArg onehot (W8_main_arg3 m ρ c))
/-- pallas_call 4's second window array is what the last dense layer left. -/
theorem read9_h (c : Dev nD) : V9 m ρ c (Pipeline.arrRef spec4 1) = (dat3 (V7 m ρ) c).arrAt 3 cfg3.N :=
  (W9_of m ρ c main_v84 (by decide)).trans (W8_arr m ρ c 3)
/-- @main's result: the head applied to what pallas_call 4 left, the column sums of the one-hot table, the projection
    and its bias. -/
theorem read11_out (c : Dev nD) :
    W11 m ρ c (Proc.devRef .tc main_v102)
      = headOf ((dat4 (V9 m ρ) c).arrAt 2 cfg4.N) (countsOf (onehot (m ((c : Thread nD τ).loc main_arg3)))) (m ((c : Thread nD τ).loc main_arg12)) (m ((c : Thread nD τ).loc main_arg13)) := by
  refine (hostOps5_v102 (W10 m ρ c)).trans ?_
  rw [W10_main_v92 m ρ c, W10_main_arg12 m ρ c, W10_main_arg13 m ρ c]
  exact congrArg (fun s => headOf s _ _ _) (W10_arr m ρ c 2)

end Cert.KernelIdeal.Hand

end
-- ==== Proof.KI.D0Val.lean ====
/- The first dense layer (pallas_call 0) at the ideal instance: after the run its output array holds, index by index,
   the rectified affine map of the whole input array — the reference's dense layer of the same operands. -/
import proofs.«420149_j66425964200347_1_alg».proof.Proof.KI.D0Defs
import proofs.«420149_j66425964200347_1_alg».proof.Proof.KI.RefSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## The block product's operand indices, axis by axis -/

theorem pay0_lhs_0 (i : S5000x128.Idx) (u : dot_S5000x5_S5x128_S5000x128_1_0_0_1_n_n.contr.Idx) :
    (dot_S5000x5_S5x128_S5000x128_1_0_0_1_n_n.lhsIdx i u 0).val = (i 0).val := by
  unfold DotDims.lhsIdx
  rw [dif_neg (show ¬(0 : Fin S5000x5.rank) ∈ dot_S5000x5_S5x128_S5000x128_1_0_0_1_n_n.lhsBatch by decide), dif_pos (show (0 : Fin S5000x5.rank) ∈ dot_S5000x5_S5x128_S5000x128_1_0_0_1_n_n.lhsNonContracting by decide)]
  rfl
theorem pay0_lhs_1 (i : S5000x128.Idx) (u : dot_S5000x5_S5x128_S5000x128_1_0_0_1_n_n.contr.Idx) :
    (dot_S5000x5_S5x128_S5000x128_1_0_0_1_n_n.lhsIdx i u 1).val = (u ⟨0, by decide⟩).val :=
  dot_S5000x5_S5x128_S5000x128_1_0_0_1_n_n.lhsIdx_val_of_single rfl i u
theorem pay0_rhs_0 (i : S5000x128.Idx) (u : dot_S5000x5_S5x128_S5000x128_1_0_0_1_n_n.contr.Idx) :
    (dot_S5000x5_S5x128_S5000x128_1_0_0_1_n_n.rhsIdx i u 0).val = (u ⟨0, by decide⟩).val :=
  dot_S5000x5_S5x128_S5000x128_1_0_0_1_n_n.rhsIdx_val_of_single rfl i u
theorem pay0_rhs_1 (i : S5000x128.Idx) (u : dot_S5000x5_S5x128_S5000x128_1_0_0_1_n_n.contr.Idx) :
    (dot_S5000x5_S5x128_S5000x128_1_0_0_1_n_n.rhsIdx i u 1).val = (i 1).val := by
  unfold DotDims.rhsIdx
  rw [dif_neg (show ¬(1 : Fin S5x128.rank) ∈ dot_S5000x5_S5x128_S5000x128_1_0_0_1_n_n.rhsBatch by decide), dif_pos (show (1 : Fin S5x128.rank) ∈ dot_S5000x5_S5x128_S5000x128_1_0_0_1_n_n.rhsNonContracting by decide)]
  rfl

/-- The block product into the zero accumulator, at row `p` and column `q`: the sum over the contracted column. -/
theorem pay0_mm (a : FVec Ideal S5000x5 .bf16) (b : FVec Ideal S5x128 .bf16) (p : Fin 5000) (q : Fin 128) :
    matmul dot_S5000x5_S5x128_S5000x128_1_0_0_1_n_n none a b (constant (F := Ideal) S5000x128 .f32 0x00000000#32) (ix2 p q)
      = ∑ k : Fin 5, a (ix2 p k) * b (ix2 k q) := by
  simp only [matmul]
  rw [Ideal.matmul_constant_zero_apply, ← Equiv.sum_comp (contrEquiv1 dot_S5000x5_S5x128_S5000x128_1_0_0_1_n_n _ rfl rfl : _ ≃ Fin 5).symm]
  refine Finset.sum_congr rfl fun k _ => ?_
  have hk := contrEquiv1_symm_val dot_S5000x5_S5x128_S5000x128_1_0_0_1_n_n _ rfl rfl k
  have el : dot_S5000x5_S5x128_S5000x128_1_0_0_1_n_n.lhsIdx (ix2 p q) ((contrEquiv1 dot_S5000x5_S5x128_S5000x128_1_0_0_1_n_n _ rfl rfl : _ ≃ Fin 5).symm k) = ix2 p k := funext fun d => Fin.ext (by
    match d with
    | ⟨0, _⟩ => exact pay0_lhs_0 _ _
    | ⟨1, _⟩ => exact (pay0_lhs_1 _ _).trans hk)
  have er : dot_S5000x5_S5x128_S5000x128_1_0_0_1_n_n.rhsIdx (ix2 p q) ((contrEquiv1 dot_S5000x5_S5x128_S5000x128_1_0_0_1_n_n _ rfl rfl : _ ≃ Fin 5).symm k) = ix2 k q := funext fun d => Fin.ext (by
    match d with
    | ⟨0, _⟩ => exact (pay0_rhs_0 _ _).trans hk
    | ⟨1, _⟩ => exact pay0_rhs_1 _ _)
  rw [el, er]

/-- The body's payload at row `p`, column `q` of the tile: the row of the input tile against the column of the weight,
    plus the bias at that column, rectified. Narrowing to bf16 is the identity on the ideal values. -/
theorem pay0_apply (x0 : Vec Ideal S5000x5 .f32) (x1 : Vec Ideal S5x128 .f32) (x2 : Vec Ideal S1x128 .f32) (p : Fin 5000) (q : Fin 128) :
    k0_pay1 (F := Ideal) x0 x1 x2 (ix2 p q)
      = max ((∑ k : Fin 5, x0 (ix2 p k) * x1 (ix2 k q)) + x2 (ix2 (0 : Fin 1) q)) (Ideal.ofBits .f32 0x00000000#32) := by
  unfold k0_pay1
  rw [maximumf_apply, addf_apply, broadcast_apply]
  refine congrArg₂ max (congrArg₂ (· + ·) ?_ ?_) rfl
  · refine (pay0_mm _ _ p q).trans ?_
    refine Finset.sum_congr rfl fun k _ => ?_
    rw [truncf_apply, truncf_apply, shapeCast_self]
  · rw [shapeCast_self]
    exact broadcastTo_apply _ _ _ (ix2 (0 : Fin 1) q) (fun a => match a with | ⟨0, _⟩ => rfl | ⟨1, _⟩ => rfl)

/-! ## The reference's product's operand indices, axis by axis -/

theorem dense0_lhs_0 (i : Cert.ReferenceIdeal.S100000x128.Idx) (u : Cert.ReferenceIdeal.dot_S100000x5_S5x128_S100000x128_1_0_0_1_n_n.contr.Idx) :
    (Cert.ReferenceIdeal.dot_S100000x5_S5x128_S100000x128_1_0_0_1_n_n.lhsIdx i u 0).val = (i 0).val := by
  unfold DotDims.lhsIdx
  rw [dif_neg (show ¬(0 : Fin Cert.ReferenceIdeal.S100000x5.rank) ∈ Cert.ReferenceIdeal.dot_S100000x5_S5x128_S100000x128_1_0_0_1_n_n.lhsBatch by decide), dif_pos (show (0 : Fin Cert.ReferenceIdeal.S100000x5.rank) ∈ Cert.ReferenceIdeal.dot_S100000x5_S5x128_S100000x128_1_0_0_1_n_n.lhsNonContracting by decide)]
  rfl
theorem dense0_lhs_1 (i : Cert.ReferenceIdeal.S100000x128.Idx) (u : Cert.ReferenceIdeal.dot_S100000x5_S5x128_S100000x128_1_0_0_1_n_n.contr.Idx) :
    (Cert.ReferenceIdeal.dot_S100000x5_S5x128_S100000x128_1_0_0_1_n_n.lhsIdx i u 1).val = (u ⟨0, by decide⟩).val :=
  Cert.ReferenceIdeal.dot_S100000x5_S5x128_S100000x128_1_0_0_1_n_n.lhsIdx_val_of_single rfl i u
theorem dense0_rhs_0 (i : Cert.ReferenceIdeal.S100000x128.Idx) (u : Cert.ReferenceIdeal.dot_S100000x5_S5x128_S100000x128_1_0_0_1_n_n.contr.Idx) :
    (Cert.ReferenceIdeal.dot_S100000x5_S5x128_S100000x128_1_0_0_1_n_n.rhsIdx i u 0).val = (u ⟨0, by decide⟩).val :=
  Cert.ReferenceIdeal.dot_S100000x5_S5x128_S100000x128_1_0_0_1_n_n.rhsIdx_val_of_single rfl i u
theorem dense0_rhs_1 (i : Cert.ReferenceIdeal.S100000x128.Idx) (u : Cert.ReferenceIdeal.dot_S100000x5_S5x128_S100000x128_1_0_0_1_n_n.contr.Idx) :
    (Cert.ReferenceIdeal.dot_S100000x5_S5x128_S100000x128_1_0_0_1_n_n.rhsIdx i u 1).val = (i 1).val := by
  unfold DotDims.rhsIdx
  rw [dif_neg (show ¬(1 : Fin Cert.ReferenceIdeal.S5x128.rank) ∈ Cert.ReferenceIdeal.dot_S100000x5_S5x128_S100000x128_1_0_0_1_n_n.rhsBatch by decide), dif_pos (show (1 : Fin Cert.ReferenceIdeal.S5x128.rank) ∈ Cert.ReferenceIdeal.dot_S100000x5_S5x128_S100000x128_1_0_0_1_n_n.rhsNonContracting by decide)]
  rfl

/-- The reference's product at row `r`, column `q` of the whole array: the same sum over the contracted column. -/
theorem dense0_mm (X : (⟨Cert.ReferenceIdeal.S100000x5, .f32⟩ : BufTy).Contents (Elt Ideal)) (W : (⟨Cert.ReferenceIdeal.S5x128, .f32⟩ : BufTy).Contents (Elt Ideal))
    (r : Fin 100000) (q : Fin 128) :
    Host.dotGeneral (F := Ideal) (φ₁ := .f32) (φ₂ := .f32) Cert.ReferenceIdeal.dot_S100000x5_S5x128_S100000x128_1_0_0_1_n_n none X W (ix2 r q)
      = ∑ k : Fin 5, X (ix2 r k) * W (ix2 k q) := by
  simp only [Host.dotGeneral]
  rw [Ideal.dotGeneral_apply, ← Equiv.sum_comp (contrEquiv1 Cert.ReferenceIdeal.dot_S100000x5_S5x128_S100000x128_1_0_0_1_n_n _ rfl rfl : _ ≃ Fin 5).symm]
  refine Finset.sum_congr rfl fun k _ => ?_
  have hk := contrEquiv1_symm_val Cert.ReferenceIdeal.dot_S100000x5_S5x128_S100000x128_1_0_0_1_n_n _ rfl rfl k
  have el : Cert.ReferenceIdeal.dot_S100000x5_S5x128_S100000x128_1_0_0_1_n_n.lhsIdx (ix2 r q) ((contrEquiv1 Cert.ReferenceIdeal.dot_S100000x5_S5x128_S100000x128_1_0_0_1_n_n _ rfl rfl : _ ≃ Fin 5).symm k) = ix2 r k := funext fun d => Fin.ext (by
    match d with
    | ⟨0, _⟩ => exact dense0_lhs_0 _ _
    | ⟨1, _⟩ => exact (dense0_lhs_1 _ _).trans hk)
  have er : Cert.ReferenceIdeal.dot_S100000x5_S5x128_S100000x128_1_0_0_1_n_n.rhsIdx (ix2 r q) ((contrEquiv1 Cert.ReferenceIdeal.dot_S100000x5_S5x128_S100000x128_1_0_0_1_n_n _ rfl rfl : _ ≃ Fin 5).symm k) = ix2 k q := funext fun d => Fin.ext (by
    match d with
    | ⟨0, _⟩ => exact (dense0_rhs_0 _ _).trans hk
    | ⟨1, _⟩ => exact dense0_rhs_1 _ _)
  rw [el, er]

/-- The reference's dense layer at row `r`, column `q`: the row of the input against the column of the weight, plus the
    bias row at that column, rectified. -/
theorem dense0_apply (X : (⟨Cert.ReferenceIdeal.S100000x5, .f32⟩ : BufTy).Contents (Elt Ideal)) (W : (⟨Cert.ReferenceIdeal.S5x128, .f32⟩ : BufTy).Contents (Elt Ideal))
    (B : (⟨Cert.ReferenceIdeal.S1x128, .f32⟩ : BufTy).Contents (Elt Ideal)) (r : Fin 100000) (q : Fin 128) :
    Cert.ReferenceIdeal.Hand.refLayer5 (F := Ideal) X W B (ix2 r q)
      = max ((∑ k : Fin 5, X (ix2 r k) * W (ix2 k q)) + B (ix2 (0 : Fin 1) q)) (Ideal.ofBits .f32 0x00000000#32) := by
  unfold Cert.ReferenceIdeal.Hand.refLayer5
  rw [maximumf_apply, addf_apply]
  refine congrArg₂ max (congrArg₂ (· + ·) (dense0_mm X W r q) ?_) ?_
  · exact broadcastInDim_apply _ _ _ _ (ix2 (0 : Fin 1) q) (fun a => match a with | ⟨0, _⟩ => rfl | ⟨1, _⟩ => rfl)
  · rw [broadcastInDim_scalar_apply, constant_apply]

/-- The kernel's tile entry and the reference's array entry agree once the operands they read agree: the tile's row
    `p` is the array's row `r`, the weight and the bias row are read whole. Stated over plain vectors and arrays. -/
theorem dense0_point (x0 : Vec Ideal S5000x5 .f32) (x1 : Vec Ideal S5x128 .f32) (x2 : Vec Ideal S1x128 .f32)
    (X : (⟨Cert.ReferenceIdeal.S100000x5, .f32⟩ : BufTy).Contents (Elt Ideal)) (W : (⟨Cert.ReferenceIdeal.S5x128, .f32⟩ : BufTy).Contents (Elt Ideal))
    (B : (⟨Cert.ReferenceIdeal.S1x128, .f32⟩ : BufTy).Contents (Elt Ideal))
    (p : Fin 5000) (q : Fin 128) (r : Fin 100000) (i : Cert.ReferenceIdeal.S100000x128.Idx) (hi : i = ix2 r q)
    (hx : ∀ k : Fin 5, x0 (ix2 p k) = X (ix2 r k)) (hw : ∀ k : Fin 5, x1 (ix2 k q) = W (ix2 k q))
    (hb : x2 (ix2 (0 : Fin 1) q) = B (ix2 (0 : Fin 1) q)) :
    k0_pay1 (F := Ideal) x0 x1 x2 (ix2 p q) = Cert.ReferenceIdeal.Hand.refLayer5 (F := Ideal) X W B i := by
  subst hi
  rw [pay0_apply, dense0_apply, hb]
  exact congrArg₂ max (congrArg₂ (· + ·) (Finset.sum_congr rfl fun k _ => by rw [hx k, hw k]) rfl) rfl

/-! ## From the tiles to the array -/

theorem pay0_hz : (![0, 0] : Fin 2 → Nat) = fun _ => 0 := funext fun a => match a with | ⟨0, _⟩ => rfl | ⟨1, _⟩ => rfl

/-- The printed index maps, decided over the grid: the input tile and the output tile are at row block `t`, column
    block 0; the weight and the bias row are at block (0, 0) at every point. -/
theorem win0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point `t` writes back is block `t` of the reference's dense layer of the three arrays as the region finds them. -/
theorem flushed0_3_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Cert.ReferenceIdeal.Hand.refLayer5 (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero pay0_hz]
  simp only [View.ld_unit_zero (S := S5000x5) pay0_hz, View.ld_unit_zero (S := S5x128) pay0_hz, View.ld_unit_zero (S := S1x128) pay0_hz]
  obtain ⟨e0, e1, e2, e3, e4, e5, e6, e7⟩ := win0_idx t
  have ht : t.val < 20 := Nat.lt_of_lt_of_eq t.isLt (show cfg0.N = 20 from N_0)
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.ReferenceIdeal.Hand.refLayer5 (F := Ideal) (V c (Pipeline.arrRef spec0 0)) (V c (Pipeline.arrRef spec0 1)) (V c (Pipeline.arrRef spec0 2))
        (((cfg0.win 3).blk t).view.emb (ix2 p q))
  refine dense0_point (iblk0 V c 0 t) (iblk0 V c 1 t) (iblk0 V c 2 t) (V c (Pipeline.arrRef spec0 0)) (V c (Pipeline.arrRef spec0 1)) (V c (Pipeline.arrRef spec0 2))
    p q ⟨t.val * 5000 + p.val, by have := p.isLt; omega⟩ (((cfg0.win 3).blk t).view.emb (ix2 p q)) ?_ ?_ ?_ ?_
  · funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  · intro k
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * _ + 1 * k.val = k.val; rw [e1, Nat.zero_mul, Nat.one_mul, Nat.zero_add]
  · intro k
    show V c (Pipeline.arrRef spec0 1) (((cfg0.win 1).blk t).view.emb (ix2 k q)) = _
    refine congrArg _ (funext fun a => Fin.ext ?_)
    match a with
    | ⟨0, _⟩ => show win0_1.index t (0 : Fin 2) * _ + 1 * k.val = k.val; rw [e2, Nat.zero_mul, Nat.one_mul, Nat.zero_add]
    | ⟨1, _⟩ => show win0_1.index t (1 : Fin 2) * 128 + 1 * q.val = q.val; omega
  · show V c (Pipeline.arrRef spec0 2) (((cfg0.win 2).blk t).view.emb (ix2 (0 : Fin 1) q)) = _
    refine congrArg _ (funext fun a => Fin.ext ?_)
    match a with
    | ⟨0, _⟩ => show win0_2.index t (0 : Fin 2) * 1 + 1 * (0 : Fin 1).val = (0 : Fin 1).val; rw [e4]; rfl
    | ⟨1, _⟩ => show win0_2.index t (1 : Fin 2) * 128 + 1 * q.val = q.val; omega

/-- An index of the output array is in point `t`'s block iff each coordinate is in the block's range on its axis. -/
theorem flushed0_3_mem (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every row of the output array is in the block of the point that its row tile belongs to: row `r` is in tile `r / 5000`. -/
theorem flushed0_3_cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := win0_idx t
  refine ⟨t, flush0_3 t, ?_⟩
  rw [flushed0_3_mem]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the twenty row tiles have been written back, the layer's output array is the reference's dense layer of the
    three window arrays (input, weight, bias row) as the region found them. -/
theorem arrAt0_3 (V : (c : Dev nD) → (b : Ref sig .tc) → Buf (Elt Ideal) ((c : Thread nD τ).loc b)) (c : Dev nD) :
    (dat0 (F := Ideal) V c).arrAt 3 cfg0.N
      = Cert.ReferenceIdeal.Hand.refLayer5 (F := Ideal) (V c (Pipeline.arrRef spec0 0)) (V c (Pipeline.arrRef spec0 1)) (V c (Pipeline.arrRef spec0 2)) :=
  (dat0 (F := Ideal) V c).arrAt_eq_of_cover 3 _ (fun t _ => flushed0_3_eq V c t) flushed0_3_cover

end Cert.KernelIdeal.Hand

end
-- ==== Proof.KI.D1Val.lean ====
/- The dense layer number 1 (counting from 0) (pallas_call 1) at the ideal instance: after the run its output array holds, index by index,
   the rectified affine map of the whole input array — the reference's dense layer of the same operands. -/
import proofs.«420149_j66425964200347_1_alg».proof.Proof.KI.D1Defs
import proofs.«420149_j66425964200347_1_alg».proof.Proof.KI.RefSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## The block product's operand indices, axis by axis -/

theorem pay1_lhs_0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem pay1_lhs_1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
theorem pay1_rhs_0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
theorem pay1_rhs_1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the contracted column. -/
theorem pay1_mm (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n _ rfl rfl : _ ≃ Fin 128).symm]
  refine Finset.sum_congr rfl fun k _ => ?_
  have hk := contrEquiv1_symm_val dot_S5000x128_S128x128_S5000x128_1_0_0_1_n_n _ rfl rfl k
  have el : dot_S5000x128_S128x128_S5000x128_1_0_0_1_n_n.lhsIdx (ix2 p q) ((contrEquiv1 dot_S5000x128_S128x128_S5000x128_1_0_0_1_n_n _ rfl rfl : _ ≃ Fin 128).symm k) = ix2 p k := funext fun d => Fin.ext (by
    match d with
    | ⟨0, _⟩ => exact pay1_lhs_0 _ _
    | ⟨1, _⟩ => exact (pay1_lhs_1 _ _).trans hk)
  have er : dot_S5000x128_S128x128_S5000x128_1_0_0_1_n_n.rhsIdx (ix2 p q) ((contrEquiv1 dot_S5000x128_S128x128_S5000x128_1_0_0_1_n_n _ rfl rfl : _ ≃ Fin 128).symm k) = ix2 k q := funext fun d => Fin.ext (by
    match d with
    | ⟨0, _⟩ => exact (pay1_rhs_0 _ _).trans hk
    | ⟨1, _⟩ => exact pay1_rhs_1 _ _)
  rw [el, er]

/-- The body's payload at row `p`, column `q` of the tile: the row of the input tile against the column of the weight,
    plus the bias at that column, rectified. Narrowing to bf16 is the identity on the ideal values. -/
theorem pay1_apply (x0 : Vec Ideal S5000x128 .f32) (x1 : Vec Ideal S128x128 .f32) (x2 : Vec Ideal S1x128 .f32) (p : Fin 5000) (q : Fin 128) :
    k1_pay1 (F := Ideal) x0 x1 x2 (ix2 p q)
      = max ((∑ k : Fin 128, x0 (ix2 p k) * x1 (ix2 k q)) + x2 (ix2 (0 : Fin 1) q)) (Ideal.ofBits .f32 0x00000000#32) := by
  unfold k1_pay1
  rw [maximumf_apply, addf_apply, broadcast_apply]
  refine congrArg₂ max (congrArg₂ (· + ·) ?_ ?_) rfl
  · refine (pay1_mm _ _ p q).trans ?_
    refine Finset.sum_congr rfl fun k _ => ?_
    rw [truncf_apply, truncf_apply, shapeCast_self]
  · rw [shapeCast_self]
    exact broadcastTo_apply _ _ _ (ix2 (0 : Fin 1) q) (fun a => match a with | ⟨0, _⟩ => rfl | ⟨1, _⟩ => rfl)

/-! ## The reference's product's operand indices, axis by axis -/

theorem dense1_lhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dense1_lhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 1).val = (u ⟨0, by decide⟩).val :=
  Cert.ReferenceIdeal.dot_S100000x128_S128x128_S100000x128_1_0_0_1_n_n.lhsIdx_val_of_single rfl i u
theorem dense1_rhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 0).val = (u ⟨0, by decide⟩).val :=
  Cert.ReferenceIdeal.dot_S100000x128_S128x128_S100000x128_1_0_0_1_n_n.rhsIdx_val_of_single rfl i u
theorem dense1_rhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's product at row `r`, column `q` of the whole array: the same sum over the contracted column. -/
theorem dense1_mm (X : (⟨Cert.ReferenceIdeal.S100000x128, .f32⟩ : BufTy).Contents (Elt Ideal)) (W : (⟨Cert.ReferenceIdeal.S128x128, .f32⟩ : BufTy).Contents (Elt Ideal))
    (r : Fin 100000) (q : Fin 128) :
    Host.dotGeneral (F := Ideal) (φ₁ := .f32) (φ₂ := .f32) Cert.ReferenceIdeal.dot_S100000x128_S128x128_S100000x128_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x128_S100000x128_1_0_0_1_n_n _ rfl rfl : _ ≃ Fin 128).symm]
  refine Finset.sum_congr rfl fun k _ => ?_
  have hk := contrEquiv1_symm_val Cert.ReferenceIdeal.dot_S100000x128_S128x128_S100000x128_1_0_0_1_n_n _ rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n _ rfl rfl : _ ≃ Fin 128).symm k) = ix2 r k := funext fun d => Fin.ext (by
    match d with
    | ⟨0, _⟩ => exact dense1_lhs_0 _ _
    | ⟨1, _⟩ => exact (dense1_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n _ rfl rfl : _ ≃ Fin 128).symm k) = ix2 k q := funext fun d => Fin.ext (by
    match d with
    | ⟨0, _⟩ => exact (dense1_rhs_0 _ _).trans hk
    | ⟨1, _⟩ => exact dense1_rhs_1 _ _)
  rw [el, er]

/-- The reference's dense layer at row `r`, column `q`: the row of the input against the column of the weight, plus the
    bias row at that column, rectified. -/
theorem dense1_apply (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal)) (r : Fin 100000) (q : Fin 128) :
    Cert.ReferenceIdeal.Hand.refLayer128 (F := Ideal) X W B (ix2 r q)
      = max ((∑ k : Fin 128, X (ix2 r k) * W (ix2 k q)) + B (ix2 (0 : Fin 1) q)) (Ideal.ofBits .f32 0x00000000#32) := by
  unfold Cert.ReferenceIdeal.Hand.refLayer128
  rw [maximumf_apply, addf_apply]
  refine congrArg₂ max (congrArg₂ (· + ·) (dense1_mm X W r q) ?_) ?_
  · exact broadcastInDim_apply _ _ _ _ (ix2 (0 : Fin 1) q) (fun a => match a with | ⟨0, _⟩ => rfl | ⟨1, _⟩ => rfl)
  · rw [broadcastInDim_scalar_apply, constant_apply]

/-- The kernel's tile entry and the reference's array entry agree once the operands they read agree: the tile's row
    `p` is the array's row `r`, the weight and the bias row are read whole. Stated over plain vectors and arrays. -/
theorem dense1_point (x0 : Vec Ideal S5000x128 .f32) (x1 : Vec Ideal S128x128 .f32) (x2 : Vec Ideal S1x128 .f32)
    (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal))
    (p : Fin 5000) (q : Fin 128) (r : Fin 100000) (i : Cert.ReferenceIdeal.S100000x128.Idx) (hi : i = ix2 r q)
    (hx : ∀ k : Fin 128, x0 (ix2 p k) = X (ix2 r k)) (hw : ∀ k : Fin 128, x1 (ix2 k q) = W (ix2 k q))
    (hb : x2 (ix2 (0 : Fin 1) q) = B (ix2 (0 : Fin 1) q)) :
    k1_pay1 (F := Ideal) x0 x1 x2 (ix2 p q) = Cert.ReferenceIdeal.Hand.refLayer128 (F := Ideal) X W B i := by
  subst hi
  rw [pay1_apply, dense1_apply, hb]
  exact congrArg₂ max (congrArg₂ (· + ·) (Finset.sum_congr rfl fun k _ => by rw [hx k, hw k]) rfl) rfl

/-! ## From the tiles to the array -/

theorem pay1_hz : (![0, 0] : Fin 2 → Nat) = fun _ => 0 := funext fun a => match a with | ⟨0, _⟩ => rfl | ⟨1, _⟩ => rfl

/-- The printed index maps, decided over the grid: the input tile and the output tile are at row block `t`, column
    block 0; the weight and the bias row are at block (0, 0) at every point. -/
theorem win1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1000000 in
/-- What point `t` writes back is block `t` of the reference's dense layer of the three arrays as the region finds them. -/
theorem flushed1_3_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (Cert.ReferenceIdeal.Hand.refLayer128 (F := Ideal) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero pay1_hz]
  simp only [View.ld_unit_zero (S := S5000x128) pay1_hz, View.ld_unit_zero (S := S128x128) pay1_hz, View.ld_unit_zero (S := S1x128) pay1_hz]
  obtain ⟨e0, e1, e2, e3, e4, e5, e6, e7⟩ := win1_idx t
  have ht : t.val < 20 := Nat.lt_of_lt_of_eq t.isLt (show cfg1.N = 20 from N_1)
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.ReferenceIdeal.Hand.refLayer128 (F := Ideal) (V c (Pipeline.arrRef spec1 0)) (V c (Pipeline.arrRef spec1 1)) (V c (Pipeline.arrRef spec1 2))
        (((cfg1.win 3).blk t).view.emb (ix2 p q))
  refine dense1_point (iblk1 V c 0 t) (iblk1 V c 1 t) (iblk1 V c 2 t) (V c (Pipeline.arrRef spec1 0)) (V c (Pipeline.arrRef spec1 1)) (V c (Pipeline.arrRef spec1 2))
    p q ⟨t.val * 5000 + p.val, by have := p.isLt; omega⟩ (((cfg1.win 3).blk t).view.emb (ix2 p q)) ?_ ?_ ?_ ?_
  · funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  · intro k
    show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * _ + 1 * k.val = k.val; rw [e1, Nat.zero_mul, Nat.one_mul, Nat.zero_add]
  · intro k
    show V c (Pipeline.arrRef spec1 1) (((cfg1.win 1).blk t).view.emb (ix2 k q)) = _
    refine congrArg _ (funext fun a => Fin.ext ?_)
    match a with
    | ⟨0, _⟩ => show win1_1.index t (0 : Fin 2) * _ + 1 * k.val = k.val; rw [e2, Nat.zero_mul, Nat.one_mul, Nat.zero_add]
    | ⟨1, _⟩ => show win1_1.index t (1 : Fin 2) * 128 + 1 * q.val = q.val; omega
  · show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * (0 : Fin 1).val = (0 : Fin 1).val; rw [e4]; rfl
    | ⟨1, _⟩ => show win1_2.index t (1 : Fin 2) * 128 + 1 * q.val = q.val; omega

/-- An index of the output array is in point `t`'s block iff each coordinate is in the block's range on its axis. -/
theorem flushed1_3_mem (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Every row of the output array is in the block of the point that its row tile belongs to: row `r` is in tile `r / 5000`. -/
theorem flushed1_3_cover (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := win1_idx t
  refine ⟨t, flush1_3 t, ?_⟩
  rw [flushed1_3_mem]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the twenty row tiles have been written back, the layer's output array is the reference's dense layer of the
    three window arrays (input, weight, bias row) as the region found them. -/
theorem arrAt1_3 (V : (c : Dev nD) → (b : Ref sig .tc) → Buf (Elt Ideal) ((c : Thread nD τ).loc b)) (c : Dev nD) :
    (dat1 (F := Ideal) V c).arrAt 3 cfg1.N
      = Cert.ReferenceIdeal.Hand.refLayer128 (F := Ideal) (V c (Pipeline.arrRef spec1 0)) (V c (Pipeline.arrRef spec1 1)) (V c (Pipeline.arrRef spec1 2)) :=
  (dat1 (F := Ideal) V c).arrAt_eq_of_cover 3 _ (fun t _ => flushed1_3_eq V c t) flushed1_3_cover

end Cert.KernelIdeal.Hand

end
-- ==== Proof.KI.D2Val.lean ====
/- The dense layer number 2 (counting from 0) (pallas_call 2) at the ideal instance: after the run its output array holds, index by index,
   the rectified affine map of the whole input array — the reference's dense layer of the same operands. -/
import proofs.«420149_j66425964200347_1_alg».proof.Proof.KI.D2Defs
import proofs.«420149_j66425964200347_1_alg».proof.Proof.KI.RefSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## The block product's operand indices, axis by axis -/

theorem pay2_lhs_0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem pay2_lhs_1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
theorem pay2_rhs_0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
theorem pay2_rhs_1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the contracted column. -/
theorem pay2_mm (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n _ rfl rfl : _ ≃ Fin 128).symm]
  refine Finset.sum_congr rfl fun k _ => ?_
  have hk := contrEquiv1_symm_val dot_S5000x128_S128x128_S5000x128_1_0_0_1_n_n _ rfl rfl k
  have el : dot_S5000x128_S128x128_S5000x128_1_0_0_1_n_n.lhsIdx (ix2 p q) ((contrEquiv1 dot_S5000x128_S128x128_S5000x128_1_0_0_1_n_n _ rfl rfl : _ ≃ Fin 128).symm k) = ix2 p k := funext fun d => Fin.ext (by
    match d with
    | ⟨0, _⟩ => exact pay2_lhs_0 _ _
    | ⟨1, _⟩ => exact (pay2_lhs_1 _ _).trans hk)
  have er : dot_S5000x128_S128x128_S5000x128_1_0_0_1_n_n.rhsIdx (ix2 p q) ((contrEquiv1 dot_S5000x128_S128x128_S5000x128_1_0_0_1_n_n _ rfl rfl : _ ≃ Fin 128).symm k) = ix2 k q := funext fun d => Fin.ext (by
    match d with
    | ⟨0, _⟩ => exact (pay2_rhs_0 _ _).trans hk
    | ⟨1, _⟩ => exact pay2_rhs_1 _ _)
  rw [el, er]

/-- The body's payload at row `p`, column `q` of the tile: the row of the input tile against the column of the weight,
    plus the bias at that column, rectified. Narrowing to bf16 is the identity on the ideal values. -/
theorem pay2_apply (x0 : Vec Ideal S5000x128 .f32) (x1 : Vec Ideal S128x128 .f32) (x2 : Vec Ideal S1x128 .f32) (p : Fin 5000) (q : Fin 128) :
    k2_pay1 (F := Ideal) x0 x1 x2 (ix2 p q)
      = max ((∑ k : Fin 128, x0 (ix2 p k) * x1 (ix2 k q)) + x2 (ix2 (0 : Fin 1) q)) (Ideal.ofBits .f32 0x00000000#32) := by
  unfold k2_pay1
  rw [maximumf_apply, addf_apply, broadcast_apply]
  refine congrArg₂ max (congrArg₂ (· + ·) ?_ ?_) rfl
  · refine (pay2_mm _ _ p q).trans ?_
    refine Finset.sum_congr rfl fun k _ => ?_
    rw [truncf_apply, truncf_apply, shapeCast_self]
  · rw [shapeCast_self]
    exact broadcastTo_apply _ _ _ (ix2 (0 : Fin 1) q) (fun a => match a with | ⟨0, _⟩ => rfl | ⟨1, _⟩ => rfl)

/-! ## The reference's product's operand indices, axis by axis -/

theorem dense2_lhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dense2_lhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 1).val = (u ⟨0, by decide⟩).val :=
  Cert.ReferenceIdeal.dot_S100000x128_S128x128_S100000x128_1_0_0_1_n_n.lhsIdx_val_of_single rfl i u
theorem dense2_rhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 0).val = (u ⟨0, by decide⟩).val :=
  Cert.ReferenceIdeal.dot_S100000x128_S128x128_S100000x128_1_0_0_1_n_n.rhsIdx_val_of_single rfl i u
theorem dense2_rhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's product at row `r`, column `q` of the whole array: the same sum over the contracted column. -/
theorem dense2_mm (X : (⟨Cert.ReferenceIdeal.S100000x128, .f32⟩ : BufTy).Contents (Elt Ideal)) (W : (⟨Cert.ReferenceIdeal.S128x128, .f32⟩ : BufTy).Contents (Elt Ideal))
    (r : Fin 100000) (q : Fin 128) :
    Host.dotGeneral (F := Ideal) (φ₁ := .f32) (φ₂ := .f32) Cert.ReferenceIdeal.dot_S100000x128_S128x128_S100000x128_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x128_S100000x128_1_0_0_1_n_n _ rfl rfl : _ ≃ Fin 128).symm]
  refine Finset.sum_congr rfl fun k _ => ?_
  have hk := contrEquiv1_symm_val Cert.ReferenceIdeal.dot_S100000x128_S128x128_S100000x128_1_0_0_1_n_n _ rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n _ rfl rfl : _ ≃ Fin 128).symm k) = ix2 r k := funext fun d => Fin.ext (by
    match d with
    | ⟨0, _⟩ => exact dense2_lhs_0 _ _
    | ⟨1, _⟩ => exact (dense2_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n _ rfl rfl : _ ≃ Fin 128).symm k) = ix2 k q := funext fun d => Fin.ext (by
    match d with
    | ⟨0, _⟩ => exact (dense2_rhs_0 _ _).trans hk
    | ⟨1, _⟩ => exact dense2_rhs_1 _ _)
  rw [el, er]

/-- The reference's dense layer at row `r`, column `q`: the row of the input against the column of the weight, plus the
    bias row at that column, rectified. -/
theorem dense2_apply (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal)) (r : Fin 100000) (q : Fin 128) :
    Cert.ReferenceIdeal.Hand.refLayer128 (F := Ideal) X W B (ix2 r q)
      = max ((∑ k : Fin 128, X (ix2 r k) * W (ix2 k q)) + B (ix2 (0 : Fin 1) q)) (Ideal.ofBits .f32 0x00000000#32) := by
  unfold Cert.ReferenceIdeal.Hand.refLayer128
  rw [maximumf_apply, addf_apply]
  refine congrArg₂ max (congrArg₂ (· + ·) (dense2_mm X W r q) ?_) ?_
  · exact broadcastInDim_apply _ _ _ _ (ix2 (0 : Fin 1) q) (fun a => match a with | ⟨0, _⟩ => rfl | ⟨1, _⟩ => rfl)
  · rw [broadcastInDim_scalar_apply, constant_apply]

/-- The kernel's tile entry and the reference's array entry agree once the operands they read agree: the tile's row
    `p` is the array's row `r`, the weight and the bias row are read whole. Stated over plain vectors and arrays. -/
theorem dense2_point (x0 : Vec Ideal S5000x128 .f32) (x1 : Vec Ideal S128x128 .f32) (x2 : Vec Ideal S1x128 .f32)
    (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal))
    (p : Fin 5000) (q : Fin 128) (r : Fin 100000) (i : Cert.ReferenceIdeal.S100000x128.Idx) (hi : i = ix2 r q)
    (hx : ∀ k : Fin 128, x0 (ix2 p k) = X (ix2 r k)) (hw : ∀ k : Fin 128, x1 (ix2 k q) = W (ix2 k q))
    (hb : x2 (ix2 (0 : Fin 1) q) = B (ix2 (0 : Fin 1) q)) :
    k2_pay1 (F := Ideal) x0 x1 x2 (ix2 p q) = Cert.ReferenceIdeal.Hand.refLayer128 (F := Ideal) X W B i := by
  subst hi
  rw [pay2_apply, dense2_apply, hb]
  exact congrArg₂ max (congrArg₂ (· + ·) (Finset.sum_congr rfl fun k _ => by rw [hx k, hw k]) rfl) rfl

/-! ## From the tiles to the array -/

theorem pay2_hz : (![0, 0] : Fin 2 → Nat) = fun _ => 0 := funext fun a => match a with | ⟨0, _⟩ => rfl | ⟨1, _⟩ => rfl

/-- The printed index maps, decided over the grid: the input tile and the output tile are at row block `t`, column
    block 0; the weight and the bias row are at block (0, 0) at every point. -/
theorem win2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- What point `t` writes back is block `t` of the reference's dense layer of the three arrays as the region finds them. -/
theorem flushed2_3_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal)
      (Cert.ReferenceIdeal.Hand.refLayer128 (F := Ideal) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero pay2_hz]
  simp only [View.ld_unit_zero (S := S5000x128) pay2_hz, View.ld_unit_zero (S := S128x128) pay2_hz, View.ld_unit_zero (S := S1x128) pay2_hz]
  obtain ⟨e0, e1, e2, e3, e4, e5, e6, e7⟩ := win2_idx t
  have ht : t.val < 20 := Nat.lt_of_lt_of_eq t.isLt (show cfg2.N = 20 from N_2)
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = Cert.ReferenceIdeal.Hand.refLayer128 (F := Ideal) (V c (Pipeline.arrRef spec2 0)) (V c (Pipeline.arrRef spec2 1)) (V c (Pipeline.arrRef spec2 2))
        (((cfg2.win 3).blk t).view.emb (ix2 p q))
  refine dense2_point (iblk2 V c 0 t) (iblk2 V c 1 t) (iblk2 V c 2 t) (V c (Pipeline.arrRef spec2 0)) (V c (Pipeline.arrRef spec2 1)) (V c (Pipeline.arrRef spec2 2))
    p q ⟨t.val * 5000 + p.val, by have := p.isLt; omega⟩ (((cfg2.win 3).blk t).view.emb (ix2 p q)) ?_ ?_ ?_ ?_
  · funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  · intro k
    show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * _ + 1 * k.val = k.val; rw [e1, Nat.zero_mul, Nat.one_mul, Nat.zero_add]
  · intro k
    show V c (Pipeline.arrRef spec2 1) (((cfg2.win 1).blk t).view.emb (ix2 k q)) = _
    refine congrArg _ (funext fun a => Fin.ext ?_)
    match a with
    | ⟨0, _⟩ => show win2_1.index t (0 : Fin 2) * _ + 1 * k.val = k.val; rw [e2, Nat.zero_mul, Nat.one_mul, Nat.zero_add]
    | ⟨1, _⟩ => show win2_1.index t (1 : Fin 2) * 128 + 1 * q.val = q.val; omega
  · show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * (0 : Fin 1).val = (0 : Fin 1).val; rw [e4]; rfl
    | ⟨1, _⟩ => show win2_2.index t (1 : Fin 2) * 128 + 1 * q.val = q.val; omega

/-- An index of the output array is in point `t`'s block iff each coordinate is in the block's range on its axis. -/
theorem flushed2_3_mem (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Every row of the output array is in the block of the point that its row tile belongs to: row `r` is in tile `r / 5000`. -/
theorem flushed2_3_cover (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e6, e7⟩ := win2_idx t
  refine ⟨t, flush2_3 t, ?_⟩
  rw [flushed2_3_mem]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the twenty row tiles have been written back, the layer's output array is the reference's dense layer of the
    three window arrays (input, weight, bias row) as the region found them. -/
theorem arrAt2_3 (V : (c : Dev nD) → (b : Ref sig .tc) → Buf (Elt Ideal) ((c : Thread nD τ).loc b)) (c : Dev nD) :
    (dat2 (F := Ideal) V c).arrAt 3 cfg2.N
      = Cert.ReferenceIdeal.Hand.refLayer128 (F := Ideal) (V c (Pipeline.arrRef spec2 0)) (V c (Pipeline.arrRef spec2 1)) (V c (Pipeline.arrRef spec2 2)) :=
  (dat2 (F := Ideal) V c).arrAt_eq_of_cover 3 _ (fun t _ => flushed2_3_eq V c t) flushed2_3_cover

end Cert.KernelIdeal.Hand

end
-- ==== Proof.KI.D3Val.lean ====
/- The dense layer number 3 (counting from 0) (pallas_call 3) at the ideal instance: after the run its output array holds, index by index,
   the rectified affine map of the whole input array — the reference's dense layer of the same operands. -/
import proofs.«420149_j66425964200347_1_alg».proof.Proof.KI.D3Defs
import proofs.«420149_j66425964200347_1_alg».proof.Proof.KI.RefSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## The block product's operand indices, axis by axis -/

theorem pay3_lhs_0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem pay3_lhs_1 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
theorem pay3_rhs_0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
theorem pay3_rhs_1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the contracted column. -/
theorem pay3_mm (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n _ rfl rfl : _ ≃ Fin 128).symm]
  refine Finset.sum_congr rfl fun k _ => ?_
  have hk := contrEquiv1_symm_val dot_S5000x128_S128x128_S5000x128_1_0_0_1_n_n _ rfl rfl k
  have el : dot_S5000x128_S128x128_S5000x128_1_0_0_1_n_n.lhsIdx (ix2 p q) ((contrEquiv1 dot_S5000x128_S128x128_S5000x128_1_0_0_1_n_n _ rfl rfl : _ ≃ Fin 128).symm k) = ix2 p k := funext fun d => Fin.ext (by
    match d with
    | ⟨0, _⟩ => exact pay3_lhs_0 _ _
    | ⟨1, _⟩ => exact (pay3_lhs_1 _ _).trans hk)
  have er : dot_S5000x128_S128x128_S5000x128_1_0_0_1_n_n.rhsIdx (ix2 p q) ((contrEquiv1 dot_S5000x128_S128x128_S5000x128_1_0_0_1_n_n _ rfl rfl : _ ≃ Fin 128).symm k) = ix2 k q := funext fun d => Fin.ext (by
    match d with
    | ⟨0, _⟩ => exact (pay3_rhs_0 _ _).trans hk
    | ⟨1, _⟩ => exact pay3_rhs_1 _ _)
  rw [el, er]

/-- The body's payload at row `p`, column `q` of the tile: the row of the input tile against the column of the weight,
    plus the bias at that column, rectified. Narrowing to bf16 is the identity on the ideal values. -/
theorem pay3_apply (x0 : Vec Ideal S5000x128 .f32) (x1 : Vec Ideal S128x128 .f32) (x2 : Vec Ideal S1x128 .f32) (p : Fin 5000) (q : Fin 128) :
    k3_pay1 (F := Ideal) x0 x1 x2 (ix2 p q)
      = max ((∑ k : Fin 128, x0 (ix2 p k) * x1 (ix2 k q)) + x2 (ix2 (0 : Fin 1) q)) (Ideal.ofBits .f32 0x00000000#32) := by
  unfold k3_pay1
  rw [maximumf_apply, addf_apply, broadcast_apply]
  refine congrArg₂ max (congrArg₂ (· + ·) ?_ ?_) rfl
  · refine (pay3_mm _ _ p q).trans ?_
    refine Finset.sum_congr rfl fun k _ => ?_
    rw [truncf_apply, truncf_apply, shapeCast_self]
  · rw [shapeCast_self]
    exact broadcastTo_apply _ _ _ (ix2 (0 : Fin 1) q) (fun a => match a with | ⟨0, _⟩ => rfl | ⟨1, _⟩ => rfl)

/-! ## The reference's product's operand indices, axis by axis -/

theorem dense3_lhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dense3_lhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.lhsIdx i u 1).val = (u ⟨0, by decide⟩).val :=
  Cert.ReferenceIdeal.dot_S100000x128_S128x128_S100000x128_1_0_0_1_n_n.lhsIdx_val_of_single rfl i u
theorem dense3_rhs_0 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 0).val = (u ⟨0, by decide⟩).val :=
  Cert.ReferenceIdeal.dot_S100000x128_S128x128_S100000x128_1_0_0_1_n_n.rhsIdx_val_of_single rfl i u
theorem dense3_rhs_1 (i : Cert.ReferenceIdeal.S100000x128.Idx) (u : Cert.ReferenceIdeal.dot_S100000x128_S128x128_S100000x128_1_0_0_1_n_n.contr.Idx) :
    (Cert.ReferenceIdeal.dot_S100000x128_S128x128_S100000x128_1_0_0_1_n_n.rhsIdx i u 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's product at row `r`, column `q` of the whole array: the same sum over the contracted column. -/
theorem dense3_mm (X : (⟨Cert.ReferenceIdeal.S100000x128, .f32⟩ : BufTy).Contents (Elt Ideal)) (W : (⟨Cert.ReferenceIdeal.S128x128, .f32⟩ : BufTy).Contents (Elt Ideal))
    (r : Fin 100000) (q : Fin 128) :
    Host.dotGeneral (F := Ideal) (φ₁ := .f32) (φ₂ := .f32) Cert.ReferenceIdeal.dot_S100000x128_S128x128_S100000x128_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x128_S100000x128_1_0_0_1_n_n _ rfl rfl : _ ≃ Fin 128).symm]
  refine Finset.sum_congr rfl fun k _ => ?_
  have hk := contrEquiv1_symm_val Cert.ReferenceIdeal.dot_S100000x128_S128x128_S100000x128_1_0_0_1_n_n _ rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n _ rfl rfl : _ ≃ Fin 128).symm k) = ix2 r k := funext fun d => Fin.ext (by
    match d with
    | ⟨0, _⟩ => exact dense3_lhs_0 _ _
    | ⟨1, _⟩ => exact (dense3_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n _ rfl rfl : _ ≃ Fin 128).symm k) = ix2 k q := funext fun d => Fin.ext (by
    match d with
    | ⟨0, _⟩ => exact (dense3_rhs_0 _ _).trans hk
    | ⟨1, _⟩ => exact dense3_rhs_1 _ _)
  rw [el, er]

/-- The reference's dense layer at row `r`, column `q`: the row of the input against the column of the weight, plus the
    bias row at that column, rectified. -/
theorem dense3_apply (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal)) (r : Fin 100000) (q : Fin 128) :
    Cert.ReferenceIdeal.Hand.refLayer128 (F := Ideal) X W B (ix2 r q)
      = max ((∑ k : Fin 128, X (ix2 r k) * W (ix2 k q)) + B (ix2 (0 : Fin 1) q)) (Ideal.ofBits .f32 0x00000000#32) := by
  unfold Cert.ReferenceIdeal.Hand.refLayer128
  rw [maximumf_apply, addf_apply]
  refine congrArg₂ max (congrArg₂ (· + ·) (dense3_mm X W r q) ?_) ?_
  · exact broadcastInDim_apply _ _ _ _ (ix2 (0 : Fin 1) q) (fun a => match a with | ⟨0, _⟩ => rfl | ⟨1, _⟩ => rfl)
  · rw [broadcastInDim_scalar_apply, constant_apply]

/-- The kernel's tile entry and the reference's array entry agree once the operands they read agree: the tile's row
    `p` is the array's row `r`, the weight and the bias row are read whole. Stated over plain vectors and arrays. -/
theorem dense3_point (x0 : Vec Ideal S5000x128 .f32) (x1 : Vec Ideal S128x128 .f32) (x2 : Vec Ideal S1x128 .f32)
    (X : (⟨Cert.ReferenceIdeal.S100000x128, .f32⟩ : BufTy).Contents (Elt Ideal)) (W : (⟨Cert.ReferenceIdeal.S128x128, .f32⟩ : BufTy).Contents (Elt Ideal))
    (B : (⟨Cert.ReferenceIdeal.S1x128, .f32⟩ : BufTy).Contents (Elt Ideal))
    (p : Fin 5000) (q : Fin 128) (r : Fin 100000) (i : Cert.ReferenceIdeal.S100000x128.Idx) (hi : i = ix2 r q)
    (hx : ∀ k : Fin 128, x0 (ix2 p k) = X (ix2 r k)) (hw : ∀ k : Fin 128, x1 (ix2 k q) = W (ix2 k q))
    (hb : x2 (ix2 (0 : Fin 1) q) = B (ix2 (0 : Fin 1) q)) :
    k3_pay1 (F := Ideal) x0 x1 x2 (ix2 p q) = Cert.ReferenceIdeal.Hand.refLayer128 (F := Ideal) X W B i := by
  subst hi
  rw [pay3_apply, dense3_apply, hb]
  exact congrArg₂ max (congrArg₂ (· + ·) (Finset.sum_congr rfl fun k _ => by rw [hx k, hw k]) rfl) rfl

/-! ## From the tiles to the array -/

theorem pay3_hz : (![0, 0] : Fin 2 → Nat) = fun _ => 0 := funext fun a => match a with | ⟨0, _⟩ => rfl | ⟨1, _⟩ => rfl

/-- The printed index maps, decided over the grid: the input tile and the output tile are at row block `t`, column
    block 0; the weight and the bias row are at block (0, 0) at every point. -/
theorem win3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1000000 in
/-- What point `t` writes back is block `t` of the reference's dense layer of the three arrays as the region finds them. -/
theorem flushed3_3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (Cert.ReferenceIdeal.Hand.refLayer128 (F := Ideal) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero pay3_hz]
  simp only [View.ld_unit_zero (S := S5000x128) pay3_hz, View.ld_unit_zero (S := S128x128) pay3_hz, View.ld_unit_zero (S := S1x128) pay3_hz]
  obtain ⟨e0, e1, e2, e3, e4, e5, e6, e7⟩ := win3_idx t
  have ht : t.val < 20 := Nat.lt_of_lt_of_eq t.isLt (show cfg3.N = 20 from N_3)
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (ix2 p q)
    = Cert.ReferenceIdeal.Hand.refLayer128 (F := Ideal) (V c (Pipeline.arrRef spec3 0)) (V c (Pipeline.arrRef spec3 1)) (V c (Pipeline.arrRef spec3 2))
        (((cfg3.win 3).blk t).view.emb (ix2 p q))
  refine dense3_point (iblk3 V c 0 t) (iblk3 V c 1 t) (iblk3 V c 2 t) (V c (Pipeline.arrRef spec3 0)) (V c (Pipeline.arrRef spec3 1)) (V c (Pipeline.arrRef spec3 2))
    p q ⟨t.val * 5000 + p.val, by have := p.isLt; omega⟩ (((cfg3.win 3).blk t).view.emb (ix2 p q)) ?_ ?_ ?_ ?_
  · funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  · intro k
    show V c (Pipeline.arrRef spec3 0) (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * _ + 1 * k.val = k.val; rw [e1, Nat.zero_mul, Nat.one_mul, Nat.zero_add]
  · intro k
    show V c (Pipeline.arrRef spec3 1) (((cfg3.win 1).blk t).view.emb (ix2 k q)) = _
    refine congrArg _ (funext fun a => Fin.ext ?_)
    match a with
    | ⟨0, _⟩ => show win3_1.index t (0 : Fin 2) * _ + 1 * k.val = k.val; rw [e2, Nat.zero_mul, Nat.one_mul, Nat.zero_add]
    | ⟨1, _⟩ => show win3_1.index t (1 : Fin 2) * 128 + 1 * q.val = q.val; omega
  · show V c (Pipeline.arrRef spec3 2) (((cfg3.win 2).blk t).view.emb (ix2 (0 : Fin 1) q)) = _
    refine congrArg _ (funext fun a => Fin.ext ?_)
    match a with
    | ⟨0, _⟩ => show win3_2.index t (0 : Fin 2) * 1 + 1 * (0 : Fin 1).val = (0 : Fin 1).val; rw [e4]; rfl
    | ⟨1, _⟩ => show win3_2.index t (1 : Fin 2) * 128 + 1 * q.val = q.val; omega

/-- An index of the output array is in point `t`'s block iff each coordinate is in the block's range on its axis. -/
theorem flushed3_3_mem (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- Every row of the output array is in the block of the point that its row tile belongs to: row `r` is in tile `r / 5000`. -/
theorem flushed3_3_cover (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e6, e7⟩ := win3_idx t
  refine ⟨t, flush3_3 t, ?_⟩
  rw [flushed3_3_mem]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the twenty row tiles have been written back, the layer's output array is the reference's dense layer of the
    three window arrays (input, weight, bias row) as the region found them. -/
theorem arrAt3_3 (V : (c : Dev nD) → (b : Ref sig .tc) → Buf (Elt Ideal) ((c : Thread nD τ).loc b)) (c : Dev nD) :
    (dat3 (F := Ideal) V c).arrAt 3 cfg3.N
      = Cert.ReferenceIdeal.Hand.refLayer128 (F := Ideal) (V c (Pipeline.arrRef spec3 0)) (V c (Pipeline.arrRef spec3 1)) (V c (Pipeline.arrRef spec3 2)) :=
  (dat3 (F := Ideal) V c).arrAt_eq_of_cover 3 _ (fun t _ => flushed3_3_eq V c t) flushed3_3_cover

end Cert.KernelIdeal.Hand

end
-- ==== Proof.KI.PoolScatter.lean ====
/- The per-graph sums as a scatter-add, read at an index: the sum over ALL nodes of the one-hot entry times the node's
   row entry. -/
import proofs.«420149_j66425964200347_1_alg».proof.Proof.KI.Spec
import proofs.«420149_j66425964200347_1_alg».proof.Proof.KI.RefSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

open Idealize.ShloMosaic.ValueIdx

/-! ## The scatter's dimension numbers read at an update index

The updates are [100000 × 128], the scatter indices the [100000 × 1] column of graph ids, the operand [8 × 128]:
update `(n, j')` starts its window at row `id n` (read signed), column 0, and sits at column `j'` of it. -/

namespace PoolScatter

/-- An update lands at `i` exactly when, on every axis, its window's start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · intro e a
      rw [← e]
      have := h a
      show _ = (((_ : ℤ).toNat : ℕ) : ℤ)
      omega
    · intro e
      funext a
      apply Fin.ext
      have := e a
      show (_ : ℤ).toNat = _
      omega
  · next h =>
    simp only [reduceCtorEq, false_iff]
    intro e
    apply h
    intro a
    have := e a
    have := (i a).isLt
    omega

open Cert.ReferenceIdeal in
/-- The window's start on the row axis is the update row's graph id, read signed. -/
theorem start0 (idx : IVec S100000x1 32) (n : Fin 100000) (j' : Fin 128) :
    scatter_S8x128_S100000x1_S100000x128_1_0_0_1.start (ix2 n j') idx 0 = (idx (ix2 n (0 : Fin 1))).toInt := by
  unfold ScatterDims.start
  rw [dif_pos (by decide)]
  refine congrArg (fun x => (idx x).toInt) ?_
  funext b
  apply Fin.ext
  match b with
  | ⟨0, _⟩ => rfl
  | ⟨1, _⟩ => rfl

open Cert.ReferenceIdeal in
/-- Update `(n, j')` lands at `(g, j)` exactly when row `n`'s id, read signed, is `g` and `j' = j`. -/
theorem lands_iff (idx : IVec S100000x1 32) (n : Fin 100000) (j' : Fin 128) (g : Fin 8) (j : Fin 128) :
    scatter_S8x128_S100000x1_S100000x128_1_0_0_1.resultIdx? (ix2 n j') idx = some (ix2 g j)
      ↔ (idx (ix2 n (0 : Fin 1))).toInt = (g.val : ℤ) ∧ j' = j := by
  rw [resultIdx?_eq_some_iff]
  constructor
  · intro e
    have e0 := e 0
    have e1 := e 1
    rw [start0] at e0
    have w0 : scatter_S8x128_S100000x1_S100000x128_1_0_0_1.window (ix2 n j') 0 = 0 := rfl
    have w1 : scatter_S8x128_S100000x1_S100000x128_1_0_0_1.window (ix2 n j') 1 = j'.val := rfl
    have s1 : scatter_S8x128_S100000x1_S100000x128_1_0_0_1.start (ix2 n j') idx 1 = 0 := rfl
    rw [w0] at e0
    rw [w1, s1] at e1
    have g0 : ((ix2 g j : S8x128.Idx) 0).val = g.val := rfl
    have g1 : ((ix2 g j : S8x128.Idx) 1).val = j.val := rfl
    rw [g0] at e0
    rw [g1] at e1
    refine ⟨by omega, Fin.ext (by omega)⟩
  · rintro ⟨e0, rfl⟩ a
    match a with
    | ⟨0, _⟩ =>
      show scatter_S8x128_S100000x1_S100000x128_1_0_0_1.start (ix2 n j') idx 0 + ((0 : ℕ) : ℤ) = (g.val : ℤ)
      rw [start0, e0]; omega
    | ⟨1, _⟩ =>
      show (0 : ℤ) + ((j'.val : ℕ) : ℤ) = (j'.val : ℤ)
      omega

/-- A 32-bit word read signed is the small natural `g` exactly when it is the word of `g`. -/
theorem toInt_eq_iff (w : BitVec 32) (g : ℕ) (hg : g < 2 ^ 31) : w.toInt = (g : ℤ) ↔ w = BitVec.ofNat 32 g := by
  have hs : (BitVec.ofNat 32 g).toInt = (g : ℤ) := StableHlo.Predicate.toInt_ofNat_small g hg
  constructor
  · intro e; exact BitVec.eq_of_toInt_eq (e.trans hs.symm)
  · rintro rfl; exact hs

/-- The inner sum over an update row's columns keeps the one column `j`, when the row's id is `g`. -/
theorem row_sum (P : Fin 128 → Prop) [DecidablePred P] (A : Prop) [Decidable A] (j : Fin 128) (hP : ∀ j', P j' ↔ A ∧ j' = j)
    (f : Fin 128 → EReal) : (∑ j' : Fin 128, if P j' then f j' else 0) = if A then f j else 0 := by
  by_cases hA : A
  · rw [if_pos hA, Finset.sum_eq_single j]
    · rw [if_pos ((hP j).mpr ⟨hA, rfl⟩)]
    · intro j' _ hne; rw [if_neg (fun hp => hne ((hP j').mp hp).2)]
    · intro hj; exact absurd (Finset.mem_univ j) hj
  · rw [if_neg hA]
    exact Finset.sum_eq_zero fun j' _ => if_neg (fun hp => hA ((hP j').mp hp).1)

/-- The one-hot table at `(n, g)`: 1 where node `n`'s id is the word of `g`, else 0. -/
theorem onehot_apply (gid : (⟨S100000, .i32⟩ : BufTy).Contents (Elt Ideal)) (n : Fin 100000) (g : Fin 8) :
    onehot (F := Ideal) gid (ix2 n g) = if gid (Shape.Idx.ofFin n) = BitVec.ofNat 32 g.val then (1 : EReal) else 0 := by
  have hij : (ix2 n g : S100000x8.Idx) = StableHlo.Predicate.ij n g := by
    funext a; match a with | ⟨0, _⟩ => rfl | ⟨1, _⟩ => rfl
  have hA : broadcastInDim S100000x8 ![0, 1] bcast_S100000x1_S100000x8_0_1 (broadcastInDim S100000x1 ![0] bcast_S100000_S100000x1_0 gid) (ix2 n g)
      = gid (Shape.Idx.ofFin n) := by
    rw [hij]; exact StableHlo.Predicate.bcast_rows _ _ gid n g
  have hB : broadcastInDim S100000x8 ![0, 1] bcast_S1x8_S100000x8_0_1 (broadcastInDim S1x8 ![1] bcast_S8_S1x8_1 (iotaInDim S8 32 0)) (ix2 n g)
      = BitVec.ofNat 32 g.val := by
    rw [hij]; exact (StableHlo.Predicate.bcast_cols _ _ (iotaInDim S8 32 0) n g).trans rfl
  show FloatOps.uitofp (F := Ideal) .f32 (IntOp.cmpi .eq _ _) = _
  rw [hA, hB]
  by_cases h : gid (Shape.Idx.ofFin n) = BitVec.ofNat 32 g.val
  · rw [if_pos h, StableHlo.Predicate.cmpi_eq_iff.mpr h]
    show (((1#1 : BitVec 1).toNat : ℝ) : EReal) = 1
    simp
  · rw [if_neg h]
    have h0 : IntOp.cmpi .eq (gid (Shape.Idx.ofFin n)) (BitVec.ofNat 32 g.val) = 0#1 := by
      have := (StableHlo.Predicate.cmpi_eq_iff (a := gid (Shape.Idx.ofFin n)) (b := BitVec.ofNat 32 g.val)).not.mpr h
      generalize IntOp.cmpi .eq (gid (Shape.Idx.ofFin n)) (BitVec.ofNat 32 g.val) = b at this ⊢
      revert this; revert b; decide
    rw [h0]
    show (((0#1 : BitVec 1).toNat : ℝ) : EReal) = 0
    simp

open Cert.ReferenceIdeal in
/-- The scatter-add read at `(g, j)`: the operand's entry plus the sum over every node `n` of row `n`'s entry at column
    `j`, kept when the node's id (read signed) is `g`. -/
theorem scatterAdd_apply (x : S8x128.Idx → EReal) (idx : IVec S100000x1 32) (h : S100000x128.Idx → EReal) (g : Fin 8) (j : Fin 128) :
    Ideal.hostScatterAdd scatter_S8x128_S100000x1_S100000x128_1_0_0_1 x idx h (ix2 g j)
      = x (ix2 g j) + ∑ n : Fin 100000, if (idx (ix2 n (0 : Fin 1))).toInt = (g.val : ℤ) then h (ix2 n j) else 0 := by
  unfold Ideal.hostScatterAdd
  rw [Finset.sum_filter, sum_idx2]
  refine congrArg (fun t => x (ix2 g j) + t) (Finset.sum_congr rfl fun n _ => ?_)
  exact row_sum _ ((idx (ix2 n (0 : Fin 1))).toInt = (g.val : ℤ)) j (fun j' => lands_iff idx n j' g j) (fun j' => h (ix2 n j'))

end PoolScatter

open PoolScatter in
/-- The reference's per-graph sum at graph `g`, column `j`: the scatter-add adds row `n`'s entry exactly when node `n`'s
    id is `g`, which is the one-hot entry `(n, g)` (1 or 0) times that entry, summed over every node (`1 · x = x` and
    `0 · x = 0` for every extended real). -/
theorem refSums_apply (gid : (⟨S100000, .i32⟩ : BufTy).Contents (Elt Ideal)) (h : (⟨S100000x128, .f32⟩ : BufTy).Contents (Elt Ideal))
    (g : Fin 8) (j : Fin 128) :
    Cert.ReferenceIdeal.Hand.refSums (F := Ideal) gid h (ix2 g j)
      = ∑ n : Fin 100000, onehot (F := Ideal) gid (ix2 n g) * h (ix2 n j) := by
  have hidx : ∀ (hb : S100000.BroadcastsInDim S100000x1 ![0]) (n : Fin 100000),
      (broadcastInDim S100000x1 ![0] hb gid : IVec S100000x1 32) (ix2 n (0 : Fin 1)) = gid (Shape.Idx.ofFin n) := fun hb n => by
    have hp : (ix2 n (0 : Fin 1) : S100000x1.Idx) = StableHlo.Predicate.ixP n := by
      funext a; match a with | ⟨0, _⟩ => rfl | ⟨1, _⟩ => rfl
    rw [hp]; exact StableHlo.Predicate.bcast_col1 hb gid n
  have hz : ∀ (hb : S_.BroadcastsInDim S8x128 ![]),
      (broadcastInDim S8x128 ![] hb (constant (F := Ideal) S_ .f32 0x00000000#32) : S8x128.Idx → EReal) (ix2 g j) = 0 :=
    fun _ => Ideal.ofBits_zero_f32
  refine (scatterAdd_apply _ _ h g j).trans ?_
  rw [hz, zero_add]
  refine Finset.sum_congr rfl fun n _ => ?_
  rw [onehot_apply, hidx]
  by_cases hg : gid (Shape.Idx.ofFin n) = BitVec.ofNat 32 g.val
  · rw [if_pos ((toInt_eq_iff _ g.val (by have := g.isLt; omega)).mpr hg), if_pos hg, one_mul]
  · rw [if_neg (fun e => hg ((toInt_eq_iff _ g.val (by have := g.isLt; omega)).mp e)), if_neg hg, zero_mul]

end Cert.KernelIdeal.Hand

end
-- ==== Proof.KI.P4Val.lean ====
/- The mean-pool pallas_call (number 4) at the ideal instance: after the run its output array holds the per-graph sums
   of the node rows, and those sums are the reference's scatter-add. -/
import proofs.«420149_j66425964200347_1_alg».proof.Proof.KI.P4Defs
import proofs.«420149_j66425964200347_1_alg».proof.Proof.KI.Spec
import proofs.«420149_j66425964200347_1_alg».proof.Proof.KI.RefSpec
import proofs.«420149_j66425964200347_1_alg».proof.Proof.KI.PoolScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## One tile's product, and the two input blocks read off their arrays -/

/-- The tile product at an index: the accumulator there plus the sum over the tile's 5000 rows of the products. -/
theorem poolPay_apply (v3 : Vec Ideal S5000x8 .f32) (v6 : Vec Ideal S5000x128 .f32) (v10 : Vec Ideal S8x128 .f32) (g : Fin 8) (j : Fin 128) :
    k4_pay2 (F := Ideal) v3 v6 v10 (ix2 g j) = v10 (ix2 g j) + ∑ r : Fin 5000, v3 (ix2 r g) * v6 (ix2 r j) := by
  unfold k4_pay2
  simp only [shapeCast_self]
  rw [addf_apply]
  refine (congrArg (v10 (ix2 g j) + ·) (Ideal.matmul_constant_zero_apply dot_S5000x8_S5000x128_S8x128_0_0_1_1_n_n none _ _ (ix2 g j))).trans ?_
  rw [← Equiv.sum_comp (contrEquiv1 dot_S5000x8_S5000x128_S8x128_0_0_1_1_n_n 5000 rfl rfl).symm]
  refine congrArg (v10 (ix2 g j) + ·) (Finset.sum_congr rfl fun c _ => ?_)
  have c2 := contrEquiv1_symm_val dot_S5000x8_S5000x128_S8x128_0_0_1_1_n_n 5000 rfl rfl c
  have l2 : dot_S5000x8_S5000x128_S8x128_0_0_1_1_n_n.lhsIdx (ix2 g j) ((contrEquiv1 _ 5000 rfl rfl).symm c) = ix2 c g := by
    funext ax; apply Fin.ext
    match ax with
    | ⟨0, _⟩ => simp [DotDims.lhsIdx, dot_S5000x8_S5000x128_S8x128_0_0_1_1_n_n]; exact c2
    | ⟨1, _⟩ => simp [DotDims.lhsIdx, dot_S5000x8_S5000x128_S8x128_0_0_1_1_n_n]; rfl
  have r2 : dot_S5000x8_S5000x128_S8x128_0_0_1_1_n_n.rhsIdx (ix2 g j) ((contrEquiv1 _ 5000 rfl rfl).symm c) = ix2 c j := by
    funext ax; apply Fin.ext
    match ax with
    | ⟨0, _⟩ => simp [DotDims.rhsIdx, dot_S5000x8_S5000x128_S8x128_0_0_1_1_n_n]; exact c2
    | ⟨1, _⟩ => simp [DotDims.rhsIdx, dot_S5000x8_S5000x128_S8x128_0_0_1_1_n_n]; rfl
  rw [truncf_apply, truncf_apply, l2, r2]

/-- The block index of the two input windows at point `t` is `(t, 0)`. -/
theorem idx4_0 : ∀ t : Fin grid4.N, win4_0.index t 0 = t.val ∧ win4_0.index t 1 = 0 := by decide +kernel
theorem idx4_1 : ∀ t : Fin grid4.N, win4_1.index t 0 = t.val ∧ win4_1.index t 1 = 0 := by decide +kernel

/-- Window 0's block at point `t` is rows `5000 t …` of its array. -/
theorem iblk4_0_apply (V : (c : Dev nD) → (b : Ref sig .tc) → Buf (Elt Ideal) ((c : Thread nD τ).loc b)) (c : Dev nD) (t : Fin cfg4.N)
    (r : Fin 5000) (g : Fin 8) (h : 5000 * t.val + r.val < 100000) :
    iblk4 (F := Ideal) V c 0 t (ix2 r g) = V c (Pipeline.arrRef spec4 0) (ix2 (⟨5000 * t.val + r.val, h⟩ : Fin 100000) g) := by
  unfold iblk4
  rw [View.read_apply]
  refine congrArg (V c (Pipeline.arrRef spec4 0)) ?_
  refine funext fun a => Fin.ext ?_
  match a with
  | ⟨0, _⟩ =>
    show win4_0.index t 0 * 5000 + 1 * r.val = 5000 * t.val + r.val
    rw [(idx4_0 t).1]; omega
  | ⟨1, _⟩ =>
    show win4_0.index t 1 * 8 + 1 * g.val = g.val
    rw [(idx4_0 t).2]; omega

/-- Window 1's block at point `t` is rows `5000 t …` of its array. -/
theorem iblk4_1_apply (V : (c : Dev nD) → (b : Ref sig .tc) → Buf (Elt Ideal) ((c : Thread nD τ).loc b)) (c : Dev nD) (t : Fin cfg4.N)
    (r : Fin 5000) (j : Fin 128) (h : 5000 * t.val + r.val < 100000) :
    iblk4 (F := Ideal) V c 1 t (ix2 r j) = V c (Pipeline.arrRef spec4 1) (ix2 (⟨5000 * t.val + r.val, h⟩ : Fin 100000) j) := by
  unfold iblk4
  rw [View.read_apply]
  refine congrArg (V c (Pipeline.arrRef spec4 1)) ?_
  refine funext fun a => Fin.ext ?_
  match a with
  | ⟨0, _⟩ =>
    show win4_1.index t 0 * 5000 + 1 * r.val = 5000 * t.val + r.val
    rw [(idx4_1 t).1]; omega
  | ⟨1, _⟩ =>
    show win4_1.index t 1 * 128 + 1 * j.val = j.val
    rw [(idx4_1 t).2]; omega

/-! ## The accumulation over the 20 tiles -/

/-- The product of row `x` of the two arrays at columns `g` and `j` (zero past the last row). -/
def term4 (A : Vec Ideal S100000x8 .f32) (B : Vec Ideal S100000x128 .f32) (g : Fin 8) (j : Fin 128) (x : ℕ) : EReal :=
  if h : x < 100000 then A (ix2 ⟨x, h⟩ g) * B (ix2 ⟨x, h⟩ j) else 0

/-- One tile's sum of products is the sum of the row products over the tile's 5000 rows. -/
theorem tile4_sum (V : (c : Dev nD) → (b : Ref sig .tc) → Buf (Elt Ideal) ((c : Thread nD τ).loc b)) (c : Dev nD) (t : Fin cfg4.N) (g : Fin 8) (j : Fin 128)
    (v3 : Vec Ideal S5000x8 .f32) (v6 : Vec Ideal S5000x128 .f32) (h3 : v3 = iblk4 (F := Ideal) V c 0 t) (h6 : v6 = iblk4 (F := Ideal) V c 1 t) :
    ∑ r : Fin 5000, v3 (ix2 r g) * v6 (ix2 r j)
      = ∑ r ∈ Finset.range 5000, term4 (V c (Pipeline.arrRef spec4 0)) (V c (Pipeline.arrRef spec4 1)) g j (5000 * t.val + r) := by
  subst h3 h6
  rw [Finset.sum_range]
  refine Finset.sum_congr rfl fun r _ => ?_
  have ht : t.val < 20 := t.isLt
  have hr : 5000 * t.val + r.val < 100000 := by have := r.isLt; omega
  rw [iblk4_0_apply V c t r g hr, iblk4_1_apply V c t r j hr]
  unfold term4
  rw [dif_pos hr]

/-- The first point's accumulator is the zero tile. -/
theorem poolZero_apply (i : S8x128.Idx) : k4_pay1 (F := Ideal) i = 0 := by
  unfold k4_pay1
  simp only [shapeCast_self]
  exact Ideal.ofBits_zero_f32

/-- The accumulator after point `n`, at `(g, j)`: the sum of the row products over the rows of the tiles `0 … n`. -/
theorem acc4_apply (V : (c : Dev nD) → (b : Ref sig .tc) → Buf (Elt Ideal) ((c : Thread nD τ).loc b)) (c : Dev nD) (g : Fin 8) (j : Fin 128) :
    ∀ (n : ℕ) (hn : n < cfg4.N), acc4 (F := Ideal) V c n hn (ix2 g j)
      = ∑ x ∈ Finset.range (5000 * (n + 1)), term4 (V c (Pipeline.arrRef spec4 0)) (V c (Pipeline.arrRef spec4 1)) g j x
  | 0, hn => by
    rw [acc4_zero]
    refine (poolPay_apply _ _ _ g j).trans ?_
    rw [poolZero_apply, zero_add]
    refine (tile4_sum V c ⟨0, hn⟩ g j _ _ rfl rfl).trans ?_
    refine Finset.sum_congr rfl fun r _ => ?_
    simp
  | n + 1, hn => by
    rw [acc4_succ]
    refine (poolPay_apply _ _ _ g j).trans ?_
    rw [acc4_apply V c g j n (Nat.lt_of_succ_lt hn),
      show 5000 * (n + 1 + 1) = 5000 * (n + 1) + 5000 by ring, Finset.sum_range_add]
    exact congrArg (_ + ·) (tile4_sum V c ⟨n + 1, hn⟩ g j _ _ rfl rfl)

/-- The rows of all 20 tiles are all 100000 nodes: the last accumulator is the whole sum. -/
theorem acc4_last (V : (c : Dev nD) → (b : Ref sig .tc) → Buf (Elt Ideal) ((c : Thread nD τ).loc b)) (c : Dev nD) (g : Fin 8) (j : Fin 128)
    (A : Vec Ideal S100000x8 .f32) (B : Vec Ideal S100000x128 .f32) (hA : A = V c (Pipeline.arrRef spec4 0)) (hB : B = V c (Pipeline.arrRef spec4 1))
    (h19 : 19 < cfg4.N) :
    acc4 (F := Ideal) V c 19 h19 (ix2 g j) = ∑ n : Fin 100000, A (ix2 n g) * B (ix2 n j) := by
  subst hA hB
  rw [acc4_apply V c g j 19 h19, show 5000 * (19 + 1) = 100000 from rfl, Finset.sum_range]
  refine Finset.sum_congr rfl fun n _ => ?_
  unfold term4
  rw [dif_pos n.isLt]

/-! ## From the last point's block to the output array -/

/-- The accumulator depends on the point's number alone. -/
theorem acc4_congr (V : (c : Dev nD) → (b : Ref sig .tc) → Buf (Elt Ideal) ((c : Thread nD τ).loc b)) (c : Dev nD)
    (n m : ℕ) (hn : n < cfg4.N) (hm : m < cfg4.N) (e : n = m) : acc4 (F := Ideal) V c n hn = acc4 (F := Ideal) V c m hm := by
  subst e; rfl

/-- The output window's block index is `(0, 0)` at every point. -/
theorem idx4_2 : ∀ t : Fin grid4.N, win4_2.index t 0 = 0 ∧ win4_2.index t 1 = 0 := by decide +kernel

/-- What a flushing point (the last) writes back is the last accumulator, the block being the whole array. -/
theorem flushed4_2_eq (V : (c : Dev nD) → (b : Ref sig .tc) → Buf (Elt Ideal) ((c : Thread nD τ).loc b)) (c : Dev nD) (h19 : 19 < cfg4.N)
    (t : Fin cfg4.N) (hf : (cfg4.win 2).flush t = true) :
    (dat4 (F := Ideal) V c).flushed 2 t = ((cfg4.win 2).blk t).view.read (Elt Ideal) (acc4 (F := Ideal) V c 19 h19) := by
  have ht : t.val = 19 := by
    have h1 := (flush4_2 t).mp hf
    have h2 : t.val < 20 := t.isLt
    omega
  show (cfg4.win 2).cut (grid4.coords t) ((dat4 (F := Ideal) V c).after 2 t) = _
  rw [after4_2, acc4_congr V c t.val 19 t.isLt h19 ht]
  funext j
  rw [View.read_apply]
  refine congrArg (acc4 (F := Ideal) V c 19 h19) ?_
  refine funext fun a => Fin.ext ?_
  match a with
  | ⟨0, h0⟩ =>
    show (j ⟨0, h0⟩ : ℕ) = win4_2.index t 0 * 8 + 1 * (j ⟨0, h0⟩ : ℕ)
    rw [(idx4_2 t).1]; omega
  | ⟨1, h1⟩ =>
    show (j ⟨1, h1⟩ : ℕ) = win4_2.index t 1 * 128 + 1 * (j ⟨1, h1⟩ : ℕ)
    rw [(idx4_2 t).2]; omega

/-- Every index of the output array is in the last point's block. -/
theorem cover4_2 (h19 : 19 < cfg4.N) (i : S8x128.Idx) :
    ∃ t : Fin cfg4.N, (cfg4.win 2).flush t = true ∧ i ∈ ((cfg4.win 2).blk t).view.set := by
  refine ⟨⟨19, h19⟩, (flush4_2 ⟨19, h19⟩).mpr rfl, ?_⟩
  show i ∈ ((View.whole main_v93).slice (win4_2.rect ⟨19, h19⟩)).set
  rw [View.set_slice_whole, Rect.mem_set_unit]
  intro a
  match a with
  | ⟨0, _⟩ =>
    show win4_2.index ⟨19, h19⟩ 0 * 8 ≤ (i 0).val ∧ (i 0).val < win4_2.index ⟨19, h19⟩ 0 * 8 + 8
    rw [(idx4_2 ⟨19, h19⟩).1]; have hi : (i 0).val < 8 := (i 0).isLt; omega
  | ⟨1, _⟩ =>
    show win4_2.index ⟨19, h19⟩ 1 * 128 ≤ (i 1).val ∧ (i 1).val < win4_2.index ⟨19, h19⟩ 1 * 128 + 128
    rw [(idx4_2 ⟨19, h19⟩).2]; have hi : (i 1).val < 128 := (i 1).isLt; omega

/-- After the run the output array of pallas_call 4 is the reference's per-graph sums, when the first window's array is
    the one-hot table of the graph ids `gid`: summing `onehot[n, g] * h[n, j]` over all nodes `n`, tile by tile, adds
    `h[n, j]` exactly for the nodes with `gid n = g`. -/
theorem arrAt4_2 (V : (c : Dev nD) → (b : Ref sig .tc) → Buf (Elt Ideal) ((c : Thread nD τ).loc b)) (c : Dev nD) (gid : (⟨S100000, .i32⟩ : BufTy).Contents (Elt Ideal))
    (hoh : V c (Pipeline.arrRef spec4 0) = onehot (F := Ideal) gid) :
    (dat4 (F := Ideal) V c).arrAt 2 cfg4.N
      = Cert.ReferenceIdeal.Hand.refSums (F := Ideal) gid (V c (Pipeline.arrRef spec4 1)) := by
  have h19 : 19 < cfg4.N := by decide
  rw [(dat4 (F := Ideal) V c).arrAt_eq_of_cover 2 (acc4 (F := Ideal) V c 19 h19) (fun t hf => flushed4_2_eq V c h19 t hf) (cover4_2 h19)]
  funext i
  obtain ⟨g, j, rfl⟩ : ∃ (g : Fin 8) (j : Fin 128), i = ix2 g j := ⟨i 0, i 1, eq_ix2 i⟩
  rw [acc4_last V c g j (onehot (F := Ideal) gid) (V c (Pipeline.arrRef spec4 1)) hoh.symm rfl h19]
  exact (refSums_apply gid (V c (Pipeline.arrRef spec4 1)) g j).symm

end Cert.KernelIdeal.Hand

end
-- ==== Proof.KI.P4Counts.lean ====
/- The node counts: the column sums of the one-hot table of the graph ids are the reference's scatter-add of ones. -/
import proofs.«420149_j66425964200347_1_alg».proof.Proof.KI.Spec
import proofs.«420149_j66425964200347_1_alg».proof.Proof.KI.RefSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

open Idealize.ShloMosaic.StableHlo.Predicate (ij ixP i1q)
open scoped BigOperators

/-- A vector's indices are its positions. -/
def idxEquiv (n : ℕ) : Fin n ≃ (⟨1, ![n]⟩ : Shape).Idx where
  toFun := Shape.Idx.ofFin
  invFun j := j 0
  left_inv k := Shape.Idx.ofFin_zero k
  right_inv j := (Shape.Idx.eq_ofFin j).symm

/-- A one-bit word widened to a float is 1 where the bit is set and 0 where it is not. -/
theorem uitofp_bit (b : BitVec 1) (P : Prop) [Decidable P] (h : b = 1#1 ↔ P) :
    (FloatOps.uitofp (F := Ideal) .f32 b : EReal) = if P then 1 else 0 := by
  show (((b.toNat : ℝ)) : EReal) = _
  rcases BitVec.eq_zero_or_eq_one b with rfl | rfl
  · rw [if_neg (fun hp => absurd (h.mpr hp) (by decide))]; simp
  · rw [if_pos (h.mp rfl)]; simp

/-- The one-hot table read at (node, graph). -/
theorem onehot_apply (gid : (⟨S100000, .i32⟩ : BufTy).Contents (Elt Ideal)) (k : Fin 100000) (q : Fin 8) :
    onehot (F := Ideal) gid (ij k q) = if gid (Shape.Idx.ofFin k) = BitVec.ofNat 32 q.val then (1 : EReal) else 0 := by
  show FloatOps.uitofp (F := Ideal) .f32 (IntOp.cmpi .eq
      (broadcastInDim S100000x8 ![0, 1] bcast_S100000x1_S100000x8_0_1 (broadcastInDim S100000x1 ![0] bcast_S100000_S100000x1_0 gid) (ij k q))
      (broadcastInDim S100000x8 ![0, 1] bcast_S1x8_S100000x8_0_1 (broadcastInDim S1x8 ![1] bcast_S8_S1x8_1 (iotaInDim S8 32 0)) (ij k q))) = _
  rw [StableHlo.Predicate.bcast_rows, StableHlo.Predicate.bcast_cols, StableHlo.Predicate.iota_apply]
  exact uitofp_bit _ _ StableHlo.Predicate.cmpi_eq_iff

/-- The column sums read at a graph: zero plus the sum down the column. -/
theorem countsOf_apply (oh : (⟨S100000x8, .f32⟩ : BufTy).Contents (Elt Ideal)) (g : S8.Idx) :
    countsOf (F := Ideal) oh g = 0 + ∑ k : Fin 100000, oh (ij k (g 0)) := by
  have hred : S100000x8.Reduces [0] S8 := by decide
  show Ideal.hostReduceAdd reducesTo_S100000x8_S8_d0 oh (Ideal.ofBits .f32 0x00000000#32) g = _
  rw [Ideal.hostReduceAdd_single _ hred, Ideal.ofBits_zero_f32]
  refine congrArg (0 + ·) (Finset.sum_congr rfl fun k _ => congrArg oh ?_)
  funext b
  match b with
  | ⟨0, _⟩ => exact Fin.ext rfl
  | ⟨1, _⟩ => exact Fin.ext rfl

/-- Where the reference's scatter of ones lands: update `j` lands at graph `g` exactly when the start index read for
    it, as a signed number, is `g`. -/
theorem resultIdx_counts (idx : IVec Cert.ReferenceIdeal.S100000x1 32) (j : Cert.ReferenceIdeal.S100000.Idx) (g : Cert.ReferenceIdeal.S8.Idx) :
    Cert.ReferenceIdeal.scatter_S8_S100000x1_S100000_n_0_0_1.resultIdx? j idx = some g
      ↔ (idx (ixP (j 0))).toInt = ((g 0).val : ℤ) := by
  have hs : ∀ a, Cert.ReferenceIdeal.scatter_S8_S100000x1_S100000_n_0_0_1.start j idx a = (idx (ixP (j 0))).toInt := fun a => by
    have ha : a = 0 := Subsingleton.elim _ _
    subst ha
    unfold ScatterDims.start
    rw [dif_pos (by decide)]
    refine congrArg (fun i => (idx i).toInt) ?_
    funext b
    match b with
    | ⟨0, _⟩ => exact Fin.ext rfl
    | ⟨1, _⟩ => exact Fin.ext rfl
  have hw : ∀ a, Cert.ReferenceIdeal.scatter_S8_S100000x1_S100000_n_0_0_1.window j a = 0 := fun a => by
    have ha : a = 0 := Subsingleton.elim _ _
    subst ha
    unfold ScatterDims.window
    rw [dif_neg (by decide)]
  have h8 : ∀ a : Fin Cert.ReferenceIdeal.S8.rank, Cert.ReferenceIdeal.S8.size a = 8 := fun a => by
    have ha : a = 0 := Subsingleton.elim _ _
    subst ha; rfl
  have hg := (g 0).isLt
  have hg8 : (g 0).val < 8 := hg
  unfold ScatterDims.resultIdx?
  constructor
  · intro e
    split at e
    · next h =>
      have e0 := congrArg Fin.val (congrFun (Option.some.inj e) 0)
      have hh := h 0
      simp only [hs, hw, h8] at e0 hh
      omega
    · exact absurd e (by simp)
  · intro e
    rw [dif_pos (fun a => by rw [hs, hw, h8]; omega)]
    refine congrArg some (funext fun a => ?_)
    have ha : a = 0 := Subsingleton.elim _ _
    subst ha
    apply Fin.ext
    show (Cert.ReferenceIdeal.scatter_S8_S100000x1_S100000_n_0_0_1.start j idx 0 + Cert.ReferenceIdeal.scatter_S8_S100000x1_S100000_n_0_0_1.window j 0).toNat = (g 0).val
    rw [hs, hw, e]; simp

/-- A 32-bit word read signed is a small natural number exactly when it is that number's word. -/
theorem toInt_eq_small (x : BitVec 32) (q : ℕ) (hq : q < 2 ^ 31) : x.toInt = (q : ℤ) ↔ x = BitVec.ofNat 32 q := by
  constructor
  · intro e; exact BitVec.eq_of_toInt_eq (e.trans (StableHlo.Predicate.toInt_ofNat_small q hq).symm)
  · rintro rfl; exact StableHlo.Predicate.toInt_ofNat_small q hq

/-- Over the graph ids laid out as a column: update `j` lands at graph `g` exactly when node `j`'s id is `g`'s word. -/
theorem resultIdx_counts_gid (h : (⟨1, ![100000]⟩ : Shape).BroadcastsInDim ⟨2, ![100000, 1]⟩ ![0])
    (gid : (⟨1, ![100000]⟩ : Shape).Idx → BitVec 32) (j : (⟨1, ![100000]⟩ : Shape).Idx) (g : (⟨1, ![8]⟩ : Shape).Idx) :
    Cert.ReferenceIdeal.scatter_S8_S100000x1_S100000_n_0_0_1.resultIdx? j (broadcastInDim ⟨2, ![100000, 1]⟩ ![0] h gid) = some g
      ↔ gid j = BitVec.ofNat 32 (g 0).val := by
  have hg8 : (g 0).val < 8 := (g 0).isLt
  rw [resultIdx_counts,
    show broadcastInDim (⟨2, ![100000, 1]⟩ : Shape) ![0] h gid (ixP (j 0)) = gid j from
      (StableHlo.Predicate.bcast_col1 h gid (j 0)).trans (congrArg gid (Shape.Idx.eq_ofFin j).symm)]
  exact toInt_eq_small _ _ (by omega)

/-- The reference's node counts read at a graph: zero plus one for every node whose id is the graph's word. -/
theorem refCounts_apply (gid : (⟨S100000, .i32⟩ : BufTy).Contents (Elt Ideal)) (g : S8.Idx) :
    Cert.ReferenceIdeal.Hand.refCounts (F := Ideal) gid g
      = 0 + ∑ k : Fin 100000, if gid (Shape.Idx.ofFin k) = BitVec.ofNat 32 (g 0).val then (1 : EReal) else 0 := by
  have hg8 : (g 0).val < 8 := (g 0).isLt
  unfold Cert.ReferenceIdeal.Hand.refCounts Host.scatterAdd
  rw [Ideal.hostScatterAdd_def]
  unfold Ideal.hostScatterAdd
  show Ideal.ofBits .f32 0x00000000#32 + ∑ j ∈ Finset.univ.filter _, Ideal.ofBits .f32 0x3F800000#32 = _
  rw [Ideal.ofBits_zero_f32, Ideal.ofBits_one_f32]
  rw [Finset.filter_congr (q := fun j => gid j = BitVec.ofNat 32 (g 0).val) (fun j _ => resultIdx_counts_gid _ gid j g),
    Finset.sum_filter]
  exact congrArg (0 + ·) (Equiv.sum_comp (idxEquiv 100000) fun j => if gid j = BitVec.ofNat 32 (g 0).val then (1 : EReal) else 0).symm

/-- The column sums of the one-hot table are the reference's node counts: both are, for each graph `g`, zero plus the
    number of nodes whose id is `g`. -/
theorem counts_onehot (gid : (⟨S100000, .i32⟩ : BufTy).Contents (Elt Ideal)) :
    countsOf (F := Ideal) (onehot (F := Ideal) gid) = Cert.ReferenceIdeal.Hand.refCounts (F := Ideal) gid := by
  funext g
  rw [countsOf_apply, refCounts_apply]
  exact congrArg (0 + ·) (Finset.sum_congr rfl fun k _ => onehot_apply gid k (g 0))

end Cert.KernelIdeal.Hand

end
-- ==== Proof.KI.Net.lean ====
/- The whole network as ONE function of @main's fourteen arguments, in the reference's own pieces; the reference's
   result is that function of its arguments. -/
import proofs.«420149_j66425964200347_1_alg».proof.Proof.KI.Spec
import proofs.«420149_j66425964200347_1_alg».proof.Proof.KI.RefSpec
import proofs.«420149_j66425964200347_1_alg».proof.Proof.Gen.ReferenceIdeal.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Cert.ReferenceIdeal.Hand (refLayer5 refLayer128 biasRow refSums refCounts)

/-- The first graph convolution: the sparse part on the 5 feature columns, then the dense layer. -/
def conv1 (x : (⟨S100000x5, .f32⟩ : BufTy).Contents (Elt Ideal)) (src dst : (⟨S600000, .i32⟩ : BufTy).Contents (Elt Ideal)) (w : (⟨S5x128, .f32⟩ : BufTy).Contents (Elt Ideal)) (b : (⟨S128, .f32⟩ : BufTy).Contents (Elt Ideal)) :
    (⟨S100000x128, .f32⟩ : BufTy).Contents (Elt Ideal) :=
  refLayer5 (F := Ideal) (aggr5 (F := Ideal) x src dst (isqrtDeg (F := Ideal) src) (isqrtDeg (F := Ideal) dst)) w (biasRow (F := Ideal) b)

/-- A later graph convolution: the sparse part on 128 columns, then the dense layer. -/
def convN (h : (⟨S100000x128, .f32⟩ : BufTy).Contents (Elt Ideal)) (src dst : (⟨S600000, .i32⟩ : BufTy).Contents (Elt Ideal)) (w : (⟨S128x128, .f32⟩ : BufTy).Contents (Elt Ideal)) (b : (⟨S128, .f32⟩ : BufTy).Contents (Elt Ideal)) :
    (⟨S100000x128, .f32⟩ : BufTy).Contents (Elt Ideal) :=
  refLayer128 (F := Ideal) (aggr128 (F := Ideal) h src dst (isqrtDeg (F := Ideal) src) (isqrtDeg (F := Ideal) dst)) w (biasRow (F := Ideal) b)

/-- Four graph convolutions, the per-graph mean of the node rows, the projection. -/
def netOut (x : (⟨S100000x5, .f32⟩ : BufTy).Contents (Elt Ideal)) (src dst : (⟨S600000, .i32⟩ : BufTy).Contents (Elt Ideal)) (gid : (⟨S100000, .i32⟩ : BufTy).Contents (Elt Ideal))
    (w1 : (⟨S5x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal)) (w4 : (⟨S128x128, .f32⟩ : BufTy).Contents (Elt Ideal)) (b4 : (⟨S128, .f32⟩ : BufTy).Contents (Elt Ideal))
    (wp : (⟨S128x1, .f32⟩ : BufTy).Contents (Elt Ideal)) (bp : (⟨S1, .f32⟩ : BufTy).Contents (Elt Ideal)) : (⟨S8x1, .f32⟩ : BufTy).Contents (Elt Ideal) :=
  headOf (F := Ideal)
    (refSums (F := Ideal) gid (convN (convN (convN (conv1 x src dst w1 b1) src dst w2 b2) src dst w3 b3) src dst w4 b4))
    (refCounts (F := Ideal) gid) wp bp

open Cert.ReferenceIdeal in
/-- The reference's composed result term IS `netOut` of its arguments: the same operations in the same order, spelt
    with the pieces named. -/
theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v112 (F := Ideal) m c
      = netOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13)) := by
  unfold Cert.ReferenceIdeal.Value.res_main_v112 netOut convN conv1 headOf refSums refCounts refLayer128 refLayer5 biasRow aggr128 aggr5 srcIdx isqrtDeg
  rfl

end Cert.KernelIdeal.Hand

end
-- ==== Proof.KI.Out.lean ====
/- @main's result at the ideal instance is the network `netOut` of the fourteen arguments: each pallas_call's output
   array is the reference's piece of what it found in its window arrays, and each window array is the shared host
   computation of the arguments and of the pallas_call before. -/
import proofs.«420149_j66425964200347_1_alg».proof.Proof.KI.Run
import proofs.«420149_j66425964200347_1_alg».proof.Proof.KI.Args
import proofs.«420149_j66425964200347_1_alg».proof.Proof.KI.Reads1
import proofs.«420149_j66425964200347_1_alg».proof.Proof.KI.Reads2
import proofs.«420149_j66425964200347_1_alg».proof.Proof.KI.D0Val
import proofs.«420149_j66425964200347_1_alg».proof.Proof.KI.D1Val
import proofs.«420149_j66425964200347_1_alg».proof.Proof.KI.D2Val
import proofs.«420149_j66425964200347_1_alg».proof.Proof.KI.D3Val
import proofs.«420149_j66425964200347_1_alg».proof.Proof.KI.P4Val
import proofs.«420149_j66425964200347_1_alg».proof.Proof.KI.P4Counts
import proofs.«420149_j66425964200347_1_alg».proof.Proof.KI.Net

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first dense layer leaves: the first graph convolution of the arguments. -/
theorem layer1_out (c : Dev nD) :
    (dat0 (F := Ideal) (V1 m ρ) c).arrAt 3 cfg0.N = conv1 (m ((c : Thread nD τ).loc main_arg0)) (m ((c : Thread nD τ).loc main_arg1)) (m ((c : Thread nD τ).loc main_arg2)) (m ((c : Thread nD τ).loc main_arg4)) (m ((c : Thread nD τ).loc main_arg5)) := by
  rw [arrAt0_3, read1_x, read1_w, read1_b]; rfl

/-- What the second dense layer leaves. -/
theorem layer2_out (c : Dev nD) :
    (dat1 (F := Ideal) (V3 m ρ) c).arrAt 3 cfg1.N
      = convN (conv1 (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) := by
  rw [arrAt1_3, read3_x, read3_w, read3_b, layer1_out]; rfl

/-- What the third dense layer leaves. -/
theorem layer3_out (c : Dev nD) :
    (dat2 (F := Ideal) (V5 m ρ) c).arrAt 3 cfg2.N
      = convN (convN (conv1 (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) := by
  rw [arrAt2_3, read5_x, read5_w, read5_b, layer2_out]; rfl

/-- What the fourth dense layer leaves. -/
theorem layer4_out (c : Dev nD) :
    (dat3 (F := Ideal) (V7 m ρ) c).arrAt 3 cfg3.N
      = convN (convN (convN (conv1 (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9))) (m ((c : Thread nD τ).loc main_arg1)) (m ((c : Thread nD τ).loc main_arg2)) (m ((c : Thread nD τ).loc main_arg10)) (m ((c : Thread nD τ).loc main_arg11)) := by
  rw [arrAt3_3, read7_x, read7_w, read7_b, layer3_out]; rfl

/-- @main's result buffer at the last boundary is the network of the arguments. -/
theorem kernel_out (c : Dev nD) :
    W11 m ρ c (Proc.devRef .tc main_v102)
      = netOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [read11_out, arrAt4_2 (V9 m ρ) c (m ((c : Thread nD τ).loc main_arg3)) (read9_oh m ρ c), read9_h, layer4_out, counts_onehot]; rfl

/-- The run with its result named: every weakly fair execution terminates with the result buffer at the network of the
    arguments and every argument as launched. -/
theorem run_value : θ_run defs (onTc (τ := τ) (main (F := Ideal))) ⟨m, fun _ => 0, ρ⟩ (fun r => ∀ c : Dev nD,
      r.2.mem ((c.tc : Thread nD τ).loc main_v102) = netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v102 (by decide))).trans (kernel_out m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all (F := Ideal) m ρ)

end Cert.KernelIdeal.Hand

end
-- ==== Proof.lean ====
/- The kernel (a four-layer graph convolution network whose dense layers and mean-pool sums run as pallas_calls) against
   its jnp reference, over the extended reals.

   The two programs share every host operation of the sparse part (degree counts, gather, scatter-add, scalings) and of
   the head (division by the clipped counts, projection, bias). They differ in three places. (1) A dense layer
   `max (x · W + b, 0)` is computed row tile by row tile (20 tiles of 5000 rows) by a matrix-unit product into a zero
   accumulator, the bias row broadcast, a maximum with zero; the reference computes one whole `dot_general`, adds the
   broadcast bias, and takes the maximum with zero: at the ideal instance both are, index by index, the same finite sum
   of products. (2) The per-graph sums of the node rows are, in the kernel, the product of the transposed one-hot table
   of the graph ids with the node rows, accumulated over the 20 row tiles in a scratch buffer; in the reference a
   scatter-add of the rows at the graph ids: since `0 · x = 0` and `1 · x = x` for every extended real `x`, both are
   the sum of the rows whose graph id is the given graph (ids outside `[0, 8)` contribute to neither). (3) The node
   counts are the column sums of the one-hot table in the kernel and a scatter-add of ones in the reference. No law used
   needs finiteness, so the precondition is never opened.

   The frames: @main is six host stretches and five pallas_calls, composed over the library's several-regions launch;
   each pallas_call's body obligation is proved at a generic grid point (the mean-pool call with its scratch accumulator
   tracked from point to point). The word-level program differs from the idealized one in its name only. -/
import proofs.«420149_j66425964200347_1_alg».proof.Defs
import proofs.«420149_j66425964200347_1_alg».proof.Proof.Gen.Kernel
import proofs.«420149_j66425964200347_1_alg».proof.Proof.Gen.KernelIdeal
import proofs.«420149_j66425964200347_1_alg».proof.Proof.Gen.ReferenceIdeal
import proofs.«420149_j66425964200347_1_alg».proof.Proof.Gen.Pre_finite_inputs
import proofs.«420149_j66425964200347_1_alg».proof.Proof.Gen.ReferenceIdeal.Run
import proofs.«420149_j66425964200347_1_alg».proof.Proof.K.Frame
import proofs.«420149_j66425964200347_1_alg».proof.Proof.KI.Frame
import proofs.«420149_j66425964200347_1_alg».proof.Proof.KI.Out
import Idealize.ShloMosaic.Adequacy
import Idealize.ShloMosaic.Init

set_option maxRecDepth 16384

noncomputable section

namespace Cert.Proof

open Idealize.ShloMosaic Idealize.SL.Sem

/-- The word-level program runs and keeps its arguments. -/
theorem frame_k : Cert.frame_Kernel := fun m ρ _ => Cert.Kernel.Hand.frame (F := Bits) m ρ

/-- The idealized program runs and keeps its arguments. -/
theorem frame_ki : Cert.frame_KernelIdeal := fun m ρ _ => Cert.KernelIdeal.Hand.frame (F := Ideal) m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network `netOut` of their (agreeing) arguments in the result buffer. -/
theorem algebraic : Cert.algebraic_KernelIdeal_ReferenceIdeal := by
  intro m ρ m' ρ' _ hagree
  refine ⟨fun c => Cert.KernelIdeal.Hand.netOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.KernelIdeal.Hand.ref_out m' c, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
